-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) →
    ∃ (v0 : (c : Dev Cert.KernelIdeal.nD) → Buf (Elt Ideal) ((c.tc : Thread Cert.KernelIdeal.nD Cert.KernelIdeal.τ).loc Cert.KernelIdeal.main_v37)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v37) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v30) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S16384x512 : Shape := ⟨2, ![16384, 512]⟩
abbrev S16384x16384 : Shape := ⟨2, ![16384, 16384]⟩
abbrev S512x128 : Shape := ⟨2, ![512, 128]⟩
abbrev S256x128 : Shape := ⟨2, ![256, 128]⟩
abbrev S128x1 : Shape := ⟨2, ![128, 1]⟩
abbrev S524288x2 : Shape := ⟨2, ![524288, 2]⟩
abbrev S_ : Shape := ⟨0, ![]⟩

class Facts : Prop where
  bcast_S_S16384x512 : S_.BroadcastsInDim S16384x512 (![] : Fin 0 → Fin S16384x512.rank)
  reducesTo_S16384x512_S_d0_1 : S16384x512.ReducesTo [0, 1] S_
  h_S_ : 0 < S_.numel
  bcast_S_S16384x16384 : S_.BroadcastsInDim S16384x16384 (![] : Fin 0 → Fin S16384x16384.rank)
  reducesTo_S16384x16384_S_d0_1 : S16384x16384.ReducesTo [0, 1] S_
  bcast_S_S512x128 : S_.BroadcastsInDim S512x128 (![] : Fin 0 → Fin S512x128.rank)
  reducesTo_S512x128_S_d0_1 : S512x128.ReducesTo [0, 1] S_
  bcast_S_S256x128 : S_.BroadcastsInDim S256x128 (![] : Fin 0 → Fin S256x128.rank)
  reducesTo_S256x128_S_d0_1 : S256x128.ReducesTo [0, 1] S_
  bcast_S_S128x1 : S_.BroadcastsInDim S128x1 (![] : Fin 0 → Fin S128x1.rank)
  reducesTo_S128x1_S_d0_1 : S128x1.ReducesTo [0, 1] S_

variable [Facts]

def fn_part1 {F : FTy → Type} [FloatOps F] (main_arg4 : FVec F S128x1 .f32) (main_v13 : IVec S_ 1) (main_v16 : IVec S256x128 1) : IVec S_ 1 :=
  let main_c_5 : IVec S_ 1 := constantI S_ 1 1#1
  let main_v17 : IVec S_ 1 := (fun x v => Host.reduce IntOp.andi x v reducesTo_S256x128_S_d0_1 h_S_) main_v16 main_c_5
  let main_v18 : IVec S_ 1 := andi main_v13 main_v17
  let main_v19 : FVec F S128x1 .f32 := Host.absf main_arg4
  let main_cst_6 : FVec F S_ .f32 := constant S_ .f32 0x7F800000#32
  let main_v20 : FVec F S128x1 .f32 := broadcastInDim S128x1 ![] bcast_S_S128x1 main_cst_6
  let main_v21 : IVec S128x1 1 := cmpf .olt main_v19 main_v20
  let main_c_7 : IVec S_ 1 := constantI S_ 1 1#1
  let main_v22 : IVec S_ 1 := (fun x v => Host.reduce IntOp.andi x v reducesTo_S128x1_S_d0_1 h_S_) main_v21 main_c_7
  let main_v23 : IVec S_ 1 := andi main_v18 main_v22
  main_v23

def fn {F : FTy → Type} [FloatOps F] (main_arg0 : FVec F S16384x512 .f32) (main_arg1 : FVec F S16384x16384 .f32) (main_arg2 : FVec F S512x128 .f32) (main_arg3 : FVec F S256x128 .f32) (main_arg4 : FVec F S128x1 .f32) (main_arg5 : IVec S524288x2 32) (main_arg6 : IVec S524288x2 32) : IVec S_ 1 :=
  let main_v0 : FVec F S16384x512 .f32 := Host.absf main_arg0
  let main_cst : FVec F S_ .f32 := constant S_ .f32 0x7F800000#32
  let main_v1 : FVec F S16384x512 .f32 := broadcastInDim S16384x512 ![] bcast_S_S16384x512 main_cst
  let main_v2 : IVec S16384x512 1 := cmpf .olt main_v0 main_v1
  let main_c : IVec S_ 1 := constantI S_ 1 1#1
  let main_v3 : IVec S_ 1 := (fun x v => Host.reduce IntOp.andi x v reducesTo_S16384x512_S_d0_1 h_S_) main_v2 main_c
  let main_v4 : FVec F S16384x16384 .f32 := Host.absf main_arg1
  let main_cst_0 : FVec F S_ .f32 := constant S_ .f32 0x7F800000#32
  let main_v5 : FVec F S16384x16384 .f32 := broadcastInDim S16384x16384 ![] bcast_S_S16384x16384 main_cst_0
  let main_v6 : IVec S16384x16384 1 := cmpf .olt main_v4 main_v5
  let main_c_1 : IVec S_ 1 := constantI S_ 1 1#1
  let main_v7 : IVec S_ 1 := (fun x v => Host.reduce IntOp.andi x v reducesTo_S16384x16384_S_d0_1 h_S_) main_v6 main_c_1
  let main_v8 : IVec S_ 1 := andi main_v3 main_v7
  let main_v9 : FVec F S512x128 .f32 := Host.absf main_arg2
  let main_cst_2 : FVec F S_ .f32 := constant S_ .f32 0x7F800000#32
  let main_v10 : FVec F S512x128 .f32 := broadcastInDim S512x128 ![] bcast_S_S512x128 main_cst_2
  let main_v11 : IVec S512x128 1 := cmpf .olt main_v9 main_v10
  let main_c_3 : IVec S_ 1 := constantI S_ 1 1#1
  let main_v12 : IVec S_ 1 := (fun x v => Host.reduce IntOp.andi x v reducesTo_S512x128_S_d0_1 h_S_) main_v11 main_c_3
  let main_v13 : IVec S_ 1 := andi main_v8 main_v12
  let main_v14 : FVec F S256x128 .f32 := Host.absf main_arg3
  let main_cst_4 : FVec F S_ .f32 := constant S_ .f32 0x7F800000#32
  let main_v15 : FVec F S256x128 .f32 := broadcastInDim S256x128 ![] bcast_S_S256x128 main_cst_4
  let main_v16 : IVec S256x128 1 := cmpf .olt main_v14 main_v15
  fn_part1 (F := F) main_arg4 main_v13 main_v16
-- ==== Kernel.lean ====
abbrev S16384x512 : Shape := ⟨2, ![16384, 512]⟩
abbrev S16384x16384 : Shape := ⟨2, ![16384, 16384]⟩
abbrev S512x128 : Shape := ⟨2, ![512, 128]⟩
abbrev S256x128 : Shape := ⟨2, ![256, 128]⟩
abbrev S128x1 : Shape := ⟨2, ![128, 1]⟩
abbrev S524288x2 : Shape := ⟨2, ![524288, 2]⟩
abbrev S128x128 : Shape := ⟨2, ![128, 128]⟩
abbrev S128x2 : Shape := ⟨2, ![128, 2]⟩
abbrev S16384x128 : Shape := ⟨2, ![16384, 128]⟩
abbrev S2048x512 : Shape := ⟨2, ![2048, 512]⟩
abbrev S2048x128 : Shape := ⟨2, ![2048, 128]⟩
abbrev S16384x2 : Shape := ⟨2, ![16384, 2]⟩
abbrev S2048x1024 : Shape := ⟨2, ![2048, 1024]⟩
abbrev S1024x128 : Shape := ⟨2, ![1024, 128]⟩
abbrev S2048x2 : Shape := ⟨2, ![2048, 2]⟩
abbrev S1048576x2 : Shape := ⟨2, ![1048576, 2]⟩
abbrev S1048576x1 : Shape := ⟨2, ![1048576, 1]⟩
abbrev S1048576 : Shape := ⟨1, ![1048576]⟩
abbrev S16384x1 : Shape := ⟨2, ![16384, 1]⟩
abbrev S16384 : Shape := ⟨1, ![16384]⟩
abbrev S_ : Shape := ⟨0, ![]⟩

abbrev nBuf : Space → Nat
  | .hbm => 51
  | .vmem => 13
  | .smem => 0
  | _ => 0

abbrev bufTy : (tb : Table) → Fin (tcTables nBuf tb) → BufTy
  | .hbm, ⟨0, _⟩ => ⟨S16384x512, .f32⟩
  | .hbm, ⟨1, _⟩ => ⟨S16384x16384, .f32⟩
  | .hbm, ⟨2, _⟩ => ⟨S512x128, .f32⟩
  | .hbm, ⟨3, _⟩ => ⟨S256x128, .f32⟩
  | .hbm, ⟨4, _⟩ => ⟨S128x1, .f32⟩
  | .hbm, ⟨5, _⟩ => ⟨S524288x2, .i32⟩
  | .hbm, ⟨6, _⟩ => ⟨S524288x2, .i32⟩
  | .hbm, ⟨7, _⟩ => ⟨S128x128, .f32⟩
  | .hbm, ⟨8, _⟩ => ⟨S128x1, .f32⟩
  | .hbm, ⟨9, _⟩ => ⟨S128x128, .f32⟩
  | .hbm, ⟨10, _⟩ => ⟨S128x1, .f32⟩
  | .hbm, ⟨11, _⟩ => ⟨S128x2, .f32⟩
  | .hbm, ⟨12, _⟩ => ⟨S16384x128, .bf16⟩
  | .hbm, ⟨13, _⟩ => ⟨S16384x2, .f32⟩
  | .hbm, ⟨14, _⟩ => ⟨S1048576x2, .i32⟩
  | .hbm, ⟨15, _⟩ => ⟨S1048576x1, .i32⟩
  | .hbm, ⟨16, _⟩ => ⟨S1048576, .i32⟩
  | .hbm, ⟨17, _⟩ => ⟨S1048576x1, .i32⟩
  | .hbm, ⟨18, _⟩ => ⟨S1048576, .i32⟩
  | .hbm, ⟨19, _⟩ => ⟨S16384x1, .f32⟩
  | .hbm, ⟨20, _⟩ => ⟨S16384, .f32⟩
  | .hbm, ⟨21, _⟩ => ⟨S16384x1, .f32⟩
  | .hbm, ⟨22, _⟩ => ⟨S16384, .f32⟩
  | .hbm, ⟨23, _⟩ => ⟨S_, .i32⟩
  | .hbm, ⟨24, _⟩ => ⟨S1048576, .i32⟩
  | .hbm, ⟨25, _⟩ => ⟨S1048576, .i1⟩
  | .hbm, ⟨26, _⟩ => ⟨S_, .i32⟩
  | .hbm, ⟨27, _⟩ => ⟨S1048576, .i32⟩
  | .hbm, ⟨28, _⟩ => ⟨S1048576, .i32⟩
  | .hbm, ⟨29, _⟩ => ⟨S1048576, .i32⟩
  | .hbm, ⟨30, _⟩ => ⟨S1048576x1, .i32⟩
  | .hbm, ⟨31, _⟩ => ⟨S1048576, .f32⟩
  | .hbm, ⟨32, _⟩ => ⟨S_, .i32⟩
  | .hbm, ⟨33, _⟩ => ⟨S1048576, .i32⟩
  | .hbm, ⟨34, _⟩ => ⟨S1048576, .i1⟩
  | .hbm, ⟨35, _⟩ => ⟨S_, .i32⟩
  | .hbm, ⟨36, _⟩ => ⟨S1048576, .i32⟩
  | .hbm, ⟨37, _⟩ => ⟨S1048576, .i32⟩
  | .hbm, ⟨38, _⟩ => ⟨S1048576, .i32⟩
  | .hbm, ⟨39, _⟩ => ⟨S1048576x1, .i32⟩
  | .hbm, ⟨40, _⟩ => ⟨S1048576, .f32⟩
  | .hbm, ⟨41, _⟩ => ⟨S1048576, .f32⟩
  | .hbm, ⟨42, _⟩ => ⟨S1048576, .f32⟩
  | .hbm, ⟨43, _⟩ => ⟨S1048576, .f32⟩
  | .hbm, ⟨44, _⟩ => ⟨S_, .f32⟩
  | .hbm, ⟨45, _⟩ => ⟨S1048576, .f32⟩
  | .hbm, ⟨46, _⟩ => ⟨S1048576, .f32⟩
  | .hbm, ⟨47, _⟩ => ⟨S_, .f32⟩
  | .hbm, ⟨48, _⟩ => ⟨S1048576, .f32⟩
  | .hbm, ⟨49, _⟩ => ⟨S1048576, .f32⟩
  | .hbm, ⟨50, _⟩ => ⟨S1048576x1, .f32⟩
  | .local _ .vmem, ⟨0, _⟩ => ⟨S2048x512, .f32⟩
  | .local _ .vmem, ⟨1, _⟩ => ⟨S2048x512, .f32⟩
  | .local _ .vmem, ⟨2, _⟩ => ⟨S512x128, .f32⟩
  | .local _ .vmem, ⟨3, _⟩ => ⟨S2048x128, .bf16⟩
  | .local _ .vmem, ⟨4, _⟩ => ⟨S2048x128, .bf16⟩
  | .local _ .vmem, ⟨5, _⟩ => ⟨S2048x1024, .f32⟩
  | .local _ .vmem, ⟨6, _⟩ => ⟨S2048x1024, .f32⟩
  | .local _ .vmem, ⟨7, _⟩ => ⟨S1024x128, .bf16⟩
  | .local _ .vmem, ⟨8, _⟩ => ⟨S1024x128, .bf16⟩
  | .local _ .vmem, ⟨9, _⟩ => ⟨S128x2, .f32⟩
  | .local _ .vmem, ⟨10, _⟩ => ⟨S2048x2, .f32⟩
  | .local _ .vmem, ⟨11, _⟩ => ⟨S2048x2, .f32⟩
  | .local _ .vmem, ⟨12, _⟩ => ⟨S2048x128, .f32⟩
  | _, _ => ⟨S16384x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_c : Ref sig .tc := ⟨.hbm, 23, rfl⟩
abbrev main_v16 : Ref sig .tc := ⟨.hbm, 24, rfl⟩
abbrev main_v17 : Ref sig .tc := ⟨.hbm, 25, rfl⟩
abbrev main_c_0 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_c_1 : Ref sig .tc := ⟨.hbm, 32, rfl⟩
abbrev main_v23 : Ref sig .tc := ⟨.hbm, 33, rfl⟩
abbrev main_v24 : Ref sig .tc := ⟨.hbm, 34, rfl⟩
abbrev main_c_2 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev main_v31 : Ref sig .tc := ⟨.hbm, 42, rfl⟩
abbrev main_v32 : Ref sig .tc := ⟨.hbm, 43, rfl⟩
abbrev main_cst : Ref sig .tc := ⟨.hbm, 44, rfl⟩
abbrev main_v33 : Ref sig .tc := ⟨.hbm, 45, rfl⟩
abbrev main_v34 : Ref sig .tc := ⟨.hbm, 46, rfl⟩
abbrev main_cst_3 : Ref sig .tc := ⟨.hbm, 47, rfl⟩
abbrev main_v35 : Ref sig .tc := ⟨.hbm, 48, rfl⟩
abbrev main_v36 : Ref sig .tc := ⟨.hbm, 49, rfl⟩
abbrev main_v37 : Ref sig .tc := ⟨.hbm, 50, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg1_1 : Ref sig .tc := ⟨.vmem, 8, rfl⟩
abbrev cc1_stg2_0 : Ref sig .tc := ⟨.vmem, 9, rfl⟩
abbrev cc1_stg3_0 : Ref sig .tc := ⟨.vmem, 10, rfl⟩
abbrev cc1_stg3_1 : Ref sig .tc := ⟨.vmem, 11, rfl⟩
abbrev cc1_scratch0 : Ref sig .tc := ⟨.vmem, 12, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem1_1 : DmaSem sig := 8
abbrev cc1_sem2_0 : DmaSem sig := 9
abbrev cc1_sem3_0 : DmaSem sig := 10
abbrev cc1_sem3_1 : DmaSem sig := 11

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2048x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S512x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S2048x128 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨2, ![8, 16], ![false, false]⟩

def k1_cond2 (i : grid1.Coords) : BitVec 1 :=
  let arg1 : BitVec 32 := BitVec.ofNat 32 (i 1).val
  let c15_i32 : BitVec 32 := 15#32
  let v13 : BitVec 1 := Scalar.cmpi .eq arg1 c15_i32
  let v14 : BitVec 32 := Scalar.extui v13
  let c0_i32_8 : BitVec 32 := 0#32
  let v15 : BitVec 1 := Scalar.cmpi .ne v14 c0_i32_8
  v15

def cc1_transform_0 (i : grid1.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc1_transform_1 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc1_transform_2 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage1_0 : Fin 2 → Memref sig .tc .vmem S2048x1024 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, true]

abbrev stage1_1 : Fin 2 → Memref sig .tc .vmem S1024x128 .bf16 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![false, true]

abbrev stage1_2 : Fin 1 → Memref sig .tc .vmem S128x2 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false, false]

abbrev stage1_3 : Fin 2 → Memref sig .tc .vmem S2048x2 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true, false]

class Facts₀ : Prop where
  slices_S256x128_S128x128_0_0 : S256x128.Slices ![0, 0] S128x128
  slices_S256x128_S128x128_128_0 : S256x128.Slices ![128, 0] S128x128
  concatenates_S128x1_S128x1_S128x2_d1 : Shape.Concatenates [S128x1, S128x1] S128x2 1
  inb_S2048x512_S2048x512_0_0 : ∀ a, (![0, 0] : Fin 2 → Nat) a + S2048x512.size a ≤ S2048x512.size a
  h_S2048x512 : 0 < S2048x512.numel
  bitsLt_bf16_f32 : FTy.bits .bf16 < FTy.bits .f32
  inb_S512x128_S512x128_0_0 : ∀ a, (![0, 0] : Fin 2 → Nat) a + S512x128.size a ≤ S512x128.size a
  h_S512x128 : 0 < S512x128.numel
  inb_S2048x128_S2048x128_0_0 : ∀ a, (![0, 0] : Fin 2 → Nat) a + S2048x128.size a ≤ S2048x128.size a
  h_S2048x128 : 0 < S2048x128.numel
  packedbf16_S2048x128_S2048x128_0_0 : (Rect.unit (s := S2048x128) ![0, 0] S2048x128.size inb_S2048x128_S2048x128_0_0).PackedRows (EltTy.packing .bf16)
  shapeCasts_S2048x128_S2048x128 : S2048x128.ShapeCasts S2048x128
  inb_S2048x1024_S2048x1024_0_0 : ∀ a, (![0, 0] : Fin 2 → Nat) a + S2048x1024.size a ≤ S2048x1024.size a
  h_S2048x1024 : 0 < S2048x1024.numel
  inb_S1024x128_S1024x128_0_0 : ∀ a, (![0, 0] : Fin 2 → Nat) a + S1024x128.size a ≤ S1024x128.size a
  h_S1024x128 : 0 < S1024x128.numel
  shapeCasts_S1024x128_S1024x128 : S1024x128.ShapeCasts S1024x128
  inb_S128x2_S128x2_0_0 : ∀ a, (![0, 0] : Fin 2 → Nat) a + S128x2.size a ≤ S128x2.size a
  h_S128x2 : 0 < S128x2.numel
  shapeCasts_S128x2_S128x2 : S128x2.ShapeCasts S128x2
  inb_S2048x2_S2048x2_0_0 : ∀ a, (![0, 0] : Fin 2 → Nat) a + S2048x2.size a ≤ S2048x2.size a
  h_S2048x2 : 0 < S2048x2.numel
  concatenates_S524288x2_S524288x2_S1048576x2_d0 : Shape.Concatenates [S524288x2, S524288x2] S1048576x2 0
  slices_S1048576x2_S1048576x1_0_0 : S1048576x2.Slices ![0, 0] S1048576x1
  shapeCasts_S1048576x1_S1048576 : S1048576x1.ShapeCasts S1048576
  slices_S1048576x2_S1048576x1_0_1 : S1048576x2.Slices ![0, 1] S1048576x1
  slices_S16384x2_S16384x1_0_0 : S16384x2.Slices ![0, 0] S16384x1
  shapeCasts_S16384x1_S16384 : S16384x1.ShapeCasts S16384
  slices_S16384x2_S16384x1_0_1 : S16384x2.Slices ![0, 1] S16384x1
  bcast_S_S1048576 : S_.BroadcastsInDim S1048576 (![] : Fin 0 → Fin S1048576.rank)
  bcast_S1048576_S1048576x1_0 : S1048576.BroadcastsInDim S1048576x1 (![0] : Fin 1 → Fin S1048576x1.rank)
  dot_S128x128_S128x1_S128x1_1_0_0_1_n_n_wf : DotDims.WF S128x128 S128x1 S128x1 [1] [0] [0] [1] [] []
  dot_S2048x512_S512x128_S2048x128_1_0_0_1_n_n_wf : DotDims.WF S2048x512 S512x128 S2048x128 [1] [0] [0] [1] [] []
  dot_S2048x1024_S1024x128_S2048x128_1_0_0_1_n_n_wf : DotDims.WF S2048x1024 S1024x128 S2048x128 [1] [0] [0] [1] [] []
  dot_S2048x128_S128x2_S2048x2_1_0_0_1_n_n_wf : DotDims.WF S2048x128 S128x2 S2048x2 [1] [0] [0] [1] [] []
  gather_S16384_S1048576x1_S1048576_n_0_n_n_0_1_1_wf : GatherDims.WF S16384 S1048576x1 S1048576 [] [0] [] [0] [] 1 ![1]
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2048x512.size a ≤ S16384x512.size a
  hwx0_0 : ∀ i : grid0.Coords, EltTy.bits .f32 = 32 ∨ (Rect.block (s := S16384x512) S2048x512.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S512x128.size a ≤ S512x128.size a
  hwx0_1 : ∀ i : grid0.Coords, EltTy.bits .f32 = 32 ∨ (Rect.block (s := S512x128) S512x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S2048x128.size a ≤ S16384x128.size a
  hwx0_2 : ∀ i : grid0.Coords, EltTy.bits .bf16 = 32 ∨ (Rect.block (s := S16384x128) S2048x128.size (cc0_transform_2 i) (hinb0_2 i)).WholeWords (EltTy.packing .bf16)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S2048x1024.size a ≤ S16384x16384.size a
  hwx1_0 : ∀ i : grid1.Coords, EltTy.bits .f32 = 32 ∨ (Rect.block (s := S16384x16384) S2048x1024.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S1024x128.size a ≤ S16384x128.size a
  hwx1_1 : ∀ i : grid1.Coords, EltTy.bits .bf16 = 32 ∨ (Rect.block (s := S16384x128) S1024x128.size (cc1_transform_1 i) (hinb1_1 i)).WholeWords (EltTy.packing .bf16)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S128x2.size a ≤ S128x2.size a
  hwx1_2 : ∀ i : grid1.Coords, EltTy.bits .f32 = 32 ∨ (Rect.block (s := S128x2) S128x2.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S2048x2.size a ≤ S16384x2.size a
  hwx1_3 : ∀ i : grid1.Coords, EltTy.bits .f32 = 32 ∨ (Rect.block (s := S16384x2) S2048x2.size (cc1_transform_3 i) (hinb1_3 i)).WholeWords (EltTy.packing .f32)

variable [Facts₀]

def dot_S128x128_S128x1_S128x1_1_0_0_1_n_n : DotDims S128x128 S128x1 S128x1 where
  lhsContracting := [1]
  rhsContracting := [0]
  lhsNonContracting := [0]
  rhsNonContracting := [1]
  lhsBatch := []
  rhsBatch := []
  wf := dot_S128x128_S128x1_S128x1_1_0_0_1_n_n_wf
def dot_S2048x512_S512x128_S2048x128_1_0_0_1_n_n : DotDims S2048x512 S512x128 S2048x128 where
  lhsContracting := [1]
  rhsContracting := [0]
  lhsNonContracting := [0]
  rhsNonContracting := [1]
  lhsBatch := []
  rhsBatch := []
  wf := dot_S2048x512_S512x128_S2048x128_1_0_0_1_n_n_wf
def dot_S2048x1024_S1024x128_S2048x128_1_0_0_1_n_n : DotDims S2048x1024 S1024x128 S2048x128 where
  lhsContracting := [1]
  rhsContracting := [0]
  lhsNonContracting := [0]
  rhsNonContracting := [1]
  lhsBatch := []
  rhsBatch := []
  wf := dot_S2048x1024_S1024x128_S2048x128_1_0_0_1_n_n_wf
def dot_S2048x128_S128x2_S2048x2_1_0_0_1_n_n : DotDims S2048x128 S128x2 S2048x2 where
  lhsContracting := [1]
  rhsContracting := [0]
  lhsNonContracting := [0]
  rhsNonContracting := [1]
  lhsBatch := []
  rhsBatch := []
  wf := dot_S2048x128_S128x2_S2048x2_1_0_0_1_n_n_wf
def gather_S16384_S1048576x1_S1048576_n_0_n_n_0_1_1 : GatherDims S16384 S1048576x1 S1048576 where
  offsetDims := []
  collapsedSliceDims := [0]
  operandBatchingDims := []
  startIndicesBatchingDims := []
  startIndexMap := [0]
  indexVectorDim := 1
  sliceSizes := ![1]
  wf := gather_S16384_S1048576x1_S1048576_n_0_n_n_0_1_1_wf

abbrev win0_0 : Pipeline.Window sig grid0 :=
  Pipeline.Window.ofSpec (Memref.whole main_arg0) S2048x512.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg2) S512x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v5) S2048x128.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_arg1) S2048x1024.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v5) S1024x128.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v4) S128x2.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v6) S2048x2.size cc1_transform_3 reads1_3 true false 2 stage1_3 sem1_3
    hrank1 hreads1_3 hinb1_3 nbuf1_3 (Memref.isWhole_whole _) hwx1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

abbrev idle1 : Fin 4 → grid1.Coords → Bool := fun | 0 => fun _ => false | 1 => fun _ => false | 2 => fun _ => false | 3 => fun i => !(k1_cond2 i == 1#1) | ⟨_ + 4, h⟩ => absurd h (Nat.not_lt.2 (Nat.le_add_left _ _))

class Facts : Prop extends Facts₀ where

variable [Facts]
-- ==== ReferenceIdeal.lean ====
abbrev S16384x512 : Shape := ⟨2, ![16384, 512]⟩
abbrev S16384x16384 : Shape := ⟨2, ![16384, 16384]⟩
abbrev S512x128 : Shape := ⟨2, ![512, 128]⟩
abbrev S256x128 : Shape := ⟨2, ![256, 128]⟩
abbrev S128x1 : Shape := ⟨2, ![128, 1]⟩
abbrev S524288x2 : Shape := ⟨2, ![524288, 2]⟩
abbrev S16384x128 : Shape := ⟨2, ![16384, 128]⟩
abbrev S1048576x2 : Shape := ⟨2, ![1048576, 2]⟩
abbrev S1048576x1 : Shape := ⟨2, ![1048576, 1]⟩
abbrev S1048576 : Shape := ⟨1, ![1048576]⟩
abbrev S_ : Shape := ⟨0, ![]⟩
abbrev S1048576x128 : Shape := ⟨2, ![1048576, 128]⟩
abbrev S1048576x256 : Shape := ⟨2, ![1048576, 256]⟩

abbrev nBuf : Space → Nat
  | .hbm => 46
  | .vmem => 0
  | .smem => 0
  | _ => 0

abbrev bufTy : (tb : Table) → Fin (tcTables nBuf tb) → BufTy
  | .hbm, ⟨0, _⟩ => ⟨S16384x512, .f32⟩
  | .hbm, ⟨1, _⟩ => ⟨S16384x16384, .f32⟩
  | .hbm, ⟨2, _⟩ => ⟨S512x128, .f32⟩
  | .hbm, ⟨3, _⟩ => ⟨S256x128, .f32⟩
  | .hbm, ⟨4, _⟩ => ⟨S128x1, .f32⟩
  | .hbm, ⟨5, _⟩ => ⟨S524288x2, .i32⟩
  | .hbm, ⟨6, _⟩ => ⟨S524288x2, .i32⟩
  | .hbm, ⟨7, _⟩ => ⟨S16384x128, .f32⟩
  | .hbm, ⟨8, _⟩ => ⟨S16384x128, .f32⟩
  | .hbm, ⟨9, _⟩ => ⟨S1048576x2, .i32⟩
  | .hbm, ⟨10, _⟩ => ⟨S1048576x1, .i32⟩
  | .hbm, ⟨11, _⟩ => ⟨S1048576, .i32⟩
  | .hbm, ⟨12, _⟩ => ⟨S_, .i32⟩
  | .hbm, ⟨13, _⟩ => ⟨S1048576, .i32⟩
  | .hbm, ⟨14, _⟩ => ⟨S1048576, .i1⟩
  | .hbm, ⟨15, _⟩ => ⟨S_, .i32⟩
  | .hbm, ⟨16, _⟩ => ⟨S1048576, .i32⟩
  | .hbm, ⟨17, _⟩ => ⟨S1048576, .i32⟩
  | .hbm, ⟨18, _⟩ => ⟨S1048576, .i32⟩
  | .hbm, ⟨19, _⟩ => ⟨S1048576x1, .i32⟩
  | .hbm, ⟨20, _⟩ => ⟨S1048576x128, .f32⟩
  | .hbm, ⟨21, _⟩ => ⟨S1048576x1, .i32⟩
  | .hbm, ⟨22, _⟩ => ⟨S1048576, .i32⟩
  | .hbm, ⟨23, _⟩ => ⟨S_, .i32⟩
  | .hbm, ⟨24, _⟩ => ⟨S1048576, .i32⟩
  | .hbm, ⟨25, _⟩ => ⟨S1048576, .i1⟩
  | .hbm, ⟨26, _⟩ => ⟨S_, .i32⟩
  | .hbm, ⟨27, _⟩ => ⟨S1048576, .i32⟩
  | .hbm, ⟨28, _⟩ => ⟨S1048576, .i32⟩
  | .hbm, ⟨29, _⟩ => ⟨S1048576, .i32⟩
  | .hbm, ⟨30, _⟩ => ⟨S1048576x1, .i32⟩
  | .hbm, ⟨31, _⟩ => ⟨S1048576x128, .f32⟩
  | .hbm, ⟨32, _⟩ => ⟨S1048576x256, .f32⟩
  | .hbm, ⟨33, _⟩ => ⟨S_, .f32⟩
  | .hbm, ⟨34, _⟩ => ⟨S1048576x256, .f32⟩
  | .hbm, ⟨35, _⟩ => ⟨S1048576x256, .f32⟩
  | .hbm, ⟨36, _⟩ => ⟨S1048576x128, .f32⟩
  | .hbm, ⟨37, _⟩ => ⟨S1048576x1, .f32⟩
  | .hbm, ⟨38, _⟩ => ⟨S1048576x1, .f32⟩
  | .hbm, ⟨39, _⟩ => ⟨S1048576x1, .f32⟩
  | .hbm, ⟨40, _⟩ => ⟨S_, .f32⟩
  | .hbm, ⟨41, _⟩ => ⟨S1048576x1, .f32⟩
  | .hbm, ⟨42, _⟩ => ⟨S1048576x1, .f32⟩
  | .hbm, ⟨43, _⟩ => ⟨S_, .f32⟩
  | .hbm, ⟨44, _⟩ => ⟨S1048576x1, .f32⟩
  | .hbm, ⟨45, _⟩ => ⟨S1048576x1, .f32⟩
  | _, _ => ⟨S16384x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_c : Ref sig .tc := ⟨.hbm, 12, rfl⟩
abbrev main_v5 : Ref sig .tc := ⟨.hbm, 13, rfl⟩
abbrev main_v6 : Ref sig .tc := ⟨.hbm, 14, rfl⟩
abbrev main_c_0 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_c_1 : Ref sig .tc := ⟨.hbm, 23, rfl⟩
abbrev main_v14 : Ref sig .tc := ⟨.hbm, 24, rfl⟩
abbrev main_v15 : Ref sig .tc := ⟨.hbm, 25, rfl⟩
abbrev main_c_2 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_call0_cst : Ref sig .tc := ⟨.hbm, 33, rfl⟩
abbrev main_call0_v0 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_cst : Ref sig .tc := ⟨.hbm, 40, rfl⟩
abbrev main_v27 : Ref sig .tc := ⟨.hbm, 41, rfl⟩
abbrev main_v28 : Ref sig .tc := ⟨.hbm, 42, rfl⟩
abbrev main_cst_3 : Ref sig .tc := ⟨.hbm, 43, rfl⟩
abbrev main_v29 : Ref sig .tc := ⟨.hbm, 44, rfl⟩
abbrev main_v30 : Ref sig .tc := ⟨.hbm, 45, rfl⟩

abbrev nD : Nat := 1
abbrev τ : Topo := Topo.v7x

variable {F : FTy → Type} [FloatOps F]

class Facts₀ : Prop where
  concatenates_S524288x2_S524288x2_S1048576x2_d0 : Shape.Concatenates [S524288x2, S524288x2] S1048576x2 0
  slices_S1048576x2_S1048576x1_0_0 : S1048576x2.Slices ![0, 0] S1048576x1
  shapeCasts_S1048576x1_S1048576 : S1048576x1.ShapeCasts S1048576
  bcast_S_S1048576 : S_.BroadcastsInDim S1048576 (![] : Fin 0 → Fin S1048576.rank)
  bcast_S1048576_S1048576x1_0 : S1048576.BroadcastsInDim S1048576x1 (![0] : Fin 1 → Fin S1048576x1.rank)
  slices_S1048576x2_S1048576x1_0_1 : S1048576x2.Slices ![0, 1] S1048576x1
  concatenates_S1048576x128_S1048576x128_S1048576x256_d1 : Shape.Concatenates [S1048576x128, S1048576x128] S1048576x256 1
  bcast_S_S1048576x256 : S_.BroadcastsInDim S1048576x256 (![] : Fin 0 → Fin S1048576x256.rank)
  bcast_S_S1048576x1 : S_.BroadcastsInDim S1048576x1 (![] : Fin 0 → Fin S1048576x1.rank)
  dot_S16384x512_S512x128_S16384x128_1_0_0_1_n_n_wf : DotDims.WF S16384x512 S512x128 S16384x128 [1] [0] [0] [1] [] []
  dot_S16384x16384_S16384x128_S16384x128_1_0_0_1_n_n_wf : DotDims.WF S16384x16384 S16384x128 S16384x128 [1] [0] [0] [1] [] []
  gather_S16384x128_S1048576x1_S1048576x128_1_0_n_n_0_1_1128_wf : GatherDims.WF S16384x128 S1048576x1 S1048576x128 [1] [0] [] [0] [] 1 ![1, 128]
  dot_S1048576x256_S256x128_S1048576x128_1_0_0_1_n_n_wf : DotDims.WF S1048576x256 S256x128 S1048576x128 [1] [0] [0] [1] [] []
  dot_S1048576x128_S128x1_S1048576x1_1_0_0_1_n_n_wf : DotDims.WF S1048576x128 S128x1 S1048576x1 [1] [0] [0] [1] [] []

variable [Facts₀]

def dot_S16384x512_S512x128_S16384x128_1_0_0_1_n_n : DotDims S16384x512 S512x128 S16384x128 where
  lhsContracting := [1]
  rhsContracting := [0]
  lhsNonContracting := [0]
  rhsNonContracting := [1]
  lhsBatch := []
  rhsBatch := []
  wf := dot_S16384x512_S512x128_S16384x128_1_0_0_1_n_n_wf
def dot_S16384x16384_S16384x128_S16384x128_1_0_0_1_n_n : DotDims S16384x16384 S16384x128 S16384x128 where
  lhsContracting := [1]
  rhsContracting := [0]
  lhsNonContracting := [0]
  rhsNonContracting := [1]
  lhsBatch := []
  rhsBatch := []
  wf := dot_S16384x16384_S16384x128_S16384x128_1_0_0_1_n_n_wf
def gather_S16384x128_S1048576x1_S1048576x128_1_0_n_n_0_1_1128 : GatherDims S16384x128 S1048576x1 S1048576x128 where
  offsetDims := [1]
  collapsedSliceDims := [0]
  operandBatchingDims := []
  startIndicesBatchingDims := []
  startIndexMap := [0]
  indexVectorDim := 1
  sliceSizes := ![1, 128]
  wf := gather_S16384x128_S1048576x1_S1048576x128_1_0_n_n_0_1_1128_wf
def dot_S1048576x256_S256x128_S1048576x128_1_0_0_1_n_n : DotDims S1048576x256 S256x128 S1048576x128 where
  lhsContracting := [1]
  rhsContracting := [0]
  lhsNonContracting := [0]
  rhsNonContracting := [1]
  lhsBatch := []
  rhsBatch := []
  wf := dot_S1048576x256_S256x128_S1048576x128_1_0_0_1_n_n_wf
def dot_S1048576x128_S128x1_S1048576x1_1_0_0_1_n_n : DotDims S1048576x128 S128x1 S1048576x1 where
  lhsContracting := [1]
  rhsContracting := [0]
  lhsNonContracting := [0]
  rhsNonContracting := [1]
  lhsBatch := []
  rhsBatch := []
  wf := dot_S1048576x128_S128x1_S1048576x1_1_0_0_1_n_n_wf

class Facts : Prop extends Facts₀ where

variable [Facts]
-- ==== Proof.KI.ProjBody.lean ====
/-
  The projection kernel (first launch): one grid point reads a 2048-row block of the features and the whole
  512 x 128 weight, and stores their product, narrowed to bf16, over its whole output block.
  Stated once for every float instance: the block the body leaves is a function of the two blocks it read
  (the skeleton's payload over the two whole-buffer loads), and the body's triple on whole staging memrefs:
  the two inputs come back as they were, the output's buffer holds that function of them.
-/
import proofs.«170465_j40699110097055_1_alg».proof.Proof.Gen.KernelIdeal.Launch
import proofs.«170465_j40699110097055_1_alg».proof.Proof.Gen.KernelIdeal.Skeleton
import proofs.«170465_j40699110097055_1_alg».proof.Proof.Gen.KernelIdeal.Points
import Idealize.ShloMosaic.Lib.Pipeline.FrameBody
import Idealize.ShloMosaic.Lib.Ring
import Idealize.ShloMosaic.Lib.Tactic

set_option maxRecDepth 16384

noncomputable section

namespace Cert.KernelIdeal.Enc

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

/-- The whole feature block, weight and product block as rectangles. -/
abbrev rFeat : Rect S2048x512 := Rect.unit (s := S2048x512) ![0, 0] S2048x512.size inb_S2048x512_S2048x512_0_0
abbrev rWt : Rect S512x128 := Rect.unit (s := S512x128) ![0, 0] S512x128.size inb_S512x128_S512x128_0_0
abbrev rProj : Rect S2048x128 := Rect.unit (s := S2048x128) ![0, 0] S2048x128.size inb_S2048x128_S2048x128_0_0

/-- What one point leaves in its output block: the product of the feature block and the weight (both narrowed),
    narrowed again, written over the whole block. -/
def projBlock (x : Vec F S2048x512 .f32) (w : Vec F S512x128 .f32) : Vec F S2048x128 .bf16 :=
  View.canon [⟨rProj, k0_pay1 (View.ld x rFeat) (View.ld w rWt)⟩]

/-- The one store covers the block. -/
theorem projCover (p : Vec F S2048x128 .bf16) (y : S2048x128.Idx) :
    ∃ pc ∈ ([⟨rProj, p⟩] : List (View.Piece (Elt F) S2048x128 .bf16)), y ∈ pc.1.set :=
  View.cover_of_tiled [⟨rProj, p⟩] S2048x128.size (by rfl) y

set_option maxHeartbeats 1000000 in
/-- The projection body on whole staging memrefs: inputs at `x`, `w`, the output at anything; it runs to the
    continuation with the inputs unchanged and the output at `projBlock x w`. -/
theorem proj_run (c : Dev nD) (E : Set ℕ) (i : grid0.Coords)
    (arg1 : Memref sig .tc .vmem S2048x512 .f32) (harg1 : arg1.IsWhole)
    (arg2 : Memref sig .tc .vmem S512x128 .f32) (harg2 : arg2.IsWhole)
    (arg3 : Memref sig .tc .vmem S2048x128 .bf16) (harg3 : arg3.IsWhole)
    (x : Vec F S2048x512 .f32) (w : Vec F S512x128 .f32) (K : PUnit → sProp 𝕄) :
    iprop(owns (c : Thread nD τ) arg1 fullShare x ∗ owns (c : Thread nD τ) arg2 fullShare w
        ∗ (∃ d, owns (c : Thread nD τ) arg3 fullShare d)
        ∗ (iprop(owns (c : Thread nD τ) arg1 fullShare x ∗ owns (c : Thread nD τ) arg2 fullShare w
            ∗ owns (c : Thread nD τ) arg3 fullShare (projBlock x w)) -∗ K ⟨⟩))
      ⊢ wp frame (wpE (defs₀ (F := F)) Variants.none c none) E (cc0__xw_kernel i arg1 harg1 arg2 harg2 arg3 harg3) K := by
  simp only [cc0__xw_kernel_eq_skeleton]; unfold cc0__xw_kernel_skel
  unfold owns
  iintro ⟨⟨%f0, %hf0, H0⟩, ⟨%f1, %hf1, H1⟩, ⟨%d2, %f2, -, H2⟩, Hk⟩
  subst hf0; subst hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (projCover _)

end Cert.KernelIdeal.Enc

end
-- ==== Proof.KI.ProjData.lean ====
import proofs.«170465_j40699110097055_1_alg».proof.Proof.Gen.KernelIdeal.Launch
import proofs.«170465_j40699110097055_1_alg».proof.Proof.Gen.KernelIdeal.Skeleton
import proofs.«170465_j40699110097055_1_alg».proof.Proof.Gen.KernelIdeal.Points
import proofs.«170465_j40699110097055_1_alg».proof.Proof.KI.ProjBody
import Idealize.ShloMosaic.Lib.Pipeline.FrameBody
import Idealize.ShloMosaic.Lib.Ring
import Idealize.ShloMosaic.Lib.Tactic

set_option maxRecDepth 16384

noncomputable section

namespace Cert.KernelIdeal.Enc

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

/-!
  The projection launch as a pipeline of eight points. Entered with the core's buffers at `V`: the feature block of
  point t and the (one, whole) weight block are read off `V`; after the body the output window's buffer holds
  `projBlock` of those two, and the inputs' buffers hold their blocks still. Nothing is carried from point to
  point, nothing is owed.
-/

variable (V : (c : Dev nD) → (b : Ref sig .tc) → Buf (Elt F) ((c : Thread nD τ).loc b))

/-- Window `w`'s block at point `t`, read off its array as the launch finds it. -/
def blk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- The proof data of the projection pipeline on core `c`. -/
def projDat (c : Dev nD) : Dat τ (Elt F) Unit ℕ (UR sig nD τ) ℕ cfg0 c where
  A w := V c (Pipeline.arrRef spec0 w)
  after w t := match w with
    | ⟨0, _⟩ => blk0 V c 0 t
    | ⟨1, _⟩ => blk0 V c 1 t
    | ⟨2, _⟩ => projBlock (blk0 V c 0 t) (blk0 V c 1 t)
  Φ _ := Pipeline.ΦA spec0 c
  q _ := fullShare
  owed _ := 0

theorem projDat_A (c : Dev nD) (w : Fin cfg0.W) : (projDat V c).A w = V c (Pipeline.arrRef spec0 w) := by
  dsimp only [projDat]
theorem projDat_after0 (c : Dev nD) (t : Fin cfg0.N) : (projDat V c).after 0 t = blk0 V c 0 t := by dsimp only [projDat]
theorem projDat_after1 (c : Dev nD) (t : Fin cfg0.N) : (projDat V c).after 1 t = blk0 V c 1 t := by dsimp only [projDat]
theorem projDat_after2 (c : Dev nD) (t : Fin cfg0.N) :
    (projDat V c).after 2 t = projBlock (blk0 V c 0 t) (blk0 V c 1 t) := by dsimp only [projDat]

/-- An input window's current buffer holds its block when the body runs, fetched at that point or kept from an earlier one. -/
theorem projDat_before0 (c : Dev nD) (t : Fin cfg0.N) (d) : (projDat V c).before 0 t d = blk0 V c 0 t :=
  ((projDat V c).before_in_eq_fetched 0 rfl (fun _ => rfl) (fun _ _ _ => rfl)
      (fun t => by rw [projDat_after0]; unfold Dat.blockOf blk0; rw [projDat_A]; try rfl) t d).trans
    (by unfold Dat.fetched Dat.blockOf blk0; rw [projDat_A]; try rfl)
theorem projDat_before1 (c : Dev nD) (t : Fin cfg0.N) (d) : (projDat V c).before 1 t d = blk0 V c 1 t :=
  ((projDat V c).before_in_eq_fetched 1 rfl (fun _ => rfl) (fun _ _ _ => rfl)
      (fun t => by rw [projDat_after1]; unfold Dat.blockOf blk0; rw [projDat_A]; try rfl) t d).trans
    (by unfold Dat.fetched Dat.blockOf blk0; rw [projDat_A]; try rfl)

/-- What the body is called with at point `t`, the windows one by one; -/
def projPre (c : Dev nD) (t : Fin cfg0.N) : sProp 𝕄 :=
  iprop((projDat V c).Φ t.castSucc ∗ (projDat V c).owesAt () t.castSucc
    ∗ (∃ d, owns (c : Thread nD τ) (st0_0 t) fullShare ((projDat V c).before 0 t d))
    ∗ (∃ d, owns (c : Thread nD τ) (st0_1 t) fullShare ((projDat V c).before 1 t d))
    ∗ (∃ d, owns (c : Thread nD τ) (st0_2 t) fullShare ((projDat V c).before 2 t d)))

/-- and what it returns. -/
def projPost (c : Dev nD) (t : Fin cfg0.N) : sProp 𝕄 :=
  iprop((projDat V c).Φ t.succ ∗ (projDat V c).owesAt () t.succ
    ∗ owns (c : Thread nD τ) (st0_0 t) fullShare ((projDat V c).after 0 t)
    ∗ owns (c : Thread nD τ) (st0_1 t) fullShare ((projDat V c).after 1 t)
    ∗ owns (c : Thread nD τ) (st0_2 t) fullShare ((projDat V c).after 2 t))

theorem proj_point (c : Dev nD) (t : Fin cfg0.N) :
    projPre V c t ⊢ wp frame (wpE (defs₀ (F := F)) Variants.none c none) Set.univ (bodyAt0 t) (fun _ => projPost V c t) := by
  unfold projPre projPost bodyAt0
  simp only [projDat_before0, projDat_before1]
  rw [show (projDat V c).Φ t.succ = (projDat V c).Φ t.castSucc from rfl,
    show (projDat V c).owesAt () t.succ = (projDat V c).owesAt () t.castSucc from rfl,
    projDat_after0, projDat_after1, projDat_after2]
  iintro ⟨HΦ, Ho, ⟨%d0, H0⟩, ⟨%d1, H1⟩, ⟨%d2, H2⟩⟩
  iapply (proj_run c Set.univ (grid0.coords t) _ _ _ _ _ _ (blk0 V c 0 t) (blk0 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

/-- The body obligation of the projection pipeline, at every point. -/
theorem proj_obligation (c : Dev nD) : BodyObligation (projDat (F := F) V c) (defs₀ (F := F)) Variants.none () Set.univ := fun t => by
  rw [bigSep_W0, bigSep_W0]
  exact proj_point V c t

end Cert.KernelIdeal.Enc

end
-- ==== Proof.KI.AggBody.lean ====
import proofs.«170465_j40699110097055_1_alg».proof.Proof.Gen.KernelIdeal.Launch
import proofs.«170465_j40699110097055_1_alg».proof.Proof.Gen.KernelIdeal.Skeleton
import proofs.«170465_j40699110097055_1_alg».proof.Proof.Gen.KernelIdeal.Points
import Idealize.ShloMosaic.Lib.Pipeline.FrameBody
import Idealize.ShloMosaic.Lib.Ring
import Idealize.ShloMosaic.Lib.Tactic

set_option maxRecDepth 16384

noncomputable section

namespace Cert.KernelIdeal.Enc

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

/-!
  The aggregation kernel (second launch), grid 8 x 16. At column step k of a row block it adds the product of a
  2048 x 1024 block of the adjacency (narrowed) and a 1024 x 128 block of the projected features into a
  2048 x 128 accumulator kept in scratch across the sixteen steps: the step k = 0 first clears the accumulator,
  the step k = 15 afterwards rectifies it and multiplies by the 128 x 2 decoding matrix into the output block.
  Three shapes of a point, then: opening (k = 0), middle, closing (k = 15). For each, the body's triple on whole
  staging memrefs, with the pieces the stores leave found by the run itself.
-/

/-- The opening point of a row block: the column coordinate is zero (the body's first branch condition). -/
abbrev atOpen (i : grid1.Coords) : Prop :=
  (Scalar.cmpi .ne (Scalar.extui (Scalar.cmpi .eq (BitVec.ofNat 32 (i 1).val) 0#32)) 0#32) = 1#1
/-- The closing point of a row block: the column coordinate is fifteen (the body's second branch condition). -/
abbrev atClose (i : grid1.Coords) : Prop := k1_cond2 i = 1#1

/-- Over the 128 points: opening at the multiples of sixteen, closing one before them. -/
theorem atOpen_iff : ∀ t : Fin cfg1.N, atOpen (grid1.coords t) ↔ t.val % 16 = 0 :=
  (by decide +kernel : ∀ t : Fin grid1.N, atOpen (grid1.coords t) ↔ t.val % 16 = 0)
theorem atClose_iff : ∀ t : Fin cfg1.N, atClose (grid1.coords t) ↔ t.val % 16 = 15 :=
  (by decide +kernel : ∀ t : Fin grid1.N, atClose (grid1.coords t) ↔ t.val % 16 = 15)

/-- A piece list over the accumulator's shape / the output block's shape. -/
abbrev AccPieces (F : FTy → Type) [FloatOps F] := List (View.Piece (Elt F) S2048x128 .f32)
abbrev OutPieces (F : FTy → Type) [FloatOps F] := List (View.Piece (Elt F) S2048x2 .f32)

set_option maxHeartbeats 1000000 in
/-- OPENING. Inputs at `a`, `b`, `wab`; the output's buffer at `o`, untouched and handed back; the accumulator at
    anything. The accumulator ends with the found pieces written. -/
noncomputable def openRun (c : Dev nD) (i : grid1.Coords)
    (arg2 : Memref sig .tc .vmem S2048x1024 .f32) (harg2 : arg2.IsWhole)
    (arg3 : Memref sig .tc .vmem S1024x128 .bf16) (harg3 : arg3.IsWhole)
    (arg4 : Memref sig .tc .vmem S128x2 .f32) (harg4 : arg4.IsWhole)
    (arg5 : Memref sig .tc .vmem S2048x2 .f32) (harg5 : arg5.IsWhole)
    (arg6 : Memref sig .tc .vmem S2048x128 .f32) (harg6 : arg6.IsWhole)
    (hc0 : atOpen i) (hc1 : ¬ atClose i)
    (a : Vec F S2048x1024 .f32) (b : Vec F S1024x128 .bf16) (wab : Vec F S128x2 .f32) :
    { LS : AccPieces F //
      ∀ (o : Vec F S2048x2 .f32) (E : Set ℕ) (K : PUnit → sProp 𝕄),
        iprop(owns (c : Thread nD τ) arg2 fullShare a ∗ owns (c : Thread nD τ) arg3 fullShare b ∗ owns (c : Thread nD τ) arg4 fullShare wab
            ∗ owns (c : Thread nD τ) arg5 fullShare o ∗ (∃ d, owns (c : Thread nD τ) arg6 fullShare d)
            ∗ (iprop(owns (c : Thread nD τ) arg2 fullShare a ∗ owns (c : Thread nD τ) arg3 fullShare b ∗ owns (c : Thread nD τ) arg4 fullShare wab
                ∗ owns (c : Thread nD τ) arg5 fullShare o
                ∗ (∃ f, arg6.view.loc (c : Thread nD τ) ↦[arg6.view.set]{fullShare} arg6.view.writes (Elt F) f LS)) -∗ K ⟨⟩))
          ⊢ wp frame (wpE (defs₀ (F := F)) Variants.none c none) E (cc1__main_kernel i arg2 harg2 arg3 harg3 arg4 harg4 arg5 harg5 arg6 harg6) K } := by
  refine ⟨?_, fun o E K => ?run⟩
  case run =>
    simp only [cc1__main_kernel_eq_skeleton]; unfold cc1__main_kernel_skel
    unfold owns
    iintro ⟨⟨%f0, %hf0, H0⟩, ⟨%f1, %hf1, H1⟩, ⟨%f2, %hf2, H2⟩, ⟨%f3, %hf3, H3⟩, ⟨%d4, %f4, -, H4⟩, Hk⟩
    obtain rfl := harg2.eq_unread hf0; obtain rfl := harg3.eq_unread hf1
    obtain rfl := harg4.eq_unread hf2; obtain rfl := harg5.eq_unread hf3
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    iexists _; iexact H4

set_option maxHeartbeats 1000000 in
/-- MIDDLE. As the opening point, but the accumulator comes in at the contents `s` the point before left. -/
noncomputable def midRun (c : Dev nD) (i : grid1.Coords)
    (arg2 : Memref sig .tc .vmem S2048x1024 .f32) (harg2 : arg2.IsWhole)
    (arg3 : Memref sig .tc .vmem S1024x128 .bf16) (harg3 : arg3.IsWhole)
    (arg4 : Memref sig .tc .vmem S128x2 .f32) (harg4 : arg4.IsWhole)
    (arg5 : Memref sig .tc .vmem S2048x2 .f32) (harg5 : arg5.IsWhole)
    (arg6 : Memref sig .tc .vmem S2048x128 .f32) (harg6 : arg6.IsWhole)
    (hc0 : ¬ atOpen i) (hc1 : ¬ atClose i)
    (a : Vec F S2048x1024 .f32) (b : Vec F S1024x128 .bf16) (wab : Vec F S128x2 .f32) (s : Vec F S2048x128 .f32) :
    { LS : AccPieces F //
      ∀ (o : Vec F S2048x2 .f32) (E : Set ℕ) (K : PUnit → sProp 𝕄),
        iprop(owns (c : Thread nD τ) arg2 fullShare a ∗ owns (c : Thread nD τ) arg3 fullShare b ∗ owns (c : Thread nD τ) arg4 fullShare wab
            ∗ owns (c : Thread nD τ) arg5 fullShare o ∗ owns (c : Thread nD τ) arg6 fullShare s
            ∗ (iprop(owns (c : Thread nD τ) arg2 fullShare a ∗ owns (c : Thread nD τ) arg3 fullShare b ∗ owns (c : Thread nD τ) arg4 fullShare wab
                ∗ owns (c : Thread nD τ) arg5 fullShare o
                ∗ (∃ f, arg6.view.loc (c : Thread nD τ) ↦[arg6.view.set]{fullShare} arg6.view.writes (Elt F) f LS)) -∗ K ⟨⟩))
          ⊢ wp frame (wpE (defs₀ (F := F)) Variants.none c none) E (cc1__main_kernel i arg2 harg2 arg3 harg3 arg4 harg4 arg5 harg5 arg6 harg6) K } := by
  refine ⟨?_, fun o E K => ?run⟩
  case run =>
    simp only [cc1__main_kernel_eq_skeleton]; unfold cc1__main_kernel_skel
    unfold owns
    iintro ⟨⟨%f0, %hf0, H0⟩, ⟨%f1, %hf1, H1⟩, ⟨%f2, %hf2, H2⟩, ⟨%f3, %hf3, H3⟩, ⟨%f4, %hf4, H4⟩, Hk⟩
    obtain rfl := harg2.eq_unread hf0; obtain rfl := harg3.eq_unread hf1
    obtain rfl := harg4.eq_unread hf2; obtain rfl := harg5.eq_unread hf3; obtain rfl := harg6.eq_unread hf4
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    iexists _; iexact H4

set_option maxHeartbeats 1000000 in
/-- CLOSING. The accumulator comes in at `s`; the output's buffer at anything, and it ends with its found pieces written. -/
noncomputable def closeRun (c : Dev nD) (i : grid1.Coords)
    (arg2 : Memref sig .tc .vmem S2048x1024 .f32) (harg2 : arg2.IsWhole)
    (arg3 : Memref sig .tc .vmem S1024x128 .bf16) (harg3 : arg3.IsWhole)
    (arg4 : Memref sig .tc .vmem S128x2 .f32) (harg4 : arg4.IsWhole)
    (arg5 : Memref sig .tc .vmem S2048x2 .f32) (harg5 : arg5.IsWhole)
    (arg6 : Memref sig .tc .vmem S2048x128 .f32) (harg6 : arg6.IsWhole)
    (hc0 : ¬ atOpen i) (hc1 : atClose i)
    (a : Vec F S2048x1024 .f32) (b : Vec F S1024x128 .bf16) (wab : Vec F S128x2 .f32) (s : Vec F S2048x128 .f32) :
    Σ' (LO : OutPieces F), { LS : AccPieces F //
      ∀ (E : Set ℕ) (K : PUnit → sProp 𝕄),
        iprop(owns (c : Thread nD τ) arg2 fullShare a ∗ owns (c : Thread nD τ) arg3 fullShare b ∗ owns (c : Thread nD τ) arg4 fullShare wab
            ∗ (∃ d, owns (c : Thread nD τ) arg5 fullShare d) ∗ owns (c : Thread nD τ) arg6 fullShare s
            ∗ (iprop(owns (c : Thread nD τ) arg2 fullShare a ∗ owns (c : Thread nD τ) arg3 fullShare b ∗ owns (c : Thread nD τ) arg4 fullShare wab
                ∗ (∃ f, arg5.view.loc (c : Thread nD τ) ↦[arg5.view.set]{fullShare} arg5.view.writes (Elt F) f LO)
                ∗ (∃ f, arg6.view.loc (c : Thread nD τ) ↦[arg6.view.set]{fullShare} arg6.view.writes (Elt F) f LS)) -∗ K ⟨⟩))
          ⊢ wp frame (wpE (defs₀ (F := F)) Variants.none c none) E (cc1__main_kernel i arg2 harg2 arg3 harg3 arg4 harg4 arg5 harg5 arg6 harg6) K } := by
  refine ⟨?_, ?_, fun E K => ?run⟩
  case run =>
    simp only [cc1__main_kernel_eq_skeleton]; unfold cc1__main_kernel_skel
    unfold owns
    iintro ⟨⟨%f0, %hf0, H0⟩, ⟨%f1, %hf1, H1⟩, ⟨%f2, %hf2, H2⟩, ⟨%d3, %f3, -, H3⟩, ⟨%f4, %hf4, H4⟩, Hk⟩
    obtain rfl := harg2.eq_unread hf0; obtain rfl := harg3.eq_unread hf1
    obtain rfl := harg4.eq_unread hf2; obtain rfl := harg6.eq_unread hf4
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]; · iexists _; iexact H3
    iexists _; iexact H4

end Cert.KernelIdeal.Enc

end
-- ==== Proof.KI.AggData.lean ====
import proofs.«170465_j40699110097055_1_alg».proof.Proof.Gen.KernelIdeal.Launch
import proofs.«170465_j40699110097055_1_alg».proof.Proof.Gen.KernelIdeal.Skeleton
import proofs.«170465_j40699110097055_1_alg».proof.Proof.Gen.KernelIdeal.Points
import proofs.«170465_j40699110097055_1_alg».proof.Proof.KI.AggBody
import Idealize.ShloMosaic.Lib.Pipeline.FrameBody
import Idealize.ShloMosaic.Lib.Ring
import Idealize.ShloMosaic.Lib.Tactic

set_option maxRecDepth 16384

noncomputable section

namespace Cert.KernelIdeal.Enc

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

/-!
  The aggregation launch as a pipeline of 128 points (8 row blocks x 16 column steps), entered with the core's
  buffers at `V`. What the accumulator (a scratch buffer the pipeline does not stage) and the output window's
  buffer hold after each point is a recursion on the point: an opening point starts the accumulator afresh, a
  middle or closing point continues from what the point before left, and only a closing point stores the output
  block. The pipeline's invariant carries the accumulator at exactly those contents from one point to the next;
  at the points that store no output the output window is idle and its buffer is handed back as found.
-/

variable (V : (c : Dev nD) → (b : Ref sig .tc) → Buf (Elt F) ((c : Thread nD τ).loc b))

/-- Window `w`'s block at point `t`, read off its array as the launch finds it. -/
def blk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- Each window's current staging memref at point `t` as the pipeline passes it, and its wholeness. -/
abbrev mA (t : Fin cfg1.N) : Memref sig .tc .vmem S2048x1024 .f32 := win1_0.stage (cfg1.slots t 0)
abbrev hA (t : Fin cfg1.N) : (mA t).IsWhole := hstage1_0 ((cfg1.slots t 0).cast nbuf1_0)
abbrev mB (t : Fin cfg1.N) : Memref sig .tc .vmem S1024x128 .bf16 := win1_1.stage (cfg1.slots t 1)
abbrev hB (t : Fin cfg1.N) : (mB t).IsWhole := hstage1_1 ((cfg1.slots t 1).cast nbuf1_1)
abbrev mW (t : Fin cfg1.N) : Memref sig .tc .vmem S128x2 .f32 := win1_2.stage (cfg1.slots t 2)
abbrev hW (t : Fin cfg1.N) : (mW t).IsWhole := hstage1_2 ((cfg1.slots t 2).cast nbuf1_2)
abbrev mO (t : Fin cfg1.N) : Memref sig .tc .vmem S2048x2 .f32 := win1_3.stage (cfg1.slots t 3)
abbrev hO (t : Fin cfg1.N) : (mO t).IsWhole := hstage1_3 ((cfg1.slots t 3).cast nbuf1_3)
/-- The accumulator: a whole scoped buffer of the kernel's own. -/
abbrev mAcc : Memref sig .tc .vmem S2048x128 .f32 := Memref.whole cc1_scratch0
/-- Views through which contents are stated (the choice of staging buffer does not matter). -/
abbrev vAcc : View sig .tc .vmem S2048x128 .f32 := mAcc.view
abbrev vOut : View sig .tc .vmem S2048x2 .f32 := (Memref.whole cc1_stg3_0 : Memref sig .tc .vmem S2048x2 .f32).view

/-- Pieces read back over unspecified contents. -/
def accOf (L : AccPieces F) : Vec F S2048x128 .f32 := vAcc.read (Elt F) (vAcc.writes (Elt F) vAcc.junk L)
def outOf (L : OutPieces F) : Vec F S2048x2 .f32 := vOut.read (Elt F) (vOut.writes (Elt F) vOut.junk L)

/-- The three shapes of a point, at point `t`'s memrefs and input blocks. -/
noncomputable def openAt (c : Dev nD) (t : Fin cfg1.N) (h0 : t.val % 16 = 0) (h1 : ¬ t.val % 16 = 15) :=
  openRun (F := F) c (grid1.coords t) (mA t) (hA t) (mB t) (hB t) (mW t) (hW t) (mO t) (hO t) mAcc (Memref.isWhole_whole _)
    ((atOpen_iff t).mpr h0) (fun h => h1 ((atClose_iff t).mp h)) (blk1 V c 0 t) (blk1 V c 1 t) (blk1 V c 2 t)
noncomputable def midAt (c : Dev nD) (t : Fin cfg1.N) (h0 : ¬ t.val % 16 = 0) (h1 : ¬ t.val % 16 = 15) (s : Vec F S2048x128 .f32) :=
  midRun (F := F) c (grid1.coords t) (mA t) (hA t) (mB t) (hB t) (mW t) (hW t) (mO t) (hO t) mAcc (Memref.isWhole_whole _)
    (fun h => h0 ((atOpen_iff t).mp h)) (fun h => h1 ((atClose_iff t).mp h)) (blk1 V c 0 t) (blk1 V c 1 t) (blk1 V c 2 t) s
noncomputable def closeAt (c : Dev nD) (t : Fin cfg1.N) (h0 : ¬ t.val % 16 = 0) (h1 : t.val % 16 = 15) (s : Vec F S2048x128 .f32) :=
  closeRun (F := F) c (grid1.coords t) (mA t) (hA t) (mB t) (hB t) (mW t) (hW t) (mO t) (hO t) mAcc (Memref.isWhole_whole _)
    (fun h => h0 ((atOpen_iff t).mp h)) ((atClose_iff t).mpr h1) (blk1 V c 0 t) (blk1 V c 1 t) (blk1 V c 2 t) s

/-- Each shape's stores cover the accumulator, and the closing point's cover the output block. -/
theorem openAt_cover (c : Dev nD) (t : Fin cfg1.N) (h0 h1) (y : S2048x128.Idx) : ∃ pc ∈ (openAt V c t h0 h1).1, y ∈ pc.1.set :=
  View.cover_of_tiledL (openAt V c t h0 h1).1 S2048x128.size (by sl_kernel_rfl) y
theorem midAt_cover (c : Dev nD) (t : Fin cfg1.N) (h0 h1) (s) (y : S2048x128.Idx) : ∃ pc ∈ (midAt V c t h0 h1 s).1, y ∈ pc.1.set :=
  View.cover_of_tiledL (midAt V c t h0 h1 s).1 S2048x128.size (by sl_kernel_rfl) y
theorem closeAt_cover (c : Dev nD) (t : Fin cfg1.N) (h0 h1) (s) (y : S2048x128.Idx) : ∃ pc ∈ (closeAt V c t h0 h1 s).2.1, y ∈ pc.1.set :=
  View.cover_of_tiledL (closeAt V c t h0 h1 s).2.1 S2048x128.size (by sl_kernel_rfl) y
theorem closeAt_coverOut (c : Dev nD) (t : Fin cfg1.N) (h0 h1) (s) (y : S2048x2.Idx) : ∃ pc ∈ (closeAt V c t h0 h1 s).1, y ∈ pc.1.set :=
  View.cover_of_tiledL (closeAt V c t h0 h1 s).1 S2048x2.size (by sl_kernel_rfl) y

/-- THE RECURRENCE. After the body at position `n`: what the output window's buffer holds (stored at a closing point
    only; elsewhere a placeholder nothing consults) and what the accumulator holds. -/
def stateAt (c : Dev nD) : (n : ℕ) → n < cfg1.N → Vec F S2048x2 .f32 × Vec F S2048x128 .f32
  | 0, hn => (outOf [], accOf (openAt V c ⟨0, hn⟩ (Nat.zero_mod _) (by show ¬ (0 : ℕ) % 16 = 15; decide)).1)
  | n + 1, hn =>
    if h0 : (n + 1) % 16 = 0 then
      (outOf [], accOf (openAt V c ⟨n + 1, hn⟩ h0 (by show ¬ (n + 1) % 16 = 15; omega)).1)
    else if h1 : (n + 1) % 16 = 15 then
      (outOf (closeAt V c ⟨n + 1, hn⟩ h0 h1 (stateAt c n (Nat.lt_of_succ_lt hn)).2).1,
       accOf (closeAt V c ⟨n + 1, hn⟩ h0 h1 (stateAt c n (Nat.lt_of_succ_lt hn)).2).2.1)
    else
      (outOf [], accOf (midAt V c ⟨n + 1, hn⟩ h0 h1 (stateAt c n (Nat.lt_of_succ_lt hn)).2).1)

theorem stateAt_open (c : Dev nD) (t : Fin cfg1.N) (h0 : t.val % 16 = 0) (h1 : ¬ t.val % 16 = 15) :
    stateAt V c t.val t.isLt = (outOf [], accOf (openAt V c t h0 h1).1) := by
  obtain ⟨n, hn⟩ := t
  cases n with
  | zero => exact rfl
  | succ n => exact (dif_pos h0).trans rfl

theorem stateAt_mid (c : Dev nD) (t : Fin cfg1.N) (h0 : ¬ t.val % 16 = 0) (h1 : ¬ t.val % 16 = 15) :
    stateAt V c t.val t.isLt
      = (outOf [], accOf (midAt V c t h0 h1 (stateAt V c (t.val - 1) (Nat.lt_of_le_of_lt (Nat.sub_le _ _) t.isLt)).2).1) := by
  obtain ⟨n, hn⟩ := t
  cases n with
  | zero => exact absurd (Nat.zero_mod _) h0
  | succ n => exact (dif_neg h0).trans ((dif_neg h1).trans rfl)

theorem stateAt_close (c : Dev nD) (t : Fin cfg1.N) (h0 : ¬ t.val % 16 = 0) (h1 : t.val % 16 = 15) :
    stateAt V c t.val t.isLt
      = (outOf (closeAt V c t h0 h1 (stateAt V c (t.val - 1) (Nat.lt_of_le_of_lt (Nat.sub_le _ _) t.isLt)).2).1,
         accOf (closeAt V c t h0 h1 (stateAt V c (t.val - 1) (Nat.lt_of_le_of_lt (Nat.sub_le _ _) t.isLt)).2).2.1) := by
  obtain ⟨n, hn⟩ := t
  cases n with
  | zero => exact absurd (Nat.zero_mod _) h0
  | succ n => exact (dif_neg h0).trans ((dif_pos h1).trans rfl)

/-- The scoped buffers that are neither a staging buffer of this launch nor the accumulator: the first launch's five
    staging buffers, each whole at some contents. -/
def idleBufs (c : Dev nD) : sProp 𝕄 :=
  iprop((∃ f : Buf (Elt F) ((c : Thread nD τ).loc cc0_stg0_0), ((c : Thread nD τ).loc cc0_stg0_0) ↦{fullShare} f)
    ∗ (∃ f : Buf (Elt F) ((c : Thread nD τ).loc cc0_stg0_1), ((c : Thread nD τ).loc cc0_stg0_1) ↦{fullShare} f)
    ∗ (∃ f : Buf (Elt F) ((c : Thread nD τ).loc cc0_stg1_0), ((c : Thread nD τ).loc cc0_stg1_0) ↦{fullShare} f)
    ∗ (∃ f : Buf (Elt F) ((c : Thread nD τ).loc cc0_stg2_0), ((c : Thread nD τ).loc cc0_stg2_0) ↦{fullShare} f)
    ∗ (∃ f : Buf (Elt F) ((c : Thread nD τ).loc cc0_stg2_1), ((c : Thread nD τ).loc cc0_stg2_1) ↦{fullShare} f))

/-- The launch's plain invariant, spelt out: those five, the accumulator at some contents, the generator register. -/
theorem plainInv_eq (c : Dev nD) :
    (Pipeline.ΦA spec1 c : sProp 𝕄)
      = iprop(iprop((∃ f : Buf (Elt F) ((c : Thread nD τ).loc cc0_stg0_0), ((c : Thread nD τ).loc cc0_stg0_0) ↦{fullShare} f)
          ∗ (∃ f : Buf (Elt F) ((c : Thread nD τ).loc cc0_stg0_1), ((c : Thread nD τ).loc cc0_stg0_1) ↦{fullShare} f)
          ∗ (∃ f : Buf (Elt F) ((c : Thread nD τ).loc cc0_stg1_0), ((c : Thread nD τ).loc cc0_stg1_0) ↦{fullShare} f)
          ∗ (∃ f : Buf (Elt F) ((c : Thread nD τ).loc cc0_stg2_0), ((c : Thread nD τ).loc cc0_stg2_0) ↦{fullShare} f)
          ∗ (∃ f : Buf (Elt F) ((c : Thread nD τ).loc cc0_stg2_1), ((c : Thread nD τ).loc cc0_stg2_1) ↦{fullShare} f)
          ∗ (∃ d, owns (c : Thread nD τ) mAcc fullShare d)) ∗ (∃ r, prngReg c r)) := by
  unfold Pipeline.ΦA; rw [scopedRest1_eq]; simp only [mAcc, owns_whole]; try rfl

/-- The invariant before position `n`: before the first point the plain one (the accumulator at anything); afterwards
    the accumulator at what the point before left. -/
def accInv (c : Dev nD) : (n : ℕ) → n ≤ cfg1.N → sProp 𝕄
  | 0, _ => Pipeline.ΦA spec1 c
  | n + 1, hn => iprop(iprop((∃ f : Buf (Elt F) ((c : Thread nD τ).loc cc0_stg0_0), ((c : Thread nD τ).loc cc0_stg0_0) ↦{fullShare} f)
          ∗ (∃ f : Buf (Elt F) ((c : Thread nD τ).loc cc0_stg0_1), ((c : Thread nD τ).loc cc0_stg0_1) ↦{fullShare} f)
          ∗ (∃ f : Buf (Elt F) ((c : Thread nD τ).loc cc0_stg1_0), ((c : Thread nD τ).loc cc0_stg1_0) ↦{fullShare} f)
          ∗ (∃ f : Buf (Elt F) ((c : Thread nD τ).loc cc0_stg2_0), ((c : Thread nD τ).loc cc0_stg2_0) ↦{fullShare} f)
          ∗ (∃ f : Buf (Elt F) ((c : Thread nD τ).loc cc0_stg2_1), ((c : Thread nD τ).loc cc0_stg2_1) ↦{fullShare} f)
          ∗ owns (c : Thread nD τ) mAcc fullShare ((stateAt V c n hn).2)) ∗ (∃ r, prngReg c r))

theorem accInv_zero (c : Dev nD) (n : ℕ) (h : n ≤ cfg1.N) (hz : n = 0) : accInv V c n h = Pipeline.ΦA spec1 c := by
  subst hz; rfl
theorem accInv_succ (c : Dev nD) (n : ℕ) (hn : n < cfg1.N) :
    accInv V c (n + 1) hn = iprop(iprop((∃ f : Buf (Elt F) ((c : Thread nD τ).loc cc0_stg0_0), ((c : Thread nD τ).loc cc0_stg0_0) ↦{fullShare} f)
          ∗ (∃ f : Buf (Elt F) ((c : Thread nD τ).loc cc0_stg0_1), ((c : Thread nD τ).loc cc0_stg0_1) ↦{fullShare} f)
          ∗ (∃ f : Buf (Elt F) ((c : Thread nD τ).loc cc0_stg1_0), ((c : Thread nD τ).loc cc0_stg1_0) ↦{fullShare} f)
          ∗ (∃ f : Buf (Elt F) ((c : Thread nD τ).loc cc0_stg2_0), ((c : Thread nD τ).loc cc0_stg2_0) ↦{fullShare} f)
          ∗ (∃ f : Buf (Elt F) ((c : Thread nD τ).loc cc0_stg2_1), ((c : Thread nD τ).loc cc0_stg2_1) ↦{fullShare} f)
          ∗ owns (c : Thread nD τ) mAcc fullShare ((stateAt V c n hn).2)) ∗ (∃ r, prngReg c r)) := rfl
theorem accInv_pos (c : Dev nD) (n : ℕ) (h : n ≤ cfg1.N) (hz : n ≠ 0) :
    accInv V c n h = iprop(iprop((∃ f : Buf (Elt F) ((c : Thread nD τ).loc cc0_stg0_0), ((c : Thread nD τ).loc cc0_stg0_0) ↦{fullShare} f)
          ∗ (∃ f : Buf (Elt F) ((c : Thread nD τ).loc cc0_stg0_1), ((c : Thread nD τ).loc cc0_stg0_1) ↦{fullShare} f)
          ∗ (∃ f : Buf (Elt F) ((c : Thread nD τ).loc cc0_stg1_0), ((c : Thread nD τ).loc cc0_stg1_0) ↦{fullShare} f)
          ∗ (∃ f : Buf (Elt F) ((c : Thread nD τ).loc cc0_stg2_0), ((c : Thread nD τ).loc cc0_stg2_0) ↦{fullShare} f)
          ∗ (∃ f : Buf (Elt F) ((c : Thread nD τ).loc cc0_stg2_1), ((c : Thread nD τ).loc cc0_stg2_1) ↦{fullShare} f)
          ∗ owns (c : Thread nD τ) mAcc fullShare ((stateAt V c (n - 1) (by omega)).2)) ∗ (∃ r, prngReg c r)) := by
  cases n with
  | zero => exact absurd rfl hz
  | succ n => rfl

/-- The proof data of the aggregation pipeline on core `c`. -/
def aggDat (c : Dev nD) : Dat τ (Elt F) Unit ℕ (UR sig nD τ) ℕ cfg1 c where
  A w := V c (Pipeline.arrRef spec1 w)
  after w t := match w with
    | ⟨0, _⟩ => blk1 V c 0 t
    | ⟨1, _⟩ => blk1 V c 1 t
    | ⟨2, _⟩ => blk1 V c 2 t
    | ⟨3, _⟩ => (stateAt V c t.val t.isLt).1
  Φ t := accInv V c t.val (Nat.le_of_lt_succ t.isLt)
  q _ := fullShare
  owed _ := 0

theorem aggDat_A (c : Dev nD) (w : Fin cfg1.W) : (aggDat V c).A w = V c (Pipeline.arrRef spec1 w) := by
  dsimp only [aggDat]
theorem aggDat_inv (c : Dev nD) (t : Fin cfg1.N) : (aggDat V c).Φ t.castSucc = accInv V c t.val (Nat.le_of_lt t.isLt) := by
  dsimp only [aggDat]; simp only [Fin.coe_castSucc]
theorem aggDat_after0 (c : Dev nD) (t : Fin cfg1.N) : (aggDat V c).after 0 t = blk1 V c 0 t := by dsimp only [aggDat]
theorem aggDat_after1 (c : Dev nD) (t : Fin cfg1.N) : (aggDat V c).after 1 t = blk1 V c 1 t := by dsimp only [aggDat]
theorem aggDat_after2 (c : Dev nD) (t : Fin cfg1.N) : (aggDat V c).after 2 t = blk1 V c 2 t := by dsimp only [aggDat]
theorem aggDat_after3 (c : Dev nD) (t : Fin cfg1.N) : (aggDat V c).after 3 t = (stateAt V c t.val t.isLt).1 := by dsimp only [aggDat]

/-- An input window's current buffer holds its block when the body runs. -/
theorem aggDat_before0 (c : Dev nD) (t : Fin cfg1.N) (d) : (aggDat V c).before 0 t d = blk1 V c 0 t :=
  ((aggDat V c).before_in_eq_fetched 0 rfl (fun _ => rfl) (fun _ _ _ => rfl)
      (fun t => by rw [aggDat_after0]; unfold Dat.blockOf blk1; rw [aggDat_A]; try rfl) t d).trans
    (by unfold Dat.fetched Dat.blockOf blk1; rw [aggDat_A]; try rfl)
theorem aggDat_before1 (c : Dev nD) (t : Fin cfg1.N) (d) : (aggDat V c).before 1 t d = blk1 V c 1 t :=
  ((aggDat V c).before_in_eq_fetched 1 rfl (fun _ => rfl) (fun _ _ _ => rfl)
      (fun t => by rw [aggDat_after1]; unfold Dat.blockOf blk1; rw [aggDat_A]; try rfl) t d).trans
    (by unfold Dat.fetched Dat.blockOf blk1; rw [aggDat_A]; try rfl)
theorem aggDat_before2 (c : Dev nD) (t : Fin cfg1.N) (d) : (aggDat V c).before 2 t d = blk1 V c 2 t :=
  ((aggDat V c).before_in_eq_fetched 2 rfl (fun _ => rfl) (fun _ _ _ => rfl)
      (fun t => by rw [aggDat_after2]; unfold Dat.blockOf blk1; rw [aggDat_A]; try rfl) t d).trans
    (by unfold Dat.fetched Dat.blockOf blk1; rw [aggDat_A]; try rfl)

/-- Where the windows are idle: the inputs never; the output window except at the closing points, where it is
    stored and written back. -/
theorem live0 : ∀ t : Fin cfg1.N, cfg1.idle 0 (grid1.coords t) = false := by decide +kernel
theorem live1 : ∀ t : Fin cfg1.N, cfg1.idle 1 (grid1.coords t) = false := by decide +kernel
theorem live2 : ∀ t : Fin cfg1.N, cfg1.idle 2 (grid1.coords t) = false := by decide +kernel
theorem idle3 : ∀ t : Fin cfg1.N, ¬ atClose (grid1.coords t) → cfg1.idle 3 (grid1.coords t) = true := by decide +kernel
theorem noFlush3 : ∀ t : Fin cfg1.N, ¬ atClose (grid1.coords t) → (cfg1.win 3).flush t = false := by decide +kernel
theorem live3 : ∀ t : Fin cfg1.N, atClose (grid1.coords t) → cfg1.idle 3 (grid1.coords t) = false := by decide +kernel

end Cert.KernelIdeal.Enc

end
-- ==== Proof.KI.AggPoint.lean ====
import proofs.«170465_j40699110097055_1_alg».proof.Proof.Gen.KernelIdeal.Launch
import proofs.«170465_j40699110097055_1_alg».proof.Proof.Gen.KernelIdeal.Skeleton
import proofs.«170465_j40699110097055_1_alg».proof.Proof.Gen.KernelIdeal.Points
import proofs.«170465_j40699110097055_1_alg».proof.Proof.KI.AggData
import Idealize.ShloMosaic.Lib.Pipeline.FrameBody
import Idealize.ShloMosaic.Lib.Ring
import Idealize.ShloMosaic.Lib.Tactic

set_option maxRecDepth 16384

noncomputable section

namespace Cert.KernelIdeal.Enc

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

/-!
  One point of the aggregation pipeline. The invariant hands the body the accumulator at what the point before left
  (at anything, before the very first point) and takes it back at this point's contents; the three input windows'
  buffers hold their blocks and come back unchanged; the output window's buffer comes back as found except at a
  closing point, where it comes back at the block the closing point stores.
-/

variable (V : (c : Dev nD) → (b : Ref sig .tc) → Buf (Elt F) ((c : Thread nD τ).loc b))

/-- What the body is called with at point `t`, the windows one by one; -/
def aggPre (c : Dev nD) (t : Fin cfg1.N) : sProp 𝕄 :=
  iprop((aggDat V c).Φ t.castSucc ∗ (aggDat V c).owesAt () t.castSucc
    ∗ (∃ d, owns (c : Thread nD τ) (mA t) fullShare ((aggDat V c).before 0 t d))
    ∗ (∃ d, owns (c : Thread nD τ) (mB t) fullShare ((aggDat V c).before 1 t d))
    ∗ (∃ d, owns (c : Thread nD τ) (mW t) fullShare ((aggDat V c).before 2 t d))
    ∗ (∃ d, owns (c : Thread nD τ) (mO t) fullShare ((aggDat V c).before 3 t d)))

/-- and what it returns. -/
def aggPost (c : Dev nD) (t : Fin cfg1.N) : sProp 𝕄 :=
  iprop((aggDat V c).Φ t.succ ∗ (aggDat V c).owesAt () t.succ
    ∗ (aggDat V c).leavesExact 0 t ∗ (aggDat V c).leavesExact 1 t
    ∗ (aggDat V c).leavesExact 2 t ∗ (aggDat V c).leavesExact 3 t)

set_option maxHeartbeats 4800000 in
theorem agg_point (c : Dev nD) (t : Fin cfg1.N) :
    aggPre V c t ⊢ wp frame (wpE (defs₀ (F := F)) Variants.none c none) Set.univ (bodyAt1 t) (fun _ => aggPost V c t) := by
  unfold aggPre aggPost bodyAt1
  simp only [aggDat_before0, aggDat_before1, aggDat_before2]
  rw [show (aggDat V c).owesAt () t.succ = (aggDat V c).owesAt () t.castSucc from rfl]
  rw [show (aggDat V c).Φ t.succ = accInv V c (t.val + 1) t.isLt from rfl, accInv_succ]
  rw [show (aggDat V c).leavesExact 0 t = owns (c : Thread nD τ) (mA t) fullShare ((aggDat V c).after 0 t) from by
    unfold Dat.leavesExact; rw [live0 t], aggDat_after0]
  rw [show (aggDat V c).leavesExact 1 t = owns (c : Thread nD τ) (mB t) fullShare ((aggDat V c).after 1 t) from by
    unfold Dat.leavesExact; rw [live1 t], aggDat_after1]
  rw [show (aggDat V c).leavesExact 2 t = owns (c : Thread nD τ) (mW t) fullShare ((aggDat V c).after 2 t) from by
    unfold Dat.leavesExact; rw [live2 t], aggDat_after2]
  have hN : t.val < 128 := lt_of_lt_of_eq t.isLt (show cfg1.N = 128 from N_1)
  by_cases h0 : t.val % 16 = 0
  · have h1 : ¬ t.val % 16 = 15 := by omega
    rw [Dat.leavesExact_idle (aggDat V c) 3 t (idle3 t (fun h => h1 ((atClose_iff t).mp h))) (noFlush3 t (fun h => h1 ((atClose_iff t).mp h)))]
    rw [stateAt_open V c t h0 h1]
    (try dsimp only)
    unfold accOf openAt
    by_cases hz : t.val = 0
    · rw [aggDat_inv, accInv_zero V c _ _ hz, plainInv_eq]
      iintro ⟨⟨⟨R0, R1, R2, R3, R4, HS⟩, Hg⟩, Ho, ⟨%d0, H0⟩, ⟨%d1, H1⟩, ⟨%d2, H2⟩, ⟨%d3, H3⟩⟩
      iapply ((openAt V c t h0 h1).2 _ Set.univ _)
      isplitl [H0]; · iexact H0
      isplitl [H1]; · iexact H1
      isplitl [H2]; · iexact H2
      isplitl [H3]; · iexact H3
      isplitl [HS]; · iexact HS
      iintro ⟨H0, H1, H2, H3, ⟨%es, HS⟩⟩
      isplitl [R0 R1 R2 R3 R4 HS Hg]
      · isplitl [R0 R1 R2 R3 R4 HS]
        · isplitl [R0]; · iexact R0
          isplitl [R1]; · iexact R1
          isplitl [R2]; · iexact R2
          isplitl [R3]; · iexact R3
          isplitl [R4]; · iexact R4
          unfold owns; iexists _; isplitr
          swap; · iexact HS
          ipureintro; exact View.read_writes_of_cover _ _ _ _ _ (openAt_cover V c t h0 h1)
        iexact Hg
      isplitl [Ho]; · iexact Ho
      isplitl [H0]; · iexact H0
      isplitl [H1]; · iexact H1
      isplitl [H2]; · iexact H2
      iexists _; iexact H3
    · rw [aggDat_inv, accInv_pos V c _ _ hz]
      iintro ⟨⟨⟨R0, R1, R2, R3, R4, HS⟩, Hg⟩, Ho, ⟨%d0, H0⟩, ⟨%d1, H1⟩, ⟨%d2, H2⟩, ⟨%d3, H3⟩⟩
      iapply ((openAt V c t h0 h1).2 _ Set.univ _)
      isplitl [H0]; · iexact H0
      isplitl [H1]; · iexact H1
      isplitl [H2]; · iexact H2
      isplitl [H3]; · iexact H3
      isplitl [HS]; · iexists _; iexact HS
      iintro ⟨H0, H1, H2, H3, ⟨%es, HS⟩⟩
      isplitl [R0 R1 R2 R3 R4 HS Hg]
      · isplitl [R0 R1 R2 R3 R4 HS]
        · isplitl [R0]; · iexact R0
          isplitl [R1]; · iexact R1
          isplitl [R2]; · iexact R2
          isplitl [R3]; · iexact R3
          isplitl [R4]; · iexact R4
          unfold owns; iexists _; isplitr
          swap; · iexact HS
          ipureintro; exact View.read_writes_of_cover _ _ _ _ _ (openAt_cover V c t h0 h1)
        iexact Hg
      isplitl [Ho]; · iexact Ho
      isplitl [H0]; · iexact H0
      isplitl [H1]; · iexact H1
      isplitl [H2]; · iexact H2
      iexists _; iexact H3
  · have hz : t.val ≠ 0 := fun h => h0 (by rw [h])
    by_cases h1 : t.val % 16 = 15
    · rw [show (aggDat V c).leavesExact 3 t = owns (c : Thread nD τ) (mO t) fullShare ((aggDat V c).after 3 t) from by
        unfold Dat.leavesExact; rw [live3 t ((atClose_iff t).mpr h1)], aggDat_after3]
      rw [stateAt_close V c t h0 h1]
      (try dsimp only)
      unfold accOf outOf closeAt
      rw [aggDat_inv, accInv_pos V c _ _ hz]
      iintro ⟨⟨⟨R0, R1, R2, R3, R4, HS⟩, Hg⟩, Ho, ⟨%d0, H0⟩, ⟨%d1, H1⟩, ⟨%d2, H2⟩, ⟨%d3, H3⟩⟩
      iapply ((closeAt V c t h0 h1 _).2.2 Set.univ _)
      isplitl [H0]; · iexact H0
      isplitl [H1]; · iexact H1
      isplitl [H2]; · iexact H2
      isplitl [H3]; · iexists _; iexact H3
      isplitl [HS]; · iexact HS
      iintro ⟨H0, H1, H2, ⟨%e3, H3⟩, ⟨%es, HS⟩⟩
      isplitl [R0 R1 R2 R3 R4 HS Hg]
      · isplitl [R0 R1 R2 R3 R4 HS]
        · isplitl [R0]; · iexact R0
          isplitl [R1]; · iexact R1
          isplitl [R2]; · iexact R2
          isplitl [R3]; · iexact R3
          isplitl [R4]; · iexact R4
          unfold owns; iexists _; isplitr
          swap; · iexact HS
          ipureintro; exact View.read_writes_of_cover _ _ _ _ _ (closeAt_cover V c t h0 h1 _)
        iexact Hg
      isplitl [Ho]; · iexact Ho
      isplitl [H0]; · iexact H0
      isplitl [H1]; · iexact H1
      isplitl [H2]; · iexact H2
      unfold owns; iexists _; isplitr
      swap; · iexact H3
      ipureintro; exact View.read_writes_of_cover _ _ _ _ _ (closeAt_coverOut V c t h0 h1 _)
    · rw [Dat.leavesExact_idle (aggDat V c) 3 t (idle3 t (fun h => h1 ((atClose_iff t).mp h))) (noFlush3 t (fun h => h1 ((atClose_iff t).mp h)))]
      rw [stateAt_mid V c t h0 h1]
      (try dsimp only)
      unfold accOf midAt
      rw [aggDat_inv, accInv_pos V c _ _ hz]
      iintro ⟨⟨⟨R0, R1, R2, R3, R4, HS⟩, Hg⟩, Ho, ⟨%d0, H0⟩, ⟨%d1, H1⟩, ⟨%d2, H2⟩, ⟨%d3, H3⟩⟩
      iapply ((midAt V c t h0 h1 _).2 _ Set.univ _)
      isplitl [H0]; · iexact H0
      isplitl [H1]; · iexact H1
      isplitl [H2]; · iexact H2
      isplitl [H3]; · iexact H3
      isplitl [HS]; · iexact HS
      iintro ⟨H0, H1, H2, H3, ⟨%es, HS⟩⟩
      isplitl [R0 R1 R2 R3 R4 HS Hg]
      · isplitl [R0 R1 R2 R3 R4 HS]
        · isplitl [R0]; · iexact R0
          isplitl [R1]; · iexact R1
          isplitl [R2]; · iexact R2
          isplitl [R3]; · iexact R3
          isplitl [R4]; · iexact R4
          unfold owns; iexists _; isplitr
          swap; · iexact HS
          ipureintro; exact View.read_writes_of_cover _ _ _ _ _ (midAt_cover V c t h0 h1 _)
        iexact Hg
      isplitl [Ho]; · iexact Ho
      isplitl [H0]; · iexact H0
      isplitl [H1]; · iexact H1
      isplitl [H2]; · iexact H2
      iexists _; iexact H3

/-- The body obligation of the aggregation pipeline, at every point. -/
theorem agg_obligation (c : Dev nD) : BodyObligation (aggDat (F := F) V c) (defs₀ (F := F)) Variants.none () Set.univ := fun t => by
  rw [bigSep_W1, bigSep_W1]
  exact agg_point V c t

end Cert.KernelIdeal.Enc

end
-- ==== Proof.KI.Run.lean ====
import proofs.«170465_j40699110097055_1_alg».proof.Proof.Gen.KernelIdeal.Launch
import proofs.«170465_j40699110097055_1_alg».proof.Proof.Gen.KernelIdeal.Skeleton
import proofs.«170465_j40699110097055_1_alg».proof.Proof.Gen.KernelIdeal.Points
import proofs.«170465_j40699110097055_1_alg».proof.Proof.Gen.KernelIdeal.Regions
import proofs.«170465_j40699110097055_1_alg».proof.Proof.KI.ProjData
import proofs.«170465_j40699110097055_1_alg».proof.Proof.KI.AggPoint
import Idealize.ShloMosaic.Lib.Pipeline.RegionsLoop
import Idealize.ShloMosaic.Lib.Pipeline.FrameSuffix
import Idealize.ShloMosaic.Lib.Pipeline.FrameBody
import Idealize.ShloMosaic.Lib.Ring
import Idealize.ShloMosaic.Lib.Tactic

set_option maxRecDepth 16384

noncomputable section

namespace Cert.KernelIdeal.Enc

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

/-!
  The whole program as four stretches in order: five host operations (the decoding matrix), the projection launch, the
  aggregation launch, thirty-seven host operations (the per-edge gather and the logistic). The core's unscoped buffers
  are named at each boundary: at launch the memory; after a host stretch its operations applied; after a launch the
  launch's arrays at what its write-backs leave and everything else untouched. One run theorem: every weakly fair
  execution terminates, and every unscoped buffer ends at the last of these. The frame claim and the value of the
  result are both read off it.
-/

variable (m : (ℓ : Loc nD τ sig) → Buf (Elt F) ℓ)

/-! ## The buffers at each boundary -/

/-- When the projection launch is entered: the memory after the first host stretch. -/
abbrev atProj (c : Dev nD) : Valuation τ sig (Elt F) := StableHlo.after hostOps0 (fun b => m (c, b))
/-- The same, read at a TensorCore reference. -/
abbrev inProj (c : Dev nD) (b : Ref sig .tc) : Buf (Elt F) ((c : Thread nD τ).loc b) := atProj m c b
/-- When the aggregation launch is entered: the projection's arrays at what it leaves. -/
def atAgg (c : Dev nD) : Valuation τ sig (Elt F) :=
  Pipeline.withArrays spec0 c (atProj m c) fun w => (projDat (inProj m) c).arrAt w cfg0.N
abbrev inAgg (c : Dev nD) (b : Ref sig .tc) : Buf (Elt F) ((c : Thread nD τ).loc b) := atAgg m c b
/-- When the last host stretch is entered: the aggregation's arrays at what it leaves. -/
def atTail (c : Dev nD) : Valuation τ sig (Elt F) :=
  Pipeline.withArrays spec1 c (atAgg m c) fun w => (aggDat (inAgg m) c).arrAt w cfg1.N
/-- At the end. -/
abbrev atEnd (c : Dev nD) : Valuation τ sig (Elt F) := StableHlo.after hostOps2 (atTail m c)

theorem atAgg_arr (c : Dev nD) (w : Fin cfg0.W) :
    atAgg m c (Proc.devRef .tc (Pipeline.arrRef spec0 w)) = (projDat (inProj m) c).arrAt w cfg0.N := by
  unfold atAgg; exact Pipeline.withArrays_arr spec0 launch0.win.arr_inj c _ _ w
theorem atAgg_other (c : Dev nD) (b : Ref sig .tc) (hb : ∀ w, Pipeline.arrRef spec0 w ≠ b) :
    atAgg m c (Proc.devRef .tc b) = atProj m c (Proc.devRef .tc b) := by
  unfold atAgg; exact Pipeline.withArrays_of_ne spec0 c _ _ b hb
theorem atTail_arr (c : Dev nD) (w : Fin cfg1.W) :
    atTail m c (Proc.devRef .tc (Pipeline.arrRef spec1 w)) = (aggDat (inAgg m) c).arrAt w cfg1.N := by
  unfold atTail; exact Pipeline.withArrays_arr spec1 launch1.win.arr_inj c _ _ w
theorem atTail_other (c : Dev nD) (b : Ref sig .tc) (hb : ∀ w, Pipeline.arrRef spec1 w ≠ b) :
    atTail m c (Proc.devRef .tc b) = atAgg m c (Proc.devRef .tc b) := by
  unfold atTail; exact Pipeline.withArrays_of_ne spec1 c _ _ b hb

/-! ## The proof data family and what rides beside the buffers -/

/-- Both pipelines' proof data, each at its launch's entry contents. -/
def pdats : (p : Fin 2) → (c : Dev nD) → Dat τ (Elt F) Unit ℕ (UR sig nD τ) ℕ (Pipeline.pin (pcfgs (F := F)) Gen.adm p) c
  | ⟨0, _⟩ => fun c => projDat (inProj m) c
  | ⟨1, _⟩ => fun c => aggDat (inAgg m) c

abbrev noVar : Variants := Variants.none
/-- No core owes another anything. -/
abbrev noPairs : GSem nD τ sig → Finset Unit := fun _ => ∅
abbrev noLevel : GSem nD τ sig → Unit → ℕ := fun _ _ => 0
/-- Beside the buffers through every stretch: the generator register at some state, and nothing owed. -/
abbrev beside (c : Dev nD) : sProp 𝕄 := iprop((∃ r, prngReg c r) ∗ ∃ W, owes (c : Thread nD τ) (0 : CellTallies nD τ sig Unit) W)

/-- A host stretch as a segment, from the boundary contents `W`. -/
abbrev hostStretch (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ noVar noPairs noLevel :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W beside

theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩

/-- The aggregation's invariant after its last point gives the plain one back: the accumulator's contents are forgotten. -/
theorem agg_inv_last (V : (c : Dev nD) → (b : Ref sig .tc) → Buf (Elt F) ((c : Thread nD τ).loc b)) (c : Dev nD) :
    (aggDat V c).Φ (Fin.last cfg1.N) ⊢ (Pipeline.ΦA spec1 c : sProp 𝕄) := by
  rw [show (aggDat V c).Φ (Fin.last cfg1.N) = accInv V c (Fin.last cfg1.N).val (Nat.le_of_lt_succ (Fin.last cfg1.N).isLt) from rfl,
    accInv_pos V c _ _ (by rw [Fin.val_last]; have : cfg1.N = 128 := N_1; omega), plainInv_eq]
  iintro ⟨⟨R0, R1, R2, R3, R4, HS⟩, Hg⟩
  isplitl [R0 R1 R2 R3 R4 HS]
  · isplitl [R0]; · iexact R0
    isplitl [R1]; · iexact R1
    isplitl [R2]; · iexact R2
    isplitl [R3]; · iexact R3
    isplitl [R4]; · iexact R4
    iexists _; iexact HS
  iexact Hg

/-! ## The launches as segments -/

set_option backward.isDefEq.respectTransparency.types false in
/-- The projection launch: entered from the buffers at `atProj`, left at `atAgg`. -/
def projSeg : Pipeline.RegionSeg (pcfgs (F := F)) Gen.adm (pdats m) () defs₀ noVar noPairs noLevel 0 where
  win := launch0.win.to₀
  block_pos := launch0.block_pos
  stage_whole := launch0.stage_whole
  K := PEmpty
  osem k := k.elim
  ho := Pipeline.OwnSemFacts.none _
  hbody c := (proj_obligation (inProj m) c).loose
  hwaits := Pipeline.hwaits_of_owed_zero _ _ _ _ noPairs noLevel 0 fun _ _ => rfl
  pre c := iprop(StableHlo.held (c : Thread nD τ) (Pipeline.ucRefs τ sig) (atProj m c) ∗ beside c)
  post c := iprop(StableHlo.held (c : Thread nD τ) (Pipeline.ucRefs τ sig) (atAgg m c) ∗ beside c)
  X c := iprop(∃ r, prngReg c r)
  Y c := iprop(∃ r, prngReg c r)
  Z c := Pipeline.unscopedRest (Ix := Unit) (Name := ℕ) (U := UR sig nD τ) (Lvl := ℕ) spec0 c (inProj m c)
  hentry c := by
    rw [Pipeline.ownSems0_none]
    have hsplit := Pipeline.arrays_of_unscopedBufs (p := 0) (pcfgs (F := F)) Gen.adm (pdats m) launch0.win launch0.arr_whole c
      ((pdats m 0 c).share_full fun _ => rfl) (inProj m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) Gen.adm (Ix := Unit) (Name := ℕ) (U := UR sig nD τ) (Lvl := ℕ)
      launch0.win launch0.arr_whole c (pdats m) ((pdats m 0 c).share_full fun _ => rfl)
      (inProj m c) (inAgg m c) ((pdats m 0 c).arrAt · cfg0.N) (fun w => (atAgg_arr m c w).symm)
      (fun b hb => atAgg_other m c b fun w e => hb (Finset.mem_image.mpr ⟨w, Finset.mem_univ _, e⟩))
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- The aggregation launch: entered from the buffers at `atAgg`, left at `atTail`. Its invariant starts as the plain one
    and ends by giving the plain one back. -/
def aggSeg : Pipeline.RegionSeg (pcfgs (F := F)) Gen.adm (pdats m) () defs₀ noVar noPairs noLevel 1 where
  win := launch1.win.to₀
  block_pos := launch1.block_pos
  stage_whole := launch1.stage_whole
  K := PEmpty
  osem k := k.elim
  ho := Pipeline.OwnSemFacts.none _
  hbody c := (agg_obligation (inAgg m) c).loose
  hwaits := Pipeline.hwaits_of_owed_zero _ _ _ _ noPairs noLevel 1 fun _ _ => rfl
  pre c := iprop(StableHlo.held (c : Thread nD τ) (Pipeline.ucRefs τ sig) (atAgg m c) ∗ beside c)
  post c := iprop(StableHlo.held (c : Thread nD τ) (Pipeline.ucRefs τ sig) (atTail m c) ∗ beside c)
  X c := iprop(∃ r, prngReg c r)
  Y c := iprop(∃ r, prngReg c r)
  Z c := Pipeline.unscopedRest (Ix := Unit) (Name := ℕ) (U := UR sig nD τ) (Lvl := ℕ) spec1 c (inAgg m c)
  hentry c := by
    rw [Pipeline.ownSems0_none]
    have hsplit := Pipeline.arrays_of_unscopedBufs (p := 1) (pcfgs (F := F)) Gen.adm (pdats m) launch1.win launch1.arr_whole c
      ((pdats m 1 c).share_full fun _ => rfl) (inAgg m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 1 c).Φ 0 = Pipeline.ΦA spec1 c from rfl]; unfold Pipeline.ΦA
    iintro ⟨Hp, -, Hr⟩
    isplitl [Hr]; · iexact Hr
    iexact Hp
  hout c := by
    rw [Pipeline.ownSems0_none]
    refine (show (pdats m 1 c).Φ (Fin.last _) ⊢ (Pipeline.ΦA spec1 c : sProp 𝕄) from agg_inv_last (inAgg m) c).trans ?_
    unfold Pipeline.ΦA
    iintro ⟨Hr, Hp⟩
    isplitl [Hp]; · iexact Hp
    isplitr; · iempintro
    iexact Hr
  hexit c := by
    have hjoin := Pipeline.unscopedBufs_of_arrays (p := 1) (pcfgs (F := F)) Gen.adm (Ix := Unit) (Name := ℕ) (U := UR sig nD τ) (Lvl := ℕ)
      launch1.win launch1.arr_whole c (pdats m) ((pdats m 1 c).share_full fun _ => rfl)
      (inAgg m c) (fun b => atTail m c b) ((pdats m 1 c).arrAt · cfg1.N) (fun w => (atTail_arr m c w).symm)
      (fun b hb => atTail_other m c b fun w e => hb (Finset.mem_image.mpr ⟨w, Finset.mem_univ _, e⟩))
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! ## The program as its four stretches, and the run -/

abbrev stretches : List (Pipeline.Seg (pcfgs (F := F)) Gen.adm (pdats m) () defs₀ noVar noPairs noLevel) :=
  [ .host (hostStretch hostOps0 hostOps0_sub Gen.hostOps0_fresh (fun c => fun b => m (c, b))),
    .region (projSeg m),
    .region (aggSeg m),
    .host (hostStretch hostOps2 hostOps2_sub Gen.hostOps2_fresh (atTail m)) ]

set_option backward.isDefEq.respectTransparency.types false in
/-- THE RUN. From any memory with zero counters, every weakly fair execution terminates, nothing faulting, and every
    unscoped buffer of every core ends at `atEnd`. -/
theorem run_named (ρ : Dev nD → PrngReg) :
    θ_run defs (onTc (τ := τ) (main (F := F))) ⟨m, fun _ => 0, ρ⟩
      (fun r => ∀ c : Dev nD, ∀ b ∈ Pipeline.ucRefs τ sig, r.2.mem (((c : Thread nD τ)).1, b) = atEnd m c b) :=
  Pipeline.θ_run_regions_kit (pcfgs (F := F)) Gen.adm (pdats m) () cellOf_inj emb₁ defs₀ noVar noPairs noLevel m ρ main (stretches m)
    (fun c Q => by
      rewrite [main_chain c, Pipeline.Seg.run_eq_chain,
        show (stretches m).map Pipeline.Seg.prog = [
          StableHlo.seq hostOps0,
          Prog.lift (.customCall (Pipeline.entry 0) ()),
          Prog.lift (.customCall (Pipeline.entry 1) ()),
          StableHlo.seq hostOps2 ] from rfl]
      exact .rfl)
    (by simp only [stretches, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]; · iapply (show (ownU _ : sProp 𝕄) ⊢ BI.own (emb₁ (initOf (Pipeline.cells cfgs cellOf_inj) (Pipeline.launchToks cfgs cellOf_inj))) from .rfl); iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (fun b => m (c, b)) ∗ beside c))
    (Tₙ := fun c => StableHlo.held (c : Thread nD τ) (Pipeline.ucRefs τ sig) (atEnd m c))
    (hch := ⟨fun _ => .rfl, fun _ => .rfl, fun _ => .rfl, fun _ => .rfl, fun c => sep_mono .rfl (by
      iintro ⟨-, HO⟩
      iexact HO)⟩)
    (hinit := by
      refine Pipeline.initEach noPairs noLevel fun c => ?_
      rw [show unscopedBufs c (fun b => m ((c : Thread nD τ).loc b)) = StableHlo.held (c : Thread nD τ) (Pipeline.ucRefs τ sig) (fun b => m (c, b))
        from Pipeline.unscopedBufs_held c (fun b => m (c, b))]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = atEnd m c b)
    (hfin := fun c s' => by
      iintro ⟨Hh, HSI⟩
      unfold StableHlo.held
      imodintro
      iapply (pointsTo_read_all (Pipeline.ucRefs τ sig) (fun b => (((c : Thread nD τ)).1, b)) (atEnd m c) s')
      isplitl [Hh] <;> iassumption)
    (hQ := fun s h c => h c)

end Cert.KernelIdeal.Enc

end
-- ==== Proof.KI.Kept.lean ====
import proofs.«170465_j40699110097055_1_alg».proof.Proof.Gen.KernelIdeal.Launch
import proofs.«170465_j40699110097055_1_alg».proof.Proof.Gen.KernelIdeal.Skeleton
import proofs.«170465_j40699110097055_1_alg».proof.Proof.Gen.KernelIdeal.Points
import proofs.«170465_j40699110097055_1_alg».proof.Proof.KI.Run
import Idealize.ShloMosaic.Lib.Pipeline.FrameBody
import Idealize.ShloMosaic.Lib.Ring
import Idealize.ShloMosaic.Lib.Tactic

set_option maxRecDepth 16384

noncomputable section

namespace Cert.KernelIdeal.Enc

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

/-!
  Which buffers each boundary leaves as they were. No host operation writes an argument and a launch changes only its
  output array, so every argument array is the launch memory's at every boundary; the aggregation reads the projected
  features the projection left and the decoding matrix the first host stretch computed; the last stretch reads the
  array the aggregation left.
-/

variable (m : (ℓ : Loc nD τ sig) → Buf (Elt F) ℓ)

/-- A reference the first host stretch does not write holds the launch memory when the projection is entered. -/
theorem atProj_kept (c : Dev nD) (r : Ref sig .tc) (h : r ∉ Gen.hostOps0_W) : atProj m c r = m ((c : Thread nD τ).loc r) :=
  (StableHlo.after_of_writes_sub hostOps0 _ Gen.hostOps0_writes h).trans rfl

theorem atAgg_arg0 (c : Dev nD) : atAgg m c main_arg0 = m ((c : Thread nD τ).loc main_arg0) :=
  (atAgg_arr m c 0).trans (((projDat (inProj m) c).arrAt_in 0 rfl _).trans ((projDat_A (inProj m) c 0).trans (atProj_kept m c main_arg0 (by decide))))
theorem atTail_arg0 (c : Dev nD) : atTail m c main_arg0 = m ((c : Thread nD τ).loc main_arg0) :=
  (atTail_other m c main_arg0 (by decide)).trans (atAgg_arg0 m c)
theorem atEnd_arg0 (c : Dev nD) : atEnd m c main_arg0 = m ((c : Thread nD τ).loc main_arg0) :=
  (StableHlo.after_of_writes_sub hostOps2 _ Gen.hostOps2_writes (by decide)).trans (atTail_arg0 m c)

theorem atAgg_arg1 (c : Dev nD) : atAgg m c main_arg1 = m ((c : Thread nD τ).loc main_arg1) :=
  (atAgg_other m c main_arg1 (by decide)).trans (atProj_kept m c main_arg1 (by decide))
theorem atTail_arg1 (c : Dev nD) : atTail m c main_arg1 = m ((c : Thread nD τ).loc main_arg1) :=
  (atTail_arr m c 0).trans (((aggDat (inAgg m) c).arrAt_in 0 rfl _).trans ((aggDat_A (inAgg m) c 0).trans (atAgg_arg1 m c)))
theorem atEnd_arg1 (c : Dev nD) : atEnd m c main_arg1 = m ((c : Thread nD τ).loc main_arg1) :=
  (StableHlo.after_of_writes_sub hostOps2 _ Gen.hostOps2_writes (by decide)).trans (atTail_arg1 m c)

theorem atAgg_arg2 (c : Dev nD) : atAgg m c main_arg2 = m ((c : Thread nD τ).loc main_arg2) :=
  (atAgg_arr m c 1).trans (((projDat (inProj m) c).arrAt_in 1 rfl _).trans ((projDat_A (inProj m) c 1).trans (atProj_kept m c main_arg2 (by decide))))
theorem atTail_arg2 (c : Dev nD) : atTail m c main_arg2 = m ((c : Thread nD τ).loc main_arg2) :=
  (atTail_other m c main_arg2 (by decide)).trans (atAgg_arg2 m c)
theorem atEnd_arg2 (c : Dev nD) : atEnd m c main_arg2 = m ((c : Thread nD τ).loc main_arg2) :=
  (StableHlo.after_of_writes_sub hostOps2 _ Gen.hostOps2_writes (by decide)).trans (atTail_arg2 m c)

theorem atAgg_arg3 (c : Dev nD) : atAgg m c main_arg3 = m ((c : Thread nD τ).loc main_arg3) :=
  (atAgg_other m c main_arg3 (by decide)).trans (atProj_kept m c main_arg3 (by decide))
theorem atTail_arg3 (c : Dev nD) : atTail m c main_arg3 = m ((c : Thread nD τ).loc main_arg3) :=
  (atTail_other m c main_arg3 (by decide)).trans (atAgg_arg3 m c)
theorem atEnd_arg3 (c : Dev nD) : atEnd m c main_arg3 = m ((c : Thread nD τ).loc main_arg3) :=
  (StableHlo.after_of_writes_sub hostOps2 _ Gen.hostOps2_writes (by decide)).trans (atTail_arg3 m c)

theorem atAgg_arg4 (c : Dev nD) : atAgg m c main_arg4 = m ((c : Thread nD τ).loc main_arg4) :=
  (atAgg_other m c main_arg4 (by decide)).trans (atProj_kept m c main_arg4 (by decide))
theorem atTail_arg4 (c : Dev nD) : atTail m c main_arg4 = m ((c : Thread nD τ).loc main_arg4) :=
  (atTail_other m c main_arg4 (by decide)).trans (atAgg_arg4 m c)
theorem atEnd_arg4 (c : Dev nD) : atEnd m c main_arg4 = m ((c : Thread nD τ).loc main_arg4) :=
  (StableHlo.after_of_writes_sub hostOps2 _ Gen.hostOps2_writes (by decide)).trans (atTail_arg4 m c)

theorem atAgg_arg5 (c : Dev nD) : atAgg m c main_arg5 = m ((c : Thread nD τ).loc main_arg5) :=
  (atAgg_other m c main_arg5 (by decide)).trans (atProj_kept m c main_arg5 (by decide))
theorem atTail_arg5 (c : Dev nD) : atTail m c main_arg5 = m ((c : Thread nD τ).loc main_arg5) :=
  (atTail_other m c main_arg5 (by decide)).trans (atAgg_arg5 m c)
theorem atEnd_arg5 (c : Dev nD) : atEnd m c main_arg5 = m ((c : Thread nD τ).loc main_arg5) :=
  (StableHlo.after_of_writes_sub hostOps2 _ Gen.hostOps2_writes (by decide)).trans (atTail_arg5 m c)

theorem atAgg_arg6 (c : Dev nD) : atAgg m c main_arg6 = m ((c : Thread nD τ).loc main_arg6) :=
  (atAgg_other m c main_arg6 (by decide)).trans (atProj_kept m c main_arg6 (by decide))
theorem atTail_arg6 (c : Dev nD) : atTail m c main_arg6 = m ((c : Thread nD τ).loc main_arg6) :=
  (atTail_other m c main_arg6 (by decide)).trans (atAgg_arg6 m c)
theorem atEnd_arg6 (c : Dev nD) : atEnd m c main_arg6 = m ((c : Thread nD τ).loc main_arg6) :=
  (StableHlo.after_of_writes_sub hostOps2 _ Gen.hostOps2_writes (by decide)).trans (atTail_arg6 m c)

/-- The aggregation is entered with the decoding matrix as the first host stretch left it, -/
theorem atAgg_decode (c : Dev nD) : atAgg m c main_v4 = atProj m c main_v4 := atAgg_other m c main_v4 (by decide)
/-- and with the projected features as the projection left them. -/
theorem atAgg_proj (c : Dev nD) : atAgg m c main_v5 = (projDat (inProj m) c).arrAt 2 cfg0.N := atAgg_arr m c 2
/-- The last stretch is entered with the array the aggregation left. -/
theorem atTail_out (c : Dev nD) : atTail m c main_v6 = (aggDat (inAgg m) c).arrAt 3 cfg1.N := atTail_arr m c 3

/-- THE FRAME's post, read off the run: every argument array ends as launched. -/
theorem args_kept (ρ : Dev nD → PrngReg) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) :=
  (θ_run defs _ _).mono (fun _ h c =>
    ⟨(h c _ (mem_uc main_arg0 (by decide))).trans (atEnd_arg0 m c),
     (h c _ (mem_uc main_arg1 (by decide))).trans (atEnd_arg1 m c),
     (h c _ (mem_uc main_arg2 (by decide))).trans (atEnd_arg2 m c),
     (h c _ (mem_uc main_arg3 (by decide))).trans (atEnd_arg3 m c),
     (h c _ (mem_uc main_arg4 (by decide))).trans (atEnd_arg4 m c),
     (h c _ (mem_uc main_arg5 (by decide))).trans (atEnd_arg5 m c),
     (h c _ (mem_uc main_arg6 (by decide))).trans (atEnd_arg6 m c)⟩) (run_named m ρ)

/-- The same run with the result named beside the arguments. -/
theorem result_named (ρ : Dev nD → PrngReg) :
    θ_run defs (onTc (τ := τ) (main (F := F))) ⟨m, fun _ => 0, ρ⟩ (fun r => ∀ c : Dev nD,
      r.2.mem ((c.tc : Thread nD τ).loc main_v37) = atEnd m c main_v37
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) :=
  (θ_run defs _ _).mono (fun _ h c =>
    ⟨h c _ (mem_uc main_v37 (by decide)),
     (h c _ (mem_uc main_arg0 (by decide))).trans (atEnd_arg0 m c),
     (h c _ (mem_uc main_arg1 (by decide))).trans (atEnd_arg1 m c),
     (h c _ (mem_uc main_arg2 (by decide))).trans (atEnd_arg2 m c),
     (h c _ (mem_uc main_arg3 (by decide))).trans (atEnd_arg3 m c),
     (h c _ (mem_uc main_arg4 (by decide))).trans (atEnd_arg4 m c),
     (h c _ (mem_uc main_arg5 (by decide))).trans (atEnd_arg5 m c),
     (h c _ (mem_uc main_arg6 (by decide))).trans (atEnd_arg6 m c)⟩) (run_named m ρ)

end Cert.KernelIdeal.Enc

end
-- ==== Proof.Spec.lean ====
/-
  The mathematics of the edge scorer, with no program in sight. Arrays are functions into the extended reals.
  A node's embedding is a row of the adjacency times the projected features; an edge (s, d) is scored from the
  rectified embeddings of its two ends, either as two dot products with the two halves of the first decoding
  matrix already contracted with the second (the kernel's arrangement), or as the concatenated 256-vector
  through both decoding matrices in turn (the reference's). Over finite entries the two agree: the product of
  sums is the sum of products, and the sum over 256 splits into its two halves of 128.
-/
import Idealize.ShloMosaic.PureOps.Ideal
import Idealize.ShloMosaic.Lib.ValueIdx
import Mathlib.Algebra.BigOperators.Fin
import Mathlib.Data.EReal.Operations
import Idealize.ShloMosaic.PureOps.Ideal.Laws

noncomputable section

namespace Cert.EdgeScore

open Idealize.ShloMosaic Idealize.ShloMosaic.ValueIdx

/-- A rank-2 array over the extended reals. -/
abbrev Arr2 (r c : Nat) : Type := (⟨2, ![r, c]⟩ : Shape).Idx → EReal

/-- Every entry is a real number. -/
def Real2 {r c : Nat} (M : Arr2 r c) : Prop := ∀ i, ∃ x : ℝ, M i = (x : EReal)

/-- The float zero both programs rectify against and start sums from. -/
abbrev fzero : EReal := Ideal.ofBits .f32 0x00000000#32
/-- The float one of the logistic's numerator and denominator. -/
abbrev fone : EReal := Ideal.ofBits .f32 0x3F800000#32

theorem fzero_eq : fzero = 0 := Ideal.ofBits_zero_f32

/-- The coercion of the reals into the extended reals commutes with finite sums. -/
theorem coe_sum {ι : Type*} (s : Finset ι) (f : ι → ℝ) : ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

/-- A sum over 256 is the sum over its lower 128 plus the sum over its upper 128. -/
theorem sum_256 {M : Type*} [AddCommMonoid M] (f : Fin 256 → M) :
    ∑ j, f j = (∑ l : Fin 128, f ⟨l.val, by omega⟩) + ∑ l : Fin 128, f ⟨128 + l.val, by omega⟩ :=
  Fin.sum_univ_add (a := 128) (b := 128) f

/-- Rectification. -/
def rect (z : EReal) : EReal := max z fzero

/-- The logistic as both programs spell it: one over one plus the exponential of the negation. -/
def squash (h : EReal) : EReal :=
  FloatOps.hostDivf (F := Ideal) (φ := .f32) fone (FloatOps.addf (F := Ideal) (φ := .f32) fone (FloatOps.hostUnary (F := Ideal) (φ := .f32) .exp (FloatOps.hostNegf (F := Ideal) (φ := .f32) h)))

/-- Projected features: entry (k, l) of the feature matrix times the weight. -/
def proj (X : Arr2 16384 512) (W : Arr2 512 128) (k : Fin 16384) (l : Fin 128) : EReal :=
  ∑ d : Fin 512, X (ix2 k d) * W (ix2 d l)

/-- A node's embedding before rectification: row `n` of the adjacency against column `l` of the projected features. -/
def emb (A : Arr2 16384 16384) (X : Arr2 16384 512) (W : Arr2 512 128) (n : Fin 16384) (l : Fin 128) : EReal :=
  ∑ k : Fin 16384, A (ix2 n k) * proj X W k l

/-- The first decoding matrix's upper or lower half (rows `off + l`) contracted with the second: a 128-vector. -/
def half (W2 : Arr2 256 128) (W3 : Arr2 128 1) (off : Nat) (hoff : off + 128 ≤ 256) (l : Fin 128) : EReal :=
  ∑ k : Fin 128, W2 (ix2 ⟨off + l.val, by omega⟩ k) * W3 (ix2 k 0)

/-- The kernel's arrangement of an edge's score from its ends' embeddings `zs`, `zd`. -/
def scoreSplit (W2 : Arr2 256 128) (W3 : Arr2 128 1) (zs zd : Fin 128 → EReal) : EReal :=
  (∑ l : Fin 128, rect (zs l) * half W2 W3 0 (by omega) l) + (∑ l : Fin 128, rect (zd l) * half W2 W3 128 (by omega) l)

/-- The concatenated pair of embeddings. -/
def pair (zs zd : Fin 128 → EReal) (j : Fin 256) : EReal :=
  if h : j.val < 128 then zs ⟨j.val, h⟩ else zd ⟨j.val - 128, by omega⟩

/-- The reference's arrangement: the rectified pair through the first decoding matrix, then the second. -/
def scoreJoint (W2 : Arr2 256 128) (W3 : Arr2 128 1) (zs zd : Fin 128 → EReal) : EReal :=
  ∑ k : Fin 128, (∑ j : Fin 256, rect (pair zs zd j) * W2 (ix2 j k)) * W3 (ix2 k 0)

/-- Finite entries make finite projections and embeddings. -/
theorem proj_real {X : Arr2 16384 512} {W : Arr2 512 128} (hX : Real2 X) (hW : Real2 W) (k : Fin 16384) (l : Fin 128) :
    ∃ x : ℝ, proj X W k l = (x : EReal) := by
  choose x hx using hX
  choose w hw using hW
  refine ⟨∑ d : Fin 512, x (ix2 k d) * w (ix2 d l), ?_⟩
  unfold proj
  rw [coe_sum]
  exact Finset.sum_congr rfl fun d _ => by rw [hx, hw, EReal.coe_mul]
theorem emb_real {A : Arr2 16384 16384} {X : Arr2 16384 512} {W : Arr2 512 128} (hA : Real2 A) (hX : Real2 X) (hW : Real2 W)
    (n : Fin 16384) (l : Fin 128) : ∃ x : ℝ, emb A X W n l = (x : EReal) := by
  choose a ha using hA
  have hP := fun k : Fin 16384 => proj_real hX hW k l
  choose p hp using hP
  refine ⟨∑ k : Fin 16384, a (ix2 n k) * p k, ?_⟩
  unfold emb
  rw [coe_sum]
  exact Finset.sum_congr rfl fun k _ => by rw [ha, hp, EReal.coe_mul]

/-- The law over the reals: the product of sums is the sum of products, and the sum over 256 splits in two. -/
theorem score_real (a b : Fin 128 → ℝ) (m : Fin 256 → Fin 128 → ℝ) (v : Fin 128 → ℝ) :
    (∑ l : Fin 128, a l * ∑ k : Fin 128, m ⟨0 + l.val, by omega⟩ k * v k)
        + (∑ l : Fin 128, b l * ∑ k : Fin 128, m ⟨128 + l.val, by omega⟩ k * v k)
      = ∑ k : Fin 128, (∑ j : Fin 256, (if h : j.val < 128 then a ⟨j.val, h⟩ else b ⟨j.val - 128, by omega⟩) * m j k) * v k := by
  have hR : ∀ c : Fin 256 → ℝ, (∑ k : Fin 128, (∑ j : Fin 256, c j * m j k) * v k)
      = ∑ j : Fin 256, c j * ∑ k : Fin 128, m j k * v k := by
    intro c
    simp only [Finset.sum_mul, Finset.mul_sum]
    rw [Finset.sum_comm]
    exact Finset.sum_congr rfl fun j _ => Finset.sum_congr rfl fun k _ => mul_assoc _ _ _
  rw [hR, sum_256]
  refine congrArg₂ (· + ·) ?_ ?_
  · refine Finset.sum_congr rfl fun l _ => ?_
    have h0 : (⟨0 + l.val, by omega⟩ : Fin 256) = ⟨l.val, by omega⟩ := Fin.ext (Nat.zero_add _)
    rw [h0, dif_pos l.isLt]
  · refine Finset.sum_congr rfl fun l _ => ?_
    have hn : ¬ (128 + l.val < 128) := by omega
    rw [dif_neg hn]
    have hl : (⟨128 + l.val - 128, by omega⟩ : Fin 128) = l := Fin.ext (Nat.add_sub_cancel_left 128 l.val)
    rw [hl]

/-- THE LAW. Over finite decoding matrices and finite embeddings the two arrangements agree. -/
theorem score_eq {W2 : Arr2 256 128} {W3 : Arr2 128 1} (h2 : Real2 W2) (h3 : Real2 W3) (zs zd : Fin 128 → EReal)
    (hs : ∀ l, ∃ x : ℝ, zs l = (x : EReal)) (hd : ∀ l, ∃ x : ℝ, zd l = (x : EReal)) :
    scoreSplit W2 W3 zs zd = scoreJoint W2 W3 zs zd := by
  choose w2 hw2 using h2
  choose w3 hw3 using h3
  choose s hs using hs
  choose d hd using hd
  have hrect : ∀ x : ℝ, rect (x : EReal) = ((max x 0 : ℝ) : EReal) := by
    intro x
    unfold rect
    rw [fzero_eq, ← EReal.coe_zero]
    exact (EReal.coe_strictMono.monotone.map_max).symm
  have hpair : ∀ j : Fin 256, rect (pair zs zd j)
      = ((if h : j.val < 128 then max (s ⟨j.val, h⟩) 0 else max (d ⟨j.val - 128, by omega⟩) 0 : ℝ) : EReal) := by
    intro j
    unfold pair
    by_cases h : j.val < 128
    · rw [dif_pos h, dif_pos h, hs, hrect]
    · rw [dif_neg h, dif_neg h, hd, hrect]
  unfold scoreSplit scoreJoint half
  simp only [hpair, hs, hd, hrect, hw2, hw3, ← EReal.coe_mul, ← coe_sum, ← EReal.coe_add]
  exact congrArg Real.toEReal
    (score_real (fun l => max (s l) 0) (fun l => max (d l) 0) (fun j k => w2 (ix2 j k)) (fun k => w3 (ix2 k 0)))

/-- A sum over the 16384 columns, taken sixteen blocks of 1024 at a time. -/
theorem sum_blocks (f : Fin 16384 → EReal) :
    (∑ k : Fin 16384, f k) = ∑ b : Fin 16, ∑ q : Fin 1024, f ⟨1024 * b.val + q.val, by omega⟩ := by
  have h := Equiv.sum_comp (finProdFinEquiv (m := 16) (n := 1024)) (f : Fin (16 * 1024) → EReal)
  rw [Fintype.sum_prod_type] at h
  refine Eq.trans h.symm ?_
  exact Finset.sum_congr rfl fun b _ => Finset.sum_congr rfl fun q _ =>
    congrArg f (Fin.ext (Nat.add_comm q.val (1024 * b.val)))

/-- The accumulator's recurrence: start at the float zero, add one block's contribution per step. -/
def runAcc (g : ℕ → EReal) : ℕ → EReal
  | 0 => fzero
  | n + 1 => runAcc g n + g n

theorem runAcc_eq (g : ℕ → EReal) (n : ℕ) : runAcc g n = ∑ b ∈ Finset.range n, g b := by
  induction n with
  | zero => rw [Finset.range_zero, Finset.sum_empty]; exact fzero_eq
  | succ n ih => rw [Finset.sum_range_succ, ← ih]; rfl

end Cert.EdgeScore

end
-- ==== Proof.EdgeIdx.lean ====
/-
  Reading the edge list, with no program in sight. The two edge tables are stacked into one list of 2^20 rows of
  two words (source, destination). A word names a node after jnp's normalisation of a negative index (shifted up
  by the node count) and StableHLO's gather clamp (read signed, clamped into the table). Here: the stacked list
  read at a row, the node of a word, and the two gathers — an entry of a vector over the nodes, a row of a matrix
  over the nodes — read at an edge; and the concatenation of two 128-wide row blocks read at a column.
-/
import Idealize.ShloMosaic.PureOps.Ideal
import Idealize.ShloMosaic.Lib.ValueIdx
import Idealize.ShloMosaic.Lib.StableHlo.Predicate
import Idealize.ShloMosaic.Lib.Pipeline.Value

noncomputable section

namespace Cert.EdgeScore

open Idealize.ShloMosaic Idealize.ShloMosaic.ValueIdx

/-- One table of edges: 524288 rows of two words. -/
abbrev EdgeTab : Type := (⟨2, ![524288, 2]⟩ : Shape).Idx → BitVec 32

/-- Row `e`, column `col` of the two tables stacked: the first table's rows, then the second's. -/
def edgeWord (x5 x6 : EdgeTab) (e : Fin 1048576) (col : Fin 2) : BitVec 32 :=
  if h : e.val < 524288 then x5 (ix2 ⟨e.val, h⟩ col) else x6 (ix2 ⟨e.val - 524288, by omega⟩ col)

/-- jnp's normalisation of an index word: a negative one is shifted up by the node count. -/
def wrapWord (w : BitVec 32) : BitVec 32 :=
  Scalar.select (IntOp.cmpi .slt w 0#32) (IntOp.addi w 16384#32) w

/-- The node a normalised word reads: signed, clamped into the 16384 nodes. -/
def nodeOf (w : BitVec 32) : Fin 16384 := ⟨min w.toInt.toNat 16383, by omega⟩

/-- The stacked list read at a row and a column. -/
theorem concat_edges (x5 x6 : EdgeTab)
    (h : Shape.Concatenates (([⟨⟨2, ![524288, 2]⟩, x5⟩, ⟨⟨2, ![524288, 2]⟩, x6⟩] : List ((s : Shape) × (s.Idx → BitVec 32))).map (·.1)) ⟨2, ![1048576, 2]⟩ 0)
    (e : Fin 1048576) (col : Fin 2) :
    concatenate ⟨2, ![1048576, 2]⟩ 0 [⟨⟨2, ![524288, 2]⟩, x5⟩, ⟨⟨2, ![524288, 2]⟩, x6⟩] h (ix2 e col) = edgeWord x5 x6 e col := by
  unfold edgeWord
  by_cases hlt : e.val < 524288
  · -- a row of the first table: the same coordinates
    rw [dif_pos hlt]
    exact concatenate_pair_apply_left (t := ⟨2, ![1048576, 2]⟩) (s₁ := ⟨2, ![524288, 2]⟩) (s₂ := ⟨2, ![524288, 2]⟩)
      0 x5 x6 h (ix2 e col) rfl (ix2 ⟨e.val, hlt⟩ col)
      (fun b => by match b with | ⟨0, _⟩ => rfl | ⟨1, _⟩ => rfl)
  · -- a row of the second table: the row less the first table's 524288, the same column
    rw [dif_neg hlt]
    exact concatenate_pair_apply_right (t := ⟨2, ![1048576, 2]⟩) (s₁ := ⟨2, ![524288, 2]⟩) (s₂ := ⟨2, ![524288, 2]⟩)
      0 x5 x6 h (ix2 e col) rfl rfl (ix2 ⟨e.val - 524288, by omega⟩ col)
      (fun b hb => by match b with | ⟨0, _⟩ => exact absurd rfl hb | ⟨1, _⟩ => rfl)
      (by show e.val - 524288 + 524288 = e.val; omega)

/-- Two 128-wide row blocks joined along the columns, read at a column. -/
theorem concat_pair {α : Type} (a b : (⟨2, ![1048576, 128]⟩ : Shape).Idx → α)
    (h : Shape.Concatenates (([⟨⟨2, ![1048576, 128]⟩, a⟩, ⟨⟨2, ![1048576, 128]⟩, b⟩] : List ((s : Shape) × (s.Idx → α))).map (·.1)) ⟨2, ![1048576, 256]⟩ 1)
    (e : Fin 1048576) (j : Fin 256) :
    concatenate ⟨2, ![1048576, 256]⟩ 1 [⟨⟨2, ![1048576, 128]⟩, a⟩, ⟨⟨2, ![1048576, 128]⟩, b⟩] h (ix2 e j)
      = if hj : j.val < 128 then a (ix2 e ⟨j.val, hj⟩) else b (ix2 e ⟨j.val - 128, by omega⟩) := by
  by_cases hj : j.val < 128
  · -- a column of the first block: the same coordinates
    rw [dif_pos hj]
    exact concatenate_pair_apply_left (t := ⟨2, ![1048576, 256]⟩) (s₁ := ⟨2, ![1048576, 128]⟩) (s₂ := ⟨2, ![1048576, 128]⟩)
      1 a b h (ix2 e j) rfl (ix2 e ⟨j.val, hj⟩)
      (fun c => by match c with | ⟨0, _⟩ => rfl | ⟨1, _⟩ => rfl)
  · -- a column of the second block: the same row, the column less the first block's 128
    rw [dif_neg hj]
    exact concatenate_pair_apply_right (t := ⟨2, ![1048576, 256]⟩) (s₁ := ⟨2, ![1048576, 128]⟩) (s₂ := ⟨2, ![1048576, 128]⟩)
      1 a b h (ix2 e j) rfl rfl (ix2 e ⟨j.val - 128, by omega⟩)
      (fun c hc => by match c with | ⟨0, _⟩ => rfl | ⟨1, _⟩ => exact absurd rfl hc)
      (by show j.val - 128 + 128 = j.val; omega)

/-- An entry of a vector over the nodes, gathered by a column of index words: edge `e` reads the node of its word. -/
theorem take_node {α : Type} (d : GatherDims ⟨1, ![16384]⟩ ⟨2, ![1048576, 1]⟩ ⟨1, ![1048576]⟩)
    (hcoll : d.collapsedSliceDims = [0]) (hob : d.operandBatchingDims = [])
    (hsim : d.startIndexMap = [0]) (hivd : d.indexVectorDim = 1)
    (x : (⟨1, ![16384]⟩ : Shape).Idx → α) (idx : IVec ⟨2, ![1048576, 1]⟩ 32) (e : Fin 1048576) :
    Host.gather d x idx (ix1 e) = x (ix1 (nodeOf (idx (ix2 e 0)))) := by
  have h := StableHlo.Predicate.gather_take d hcoll hob hsim hivd x idx e (by omega)
  -- the two spellings of the result's index and of the start indices' index agree coordinate by coordinate
  have e1 : (Shape.Idx.ofFin e : (⟨1, ![1048576]⟩ : Shape).Idx) = ix1 e := by
    funext a; match a with | ⟨0, _⟩ => rfl
  have e2 : (StableHlo.Predicate.ixP e : (⟨2, ![1048576, 1]⟩ : Shape).Idx) = ix2 e 0 := by
    funext a; match a with | ⟨0, _⟩ => rfl | ⟨1, _⟩ => rfl
  rw [e1] at h
  rw [h]
  congr 1
  funext a
  match a with
  | ⟨0, _⟩ =>
    apply Fin.ext
    show min (idx (StableHlo.Predicate.ixP e)).toInt.toNat (16384 - 1) = min (idx (ix2 e 0)).toInt.toNat 16383
    rw [e2]

/-- A row of a matrix over the nodes, gathered by a column of index words: edge `e`, column `l` reads column `l` of the
    row of its word's node. -/
theorem rows_node {α : Type} (d : GatherDims ⟨2, ![16384, 128]⟩ ⟨2, ![1048576, 1]⟩ ⟨2, ![1048576, 128]⟩)
    (hoff : d.offsetDims = [1]) (hcoll : d.collapsedSliceDims = [0]) (hob : d.operandBatchingDims = [])
    (hsb : d.startIndicesBatchingDims = []) (hsim : d.startIndexMap = [0]) (hivd : d.indexVectorDim = 1)
    (hss : d.sliceSizes = ![1, 128])
    (x : (⟨2, ![16384, 128]⟩ : Shape).Idx → α) (idx : IVec ⟨2, ![1048576, 1]⟩ 32) (e : Fin 1048576) (l : Fin 128) :
    Host.gather d x idx (ix2 e l) = x (ix2 (nodeOf (idx (ix2 e 0))) l) := by
  unfold Host.gather
  congr 1
  -- the result's batch axes are [0] (the one that is not an offset axis), its offset axes [1]
  have hbd : ∀ X : Fin 2, X ∈ d.batchDims → X = 0 := by
    intro X hX
    have : d.batchDims = [0] := by show Shape.kept _ d.offsetDims = [0]; rw [hoff]; rfl
    rw [this] at hX; exact List.mem_singleton.mp hX
  have hod : ∀ X : Fin 2, X ∈ d.offsetDims → X = 1 := by
    intro X hX; rw [hoff] at hX; exact List.mem_singleton.mp hX
  have c0 : ∀ X : Fin 2, X = 0 → ((ix2 e l : (⟨2, ![1048576, 128]⟩ : Shape).Idx) X).val = e.val :=
    fun X hX => by subst hX; rfl
  have c1 : ∀ X : Fin 2, X = 1 → ((ix2 e l : (⟨2, ![1048576, 128]⟩ : Shape).Idx) X).val = l.val :=
    fun X hX => by subst hX; rfl
  funext a
  match a with
  | ⟨0, _⟩ =>
    -- the node axis: collapsed and start-indexed, so the coordinate is the clamped start alone
    apply Fin.ext
    have hb : (0 : Fin 2) ∉ d.operandBatchingDims := by rw [hob]; exact List.not_mem_nil
    have hk : (0 : Fin 2) ∉ d.sKept := by rw [GatherDims.mem_sKept, hcoll]; simp
    have hm : (0 : Fin 2) ∈ d.startIndexMap := by rw [hsim]; exact List.mem_singleton.mpr rfl
    have hsl : d.sliceSizes 0 = 1 := d.slice_collapsed 0 (by rw [hcoll]; exact List.mem_singleton.mpr rfl)
    show d.start (ix2 e l) idx 0 + d.batchCoord (ix2 e l) 0 + d.offCoord (ix2 e l) 0 = min (idx (ix2 e 0)).toInt.toNat 16383
    rw [GatherDims.batchCoord_eq_zero _ _ _ hb, GatherDims.offCoord_eq_zero _ _ _ hk]
    simp only [Nat.add_zero]
    unfold GatherDims.start
    rw [dif_pos hm]
    show min (idx _).toInt.toNat (16384 - d.sliceSizes 0) = min (idx (ix2 e 0)).toInt.toNat 16383
    rw [hsl]
    congr 3
    congr 1
    -- the start index is read at (e, 0): row e from the result's batch coordinate, component 0 of the index vector
    funext b
    match b with
    | ⟨0, _⟩ =>
      unfold GatherDims.siIdx
      rw [dif_neg (by rw [hivd]; simp)]
      unfold GatherDims.siCoord
      apply Fin.ext
      simp only [Fin.val_cast]
      exact c0 _ (hbd _ (List.getElem_mem _))
    | ⟨1, _⟩ =>
      unfold GatherDims.siIdx
      rw [dif_pos (by rw [hivd])]
      apply Fin.ext
      show List.idxOf (0 : Fin 2) d.startIndexMap = 0
      rw [hsim]; simp
  | ⟨1, _⟩ =>
    -- the column axis: kept, not start-indexed, so the coordinate is the result's offset coordinate l alone
    apply Fin.ext
    have hb : (1 : Fin 2) ∉ d.operandBatchingDims := by rw [hob]; exact List.not_mem_nil
    have hk : (1 : Fin 2) ∈ d.sKept := by rw [GatherDims.mem_sKept, hcoll, hob]; simp
    have hm : (1 : Fin 2) ∉ d.startIndexMap := by rw [hsim]; simp
    show d.start (ix2 e l) idx 1 + d.batchCoord (ix2 e l) 1 + d.offCoord (ix2 e l) 1 = l.val
    rw [GatherDims.batchCoord_eq_zero _ _ _ hb]
    unfold GatherDims.start
    rw [dif_neg hm]
    unfold GatherDims.offCoord
    rw [dif_pos hk]
    simp only [Nat.add_zero, Nat.zero_add]
    exact c1 _ (hod _ (List.getElem_mem _))

end Cert.EdgeScore

end
-- ==== Proof.KI.ProjValue.lean ====
import proofs.«170465_j40699110097055_1_alg».proof.Proof.Gen.KernelIdeal.Launch
import proofs.«170465_j40699110097055_1_alg».proof.Proof.Gen.KernelIdeal.Skeleton
import proofs.«170465_j40699110097055_1_alg».proof.Proof.Gen.KernelIdeal.Points
import proofs.«170465_j40699110097055_1_alg».proof.Proof.KI.ProjData
import proofs.«170465_j40699110097055_1_alg».proof.Proof.Spec
import proofs.«170465_j40699110097055_1_alg».proof.Proof.EdgeIdx
import Idealize.ShloMosaic.Lib.Pipeline.Value
import Idealize.ShloMosaic.Lib.ValueIdx
import Idealize.ShloMosaic.Lib.ValueLayout
import Idealize.ShloMosaic.PureOps.Ideal.Laws
import Idealize.ShloMosaic.Lib.Pipeline.FrameBody
import Idealize.ShloMosaic.Lib.Ring
import Idealize.ShloMosaic.Lib.Tactic

set_option maxRecDepth 16384

noncomputable section

namespace Cert.KernelIdeal.Enc

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ
open Idealize.ShloMosaic.ValueIdx Cert.EdgeScore

/-!
  What the projection launch leaves in its output array, at the exact instance: entry (k, l) is row k of the features
  against column l of the weight. Each of the eight points writes back the 2048-row block it computed; the blocks tile
  the array; a block's entry is the skeleton's payload (narrowings are the identity here, the matrix unit over a zero
  accumulator is the plain sum) read at the block's coordinates.
-/

/-- The whole-block rectangles sit at the origin. -/
theorem originOff : (![0, 0] : Fin 2 → Nat) = fun _ => 0 :=
  funext fun a => by match a with | ⟨0, _⟩ => rfl | ⟨1, _⟩ => rfl

/-! The matrix unit's operand indices at an output index and a contraction index, axis by axis. -/

theorem featAxis0 (i : S2048x128.Idx) (q : dot_S2048x512_S512x128_S2048x128_1_0_0_1_n_n.contr.Idx) :
    (dot_S2048x512_S512x128_S2048x128_1_0_0_1_n_n.lhsIdx i q 0).val = (i 0).val := by
  unfold DotDims.lhsIdx
  rw [dif_neg (show ¬(0 : Fin S2048x512.rank) ∈ dot_S2048x512_S512x128_S2048x128_1_0_0_1_n_n.lhsBatch by decide),
    dif_pos (show (0 : Fin S2048x512.rank) ∈ dot_S2048x512_S512x128_S2048x128_1_0_0_1_n_n.lhsNonContracting by decide)]
  rfl
theorem featAxis1 (i : S2048x128.Idx) (q : dot_S2048x512_S512x128_S2048x128_1_0_0_1_n_n.contr.Idx) :
    (dot_S2048x512_S512x128_S2048x128_1_0_0_1_n_n.lhsIdx i q 1).val = (q ⟨0, by decide⟩).val :=
  dot_S2048x512_S512x128_S2048x128_1_0_0_1_n_n.lhsIdx_val_of_single rfl i q
theorem wtAxis0 (i : S2048x128.Idx) (q : dot_S2048x512_S512x128_S2048x128_1_0_0_1_n_n.contr.Idx) :
    (dot_S2048x512_S512x128_S2048x128_1_0_0_1_n_n.rhsIdx i q 0).val = (q ⟨0, by decide⟩).val :=
  dot_S2048x512_S512x128_S2048x128_1_0_0_1_n_n.rhsIdx_val_of_single rfl i q
theorem wtAxis1 (i : S2048x128.Idx) (q : dot_S2048x512_S512x128_S2048x128_1_0_0_1_n_n.contr.Idx) :
    (dot_S2048x512_S512x128_S2048x128_1_0_0_1_n_n.rhsIdx i q 1).val = (i 1).val := by
  unfold DotDims.rhsIdx
  rw [dif_neg (show ¬(1 : Fin S512x128.rank) ∈ dot_S2048x512_S512x128_S2048x128_1_0_0_1_n_n.rhsBatch by decide),
    dif_pos (show (1 : Fin S512x128.rank) ∈ dot_S2048x512_S512x128_S2048x128_1_0_0_1_n_n.rhsNonContracting by decide)]
  rfl

/-- One point's block, entry by entry: row r of the feature block against column l of the weight. -/
theorem projBlock_apply (x : Vec Ideal S2048x512 .f32) (w : Vec Ideal S512x128 .f32) (r : Fin 2048) (l : Fin 128) :
    (projBlock x w : S2048x128.Idx → EReal) (ix2 r l)
      = ∑ d : Fin 512, (x : S2048x512.Idx → EReal) (ix2 r d) * (w : S512x128.Idx → EReal) (ix2 d l) := by
  unfold projBlock
  rw [View.canon_unit_zero originOff, View.ld_unit_zero (S := S2048x512) originOff, View.ld_unit_zero (S := S512x128) originOff]
  unfold Gen.k0_pay1
  rw [truncf_apply]
  refine (Ideal.matmul_constant_zero_apply dot_S2048x512_S512x128_S2048x128_1_0_0_1_n_n none _ _ (ix2 r l)).trans ?_
  rw [← Equiv.sum_comp (contrEquiv1 dot_S2048x512_S512x128_S2048x128_1_0_0_1_n_n 512 rfl rfl).symm]
  refine Finset.sum_congr rfl fun d _ => ?_
  have hd := contrEquiv1_symm_val dot_S2048x512_S512x128_S2048x128_1_0_0_1_n_n 512 rfl rfl d
  have el : dot_S2048x512_S512x128_S2048x128_1_0_0_1_n_n.lhsIdx (ix2 r l)
      ((contrEquiv1 dot_S2048x512_S512x128_S2048x128_1_0_0_1_n_n 512 rfl rfl).symm d) = ix2 r d :=
    funext fun a => Fin.ext (by
      match a with
      | ⟨0, _⟩ => exact featAxis0 _ _
      | ⟨1, _⟩ => exact (featAxis1 _ _).trans hd)
  have er : dot_S2048x512_S512x128_S2048x128_1_0_0_1_n_n.rhsIdx (ix2 r l)
      ((contrEquiv1 dot_S2048x512_S512x128_S2048x128_1_0_0_1_n_n 512 rfl rfl).symm d) = ix2 d l :=
    funext fun a => Fin.ext (by
      match a with
      | ⟨0, _⟩ => exact (wtAxis0 _ _).trans hd
      | ⟨1, _⟩ => exact wtAxis1 _ _)
  rw [truncf_apply, truncf_apply, el, er]

/-! From the blocks to the array. -/

variable (V : (c : Dev nD) → (b : Ref sig .tc) → Buf (Elt Ideal) ((c : Thread nD τ).loc b))

/-- Where each window's block sits at point t, decided over the eight points: the feature block and the product
    block are the t-th blocks of 2048 rows; the weight's one block is always the whole weight. -/
theorem blockStarts : ∀ t : Fin cfg0.N,
    win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0 :=
  (by decide +kernel : ∀ t : Fin grid0.N, _)

/-- The projected features as one array over the whole output. -/
def projAll (X : S16384x512.Idx → EReal) (W : S512x128.Idx → EReal) : S16384x128.Idx → EReal :=
  fun j => proj X W ⟨(j 0).val, (j 0).isLt⟩ ⟨(j 1).val, (j 1).isLt⟩

/-- A block whose feature rows and weight are read off X and W at row k and column l' has entry (k, l') of the
    projection at its own (r, l). -/
theorem projBlock_at (X : S16384x512.Idx → EReal) (W : S512x128.Idx → EReal)
    (x : Vec Ideal S2048x512 .f32) (w : Vec Ideal S512x128 .f32) (r : Fin 2048) (l : Fin 128) (k : Fin 16384) (l' : Fin 128)
    (hx : ∀ d : Fin 512, (x : S2048x512.Idx → EReal) (ix2 r d) = X (ix2 k d))
    (hw : ∀ d : Fin 512, (w : S512x128.Idx → EReal) (ix2 d l) = W (ix2 d l')) :
    (projBlock x w : S2048x128.Idx → EReal) (ix2 r l) = proj X W k l' := by
  rw [projBlock_apply]
  unfold proj
  exact Finset.sum_congr rfl fun d _ => by rw [hx d, hw d]

/-- The feature block of point t is rows 2048 t … 2048 t + 2047 of the features. -/
theorem featBlock_apply (c : Dev nD) (t : Fin cfg0.N) (r : Fin 2048) (d : Fin 512) (k : Fin 16384)
    (hk : k.val = 2048 * t.val + r.val) :
    (blk0 V c 0 t : S2048x512.Idx → EReal) (ix2 r d) = (V c main_arg0 : S16384x512.Idx → EReal) (ix2 k d) := by
  obtain ⟨e0, e1, -, -, -, -⟩ := blockStarts t
  unfold blk0
  rw [View.read_apply]
  show (V c main_arg0 : S16384x512.Idx → EReal) _ = _
  congr 1
  funext a
  apply Fin.ext
  match a with
  | ⟨0, _⟩ => show win0_0.index t (0 : Fin 2) * 2048 + 1 * r.val = k.val; rw [e0, hk]; omega
  | ⟨1, _⟩ => show win0_0.index t (1 : Fin 2) * 512 + 1 * d.val = d.val; rw [e1]; omega

/-- The weight's block at every point is the weight. -/
theorem wtBlock_apply (c : Dev nD) (t : Fin cfg0.N) (d : Fin 512) (l : Fin 128) :
    (blk0 V c 1 t : S512x128.Idx → EReal) (ix2 d l) = (V c main_arg2 : S512x128.Idx → EReal) (ix2 d l) := by
  obtain ⟨-, -, e0, e1, -, -⟩ := blockStarts t
  unfold blk0
  rw [View.read_apply]
  show (V c main_arg2 : S512x128.Idx → EReal) _ = _
  congr 1
  funext a
  apply Fin.ext
  match a with
  | ⟨0, _⟩ => show win0_1.index t (0 : Fin 2) * 512 + 1 * d.val = d.val; rw [e0]; omega
  | ⟨1, _⟩ => show win0_1.index t (1 : Fin 2) * 128 + 1 * l.val = l.val; rw [e1]; omega

/-- What point t writes back is block t of the projected features. -/
theorem projFlushed (c : Dev nD) (t : Fin cfg0.N) :
    (projDat (F := Ideal) V c).flushed 2 t
      = ((cfg0.win 2).blk t).view.read (Elt Ideal) (projAll (V c main_arg0) (V c main_arg2)) := by
  show (cfg0.win 2).cut (grid0.coords t) ((projDat V c).after 2 t) = _
  rw [projDat_after2]
  obtain ⟨-, -, -, -, e0, e1⟩ := blockStarts t
  have ht : t.val < 8 := lt_of_lt_of_eq t.isLt N_0
  funext j
  have hj0 : (j 0).val < 2048 := (j 0).isLt
  have hj1 : (j 1).val < 128 := (j 1).isLt
  have hj : (cfg0.win 2).xinj (grid0.coords t) j = ix2 (⟨(j 0).val, hj0⟩ : Fin 2048) (⟨(j 1).val, hj1⟩ : Fin 128) :=
    funext fun a => by match a with | ⟨0, _⟩ => rfl | ⟨1, _⟩ => rfl
  show (projBlock (blk0 V c 0 t) (blk0 V c 1 t) : S2048x128.Idx → EReal) ((cfg0.win 2).xinj (grid0.coords t) j)
    = projAll (V c main_arg0) (V c main_arg2) (((cfg0.win 2).blk t).view.emb j)
  rw [hj]
  refine (projBlock_at (V c main_arg0) (V c main_arg2) _ _ _ _ ⟨2048 * t.val + (j 0).val, by omega⟩ ⟨(j 1).val, hj1⟩
    (fun d => featBlock_apply V c t _ d _ rfl) (fun d => wtBlock_apply V c t d _)).trans ?_
  unfold projAll
  congr 1
  · apply Fin.ext
    show 2048 * t.val + (j 0).val = win0_2.index t (0 : Fin 2) * 2048 + 1 * (j 0).val
    rw [e0]; omega
  · apply Fin.ext
    show (j 1).val = win0_2.index t (1 : Fin 2) * 128 + 1 * (j 1).val
    rw [e1]; omega

/-- An entry of the output is in point t's block exactly when each coordinate is in the block's range. -/
theorem mem_projBlk (t : Fin cfg0.N) (i : S16384x128.Idx) :
    i ∈ ((cfg0.win 2).blk t).view.set ↔ ∀ a : Fin 2, win0_2.index t a * S2048x128.size a ≤ (i a).val
      ∧ (i a).val < win0_2.index t a * S2048x128.size a + S2048x128.size a := by
  show i ∈ ((View.whole main_v5).slice (win0_2.rect t)).set ↔ _
  rw [View.set_slice_whole, Rect.mem_set_unit]
  exact Iff.rfl

/-- The eight blocks cover the output: row k is in the block of point k / 2048. -/
theorem projCovered (i : S16384x128.Idx) :
    ∃ t : Fin cfg0.N, (cfg0.win 2).flush t = true ∧ i ∈ ((cfg0.win 2).blk t).view.set := by
  have hi0 : (i 0).val < 16384 := (i 0).isLt
  have hi1 : (i 1).val < 128 := (i 1).isLt
  have hq : (i 0).val / 2048 < cfg0.N := lt_of_lt_of_eq (show (i 0).val / 2048 < 8 by omega) N_0.symm
  refine ⟨⟨(i 0).val / 2048, hq⟩, flush0_2 _, ?_⟩
  obtain ⟨-, -, -, -, e0, e1⟩ := blockStarts ⟨(i 0).val / 2048, hq⟩
  rw [mem_projBlk]
  intro a
  match a with
  | ⟨0, _⟩ =>
    show win0_2.index ⟨(i 0).val / 2048, hq⟩ (0 : Fin 2) * 2048 ≤ (i 0).val
      ∧ (i 0).val < win0_2.index ⟨(i 0).val / 2048, hq⟩ (0 : Fin 2) * 2048 + 2048
    rw [e0]; show (i 0).val / 2048 * 2048 ≤ (i 0).val ∧ (i 0).val < (i 0).val / 2048 * 2048 + 2048; omega
  | ⟨1, _⟩ =>
    show win0_2.index ⟨(i 0).val / 2048, hq⟩ (1 : Fin 2) * 128 ≤ (i 1).val
      ∧ (i 1).val < win0_2.index ⟨(i 0).val / 2048, hq⟩ (1 : Fin 2) * 128 + 128
    rw [e1]; omega

/-- The output array after the eight write-backs is the projected features. -/
theorem projArr (c : Dev nD) :
    (projDat (F := Ideal) V c).arrAt 2 cfg0.N = projAll (V c main_arg0) (V c main_arg2) :=
  (projDat (F := Ideal) V c).arrAt_eq_of_cover 2 (projAll (V c main_arg0) (V c main_arg2))
    (fun t _ => projFlushed V c t) projCovered

/-- The projected features the launch leaves, entry by entry. -/
theorem proj_array (c : Dev nD) (k : Fin 16384) (l : Fin 128) :
    ((projDat (F := Ideal) V c).arrAt 2 cfg0.N : S16384x128.Idx → EReal) (ix2 k l)
      = proj (V c main_arg0 : S16384x512.Idx → EReal) (V c main_arg2 : S512x128.Idx → EReal) k l := by
  rw [projArr]
  rfl

end Cert.KernelIdeal.Enc

end
-- ==== Proof.KI.AggPieces.lean ====
import proofs.«170465_j40699110097055_1_alg».proof.Proof.Gen.KernelIdeal.Launch
import proofs.«170465_j40699110097055_1_alg».proof.Proof.Gen.KernelIdeal.Skeleton
import proofs.«170465_j40699110097055_1_alg».proof.Proof.Gen.KernelIdeal.Points
import proofs.«170465_j40699110097055_1_alg».proof.Proof.KI.AggData
import proofs.«170465_j40699110097055_1_alg».proof.Proof.Spec
import proofs.«170465_j40699110097055_1_alg».proof.Proof.EdgeIdx
import Idealize.ShloMosaic.Lib.Pipeline.Value
import Idealize.ShloMosaic.Lib.ValueIdx
import Idealize.ShloMosaic.Lib.ValueLayout
import Idealize.ShloMosaic.PureOps.Ideal.Laws
import Idealize.ShloMosaic.Lib.Pipeline.FrameBody
import Idealize.ShloMosaic.Lib.Ring
import Idealize.ShloMosaic.Lib.Tactic

set_option maxRecDepth 16384

noncomputable section

namespace Cert.KernelIdeal.Enc

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ
open Idealize.ShloMosaic.ValueIdx Cert.EdgeScore

/-!
  What each shape of an aggregation point leaves, at the exact instance, entry by entry: an opening point leaves the
  float zero plus its block product in the accumulator; a middle or closing point leaves what it found plus its block
  product; a closing point also leaves, in the output block, the rectified accumulator times the decoding matrix.
-/

/-- One column step's contribution to accumulator entry (r, l): a row of the adjacency block against a column of the
    projected-feature block. -/
def stepSum (a : S2048x1024.Idx → EReal) (b : S1024x128.Idx → EReal) (r : Fin 2048) (l : Fin 128) : EReal :=
  ∑ q : Fin 1024, a (ix2 r q) * b (ix2 q l)

/-- The block product's four operand coordinates: at output entry (r, l) and contraction index q the left operand is
    read at (r, q) and the right at (q, l). -/
theorem stepL0 (i : S2048x128.Idx) (q : dot_S2048x1024_S1024x128_S2048x128_1_0_0_1_n_n.contr.Idx) :
    (dot_S2048x1024_S1024x128_S2048x128_1_0_0_1_n_n.lhsIdx i q 0).val = (i 0).val := by
  unfold DotDims.lhsIdx
  rw [dif_neg (show ¬(0 : Fin S2048x1024.rank) ∈ dot_S2048x1024_S1024x128_S2048x128_1_0_0_1_n_n.lhsBatch by decide), dif_pos (show (0 : Fin S2048x1024.rank) ∈ dot_S2048x1024_S1024x128_S2048x128_1_0_0_1_n_n.lhsNonContracting by decide)]
  rfl
theorem stepL1 (i : S2048x128.Idx) (q : dot_S2048x1024_S1024x128_S2048x128_1_0_0_1_n_n.contr.Idx) :
    (dot_S2048x1024_S1024x128_S2048x128_1_0_0_1_n_n.lhsIdx i q 1).val = (q ⟨0, by decide⟩).val :=
  dot_S2048x1024_S1024x128_S2048x128_1_0_0_1_n_n.lhsIdx_val_of_single rfl i q
theorem stepR0 (i : S2048x128.Idx) (q : dot_S2048x1024_S1024x128_S2048x128_1_0_0_1_n_n.contr.Idx) :
    (dot_S2048x1024_S1024x128_S2048x128_1_0_0_1_n_n.rhsIdx i q 0).val = (q ⟨0, by decide⟩).val :=
  dot_S2048x1024_S1024x128_S2048x128_1_0_0_1_n_n.rhsIdx_val_of_single rfl i q
theorem stepR1 (i : S2048x128.Idx) (q : dot_S2048x1024_S1024x128_S2048x128_1_0_0_1_n_n.contr.Idx) :
    (dot_S2048x1024_S1024x128_S2048x128_1_0_0_1_n_n.rhsIdx i q 1).val = (i 1).val := by
  unfold DotDims.rhsIdx
  rw [dif_neg (show ¬(1 : Fin S1024x128.rank) ∈ dot_S2048x1024_S1024x128_S2048x128_1_0_0_1_n_n.rhsBatch by decide), dif_pos (show (1 : Fin S1024x128.rank) ∈ dot_S2048x1024_S1024x128_S2048x128_1_0_0_1_n_n.rhsNonContracting by decide)]
  rfl

/-- A block product into the zero accumulator, entry by entry. -/
theorem stepProd (x : FVec Ideal S2048x1024 .bf16) (y : FVec Ideal S1024x128 .bf16) (r : Fin 2048) (l : Fin 128) :
    matmul dot_S2048x1024_S1024x128_S2048x128_1_0_0_1_n_n none x y (constant S2048x128 .f32 0x00000000#32) (ix2 r l)
      = ∑ q : Fin 1024, x (ix2 r q) * y (ix2 q l) := by
  refine (Ideal.matmul_constant_zero_apply dot_S2048x1024_S1024x128_S2048x128_1_0_0_1_n_n none x y (ix2 r l)).trans ?_
  rw [← Equiv.sum_comp (contrEquiv1 dot_S2048x1024_S1024x128_S2048x128_1_0_0_1_n_n 1024 rfl rfl).symm]
  refine Finset.sum_congr rfl fun k _ => ?_
  have hk := contrEquiv1_symm_val dot_S2048x1024_S1024x128_S2048x128_1_0_0_1_n_n 1024 rfl rfl k
  have el : dot_S2048x1024_S1024x128_S2048x128_1_0_0_1_n_n.lhsIdx (ix2 r l) ((contrEquiv1 dot_S2048x1024_S1024x128_S2048x128_1_0_0_1_n_n 1024 rfl rfl).symm k) = ix2 r k := funext fun a => Fin.ext (by
    match a with
    | ⟨0, _⟩ => exact stepL0 _ _
    | ⟨1, _⟩ => exact (stepL1 _ _).trans hk)
  have er : dot_S2048x1024_S1024x128_S2048x128_1_0_0_1_n_n.rhsIdx (ix2 r l) ((contrEquiv1 dot_S2048x1024_S1024x128_S2048x128_1_0_0_1_n_n 1024 rfl rfl).symm k) = ix2 k l := funext fun a => Fin.ext (by
    match a with
    | ⟨0, _⟩ => exact (stepR0 _ _).trans hk
    | ⟨1, _⟩ => exact stepR1 _ _)
  rw [el, er]

/-- The update's payload at entry (r, l): what the accumulator held there plus the step's contribution. -/
theorem pay2_apply (a : Vec Ideal S2048x1024 .f32) (s : Vec Ideal S2048x128 .f32) (b : Vec Ideal S1024x128 .bf16)
    (r : Fin 2048) (l : Fin 128) :
    k1_pay2 (F := Ideal) a s b (ix2 r l) = s (ix2 r l) + stepSum a b r l := by
  unfold k1_pay2
  refine (congrFun (shapeCast_self _ shapeCasts_S2048x128_S2048x128) (ix2 r l)).trans ?_
  refine (addf_apply _ _ (ix2 r l)).trans ?_
  refine congrArg (s (ix2 r l) + ·) ?_
  refine (stepProd _ _ r l).trans ?_
  unfold stepSum
  refine Finset.sum_congr rfl fun q _ => ?_
  refine congrArg (a (ix2 r q) * ·) ?_
  exact congrFun (shapeCast_self b shapeCasts_S1024x128_S1024x128) (ix2 q l)

/-- The decoding product's four operand coordinates: at output entry (r, j) and contraction index l the left operand
    is read at (r, l) and the right at (l, j). -/
theorem decL0 (i : S2048x2.Idx) (q : dot_S2048x128_S128x2_S2048x2_1_0_0_1_n_n.contr.Idx) :
    (dot_S2048x128_S128x2_S2048x2_1_0_0_1_n_n.lhsIdx i q 0).val = (i 0).val := by
  unfold DotDims.lhsIdx
  rw [dif_neg (show ¬(0 : Fin S2048x128.rank) ∈ dot_S2048x128_S128x2_S2048x2_1_0_0_1_n_n.lhsBatch by decide), dif_pos (show (0 : Fin S2048x128.rank) ∈ dot_S2048x128_S128x2_S2048x2_1_0_0_1_n_n.lhsNonContracting by decide)]
  rfl
theorem decL1 (i : S2048x2.Idx) (q : dot_S2048x128_S128x2_S2048x2_1_0_0_1_n_n.contr.Idx) :
    (dot_S2048x128_S128x2_S2048x2_1_0_0_1_n_n.lhsIdx i q 1).val = (q ⟨0, by decide⟩).val :=
  dot_S2048x128_S128x2_S2048x2_1_0_0_1_n_n.lhsIdx_val_of_single rfl i q
theorem decR0 (i : S2048x2.Idx) (q : dot_S2048x128_S128x2_S2048x2_1_0_0_1_n_n.contr.Idx) :
    (dot_S2048x128_S128x2_S2048x2_1_0_0_1_n_n.rhsIdx i q 0).val = (q ⟨0, by decide⟩).val :=
  dot_S2048x128_S128x2_S2048x2_1_0_0_1_n_n.rhsIdx_val_of_single rfl i q
theorem decR1 (i : S2048x2.Idx) (q : dot_S2048x128_S128x2_S2048x2_1_0_0_1_n_n.contr.Idx) :
    (dot_S2048x128_S128x2_S2048x2_1_0_0_1_n_n.rhsIdx i q 1).val = (i 1).val := by
  unfold DotDims.rhsIdx
  rw [dif_neg (show ¬(1 : Fin S128x2.rank) ∈ dot_S2048x128_S128x2_S2048x2_1_0_0_1_n_n.rhsBatch by decide), dif_pos (show (1 : Fin S128x2.rank) ∈ dot_S2048x128_S128x2_S2048x2_1_0_0_1_n_n.rhsNonContracting by decide)]
  rfl

/-- The decoding product into the zero accumulator, entry by entry. -/
theorem decProd (x : FVec Ideal S2048x128 .bf16) (y : FVec Ideal S128x2 .bf16) (r : Fin 2048) (j : Fin 2) :
    matmul dot_S2048x128_S128x2_S2048x2_1_0_0_1_n_n none x y (constant S2048x2 .f32 0x00000000#32) (ix2 r j)
      = ∑ l : Fin 128, x (ix2 r l) * y (ix2 l j) := by
  refine (Ideal.matmul_constant_zero_apply dot_S2048x128_S128x2_S2048x2_1_0_0_1_n_n none x y (ix2 r j)).trans ?_
  rw [← Equiv.sum_comp (contrEquiv1 dot_S2048x128_S128x2_S2048x2_1_0_0_1_n_n 128 rfl rfl).symm]
  refine Finset.sum_congr rfl fun k _ => ?_
  have hk := contrEquiv1_symm_val dot_S2048x128_S128x2_S2048x2_1_0_0_1_n_n 128 rfl rfl k
  have el : dot_S2048x128_S128x2_S2048x2_1_0_0_1_n_n.lhsIdx (ix2 r j) ((contrEquiv1 dot_S2048x128_S128x2_S2048x2_1_0_0_1_n_n 128 rfl rfl).symm k) = ix2 r k := funext fun a => Fin.ext (by
    match a with
    | ⟨0, _⟩ => exact decL0 _ _
    | ⟨1, _⟩ => exact (decL1 _ _).trans hk)
  have er : dot_S2048x128_S128x2_S2048x2_1_0_0_1_n_n.rhsIdx (ix2 r j) ((contrEquiv1 dot_S2048x128_S128x2_S2048x2_1_0_0_1_n_n 128 rfl rfl).symm k) = ix2 k j := funext fun a => Fin.ext (by
    match a with
    | ⟨0, _⟩ => exact (decR0 _ _).trans hk
    | ⟨1, _⟩ => exact decR1 _ _)
  rw [el, er]

/-- The output's payload at entry (r, j): the rectified accumulator row against a column of the decoding matrix. -/
theorem pay3_apply (s : Vec Ideal S2048x128 .f32) (w : Vec Ideal S128x2 .f32) (r : Fin 2048) (j : Fin 2) :
    k1_pay3 (F := Ideal) s w (ix2 r j) = ∑ l : Fin 128, rect (s (ix2 r l)) * w (ix2 l j) := by
  unfold k1_pay3
  refine (decProd _ _ r j).trans ?_
  refine Finset.sum_congr rfl fun l _ => ?_
  refine congrArg₂ (· * ·) ?_ ?_
  · rfl
  · exact congrFun (shapeCast_self w shapeCasts_S128x2_S128x2) (ix2 l j)

/-- The reset's payload is the float zero at every entry. -/
theorem pay1_apply (r : Fin 2048) (l : Fin 128) : k1_pay1 (F := Ideal) (ix2 r l) = fzero := by
  unfold k1_pay1
  exact congrFun (shapeCast_self _ shapeCasts_S2048x128_S2048x128) (ix2 r l)

/-- The offsets of a whole-block store or load, all zero. -/
theorem hz2 : (![0, 0] : Fin 2 → Nat) = fun _ => 0 := funext fun a => by fin_cases a <;> rfl

section
variable (c : Dev nD) (i : grid1.Coords)
    (arg2 : Memref sig .tc .vmem S2048x1024 .f32) (harg2 : arg2.IsWhole)
    (arg3 : Memref sig .tc .vmem S1024x128 .bf16) (harg3 : arg3.IsWhole)
    (arg4 : Memref sig .tc .vmem S128x2 .f32) (harg4 : arg4.IsWhole)
    (arg5 : Memref sig .tc .vmem S2048x2 .f32) (harg5 : arg5.IsWhole)
    (arg6 : Memref sig .tc .vmem S2048x128 .f32) (harg6 : arg6.IsWhole)
    (a : Vec Ideal S2048x1024 .f32) (b : Vec Ideal S1024x128 .bf16) (wab : Vec Ideal S128x2 .f32)

theorem open_acc (hc0 : atOpen i) (hc1 : ¬ atClose i) (r : Fin 2048) (l : Fin 128) :
    accOf (openRun (F := Ideal) c i arg2 harg2 arg3 harg3 arg4 harg4 arg5 harg5 arg6 harg6 hc0 hc1 a b wab).1 (ix2 r l)
      = fzero + stepSum a b r l := by
  unfold accOf
  rw [View.read_writes_eq_canon _ _ _ (View.cover_of_tiledL _ S2048x128.size (by sl_kernel_rfl))]
  unfold openRun
  dsimp only
  sl_unfold_words
  rw [View.canon_cons_unit_zero (S := S2048x128) hz2, View.readCov_unit_zero (S := S2048x128) _ hz2]
  simp only [View.readAt_eq_ld, harg2.read_unread, harg3.read_unread,
    View.ld_unit_zero (S := S2048x1024) hz2, View.ld_unit_zero (S := S1024x128) hz2]
  refine (pay2_apply a (k1_pay1 (F := Ideal)) b r l).trans ?_
  exact congrArg (· + stepSum a b r l) (pay1_apply r l)

theorem mid_acc (hc0 : ¬ atOpen i) (hc1 : ¬ atClose i) (s : Vec Ideal S2048x128 .f32) (r : Fin 2048) (l : Fin 128) :
    accOf (midRun (F := Ideal) c i arg2 harg2 arg3 harg3 arg4 harg4 arg5 harg5 arg6 harg6 hc0 hc1 a b wab s).1 (ix2 r l)
      = s (ix2 r l) + stepSum a b r l := by
  unfold accOf
  rw [View.read_writes_eq_canon _ _ _ (View.cover_of_tiledL _ S2048x128.size (by sl_kernel_rfl))]
  unfold midRun
  dsimp only
  sl_unfold_words
  rw [View.canon_unit_zero hz2]
  simp only [View.readAt_eq_ld, harg2.read_unread, harg3.read_unread, harg6.read_unread,
    View.ld_unit_zero (S := S2048x1024) hz2, View.ld_unit_zero (S := S1024x128) hz2, View.ld_unit_zero (S := S2048x128) hz2]
  exact pay2_apply a s b r l

theorem close_acc (hc0 : ¬ atOpen i) (hc1 : atClose i) (s : Vec Ideal S2048x128 .f32) (r : Fin 2048) (l : Fin 128) :
    accOf (closeRun (F := Ideal) c i arg2 harg2 arg3 harg3 arg4 harg4 arg5 harg5 arg6 harg6 hc0 hc1 a b wab s).2.1 (ix2 r l)
      = s (ix2 r l) + stepSum a b r l := by
  unfold accOf
  rw [View.read_writes_eq_canon _ _ _ (View.cover_of_tiledL _ S2048x128.size (by sl_kernel_rfl))]
  unfold closeRun
  dsimp only
  sl_unfold_words
  rw [View.canon_unit_zero hz2]
  simp only [View.readAt_eq_ld, harg2.read_unread, harg3.read_unread, harg6.read_unread,
    View.ld_unit_zero (S := S2048x1024) hz2, View.ld_unit_zero (S := S1024x128) hz2, View.ld_unit_zero (S := S2048x128) hz2]
  exact pay2_apply a s b r l

theorem close_out (hc0 : ¬ atOpen i) (hc1 : atClose i) (s : Vec Ideal S2048x128 .f32) (r : Fin 2048) (j : Fin 2) :
    outOf (closeRun (F := Ideal) c i arg2 harg2 arg3 harg3 arg4 harg4 arg5 harg5 arg6 harg6 hc0 hc1 a b wab s).1 (ix2 r j)
      = ∑ l : Fin 128, rect (s (ix2 r l) + stepSum a b r l) * wab (ix2 l j) := by
  unfold outOf
  rw [View.read_writes_eq_canon _ _ _ (View.cover_of_tiledL _ S2048x2.size (by sl_kernel_rfl))]
  unfold closeRun
  dsimp only
  sl_unfold_words
  rw [View.canon_unit_zero hz2]
  simp only [View.readAt_eq_ld, harg2.read_unread, harg3.read_unread, harg4.read_unread, harg6.read_unread,
    View.ld_unit_zero (S := S2048x1024) hz2, View.ld_unit_zero (S := S1024x128) hz2, View.ld_unit_zero (S := S2048x128) hz2,
    View.ld_unit_zero (S := S128x2) hz2, View.readCov_unit_zero (S := S2048x128) _ hz2]
  refine (pay3_apply _ wab r j).trans ?_
  refine Finset.sum_congr rfl fun l _ => ?_
  exact congrArg (fun z => rect z * wab (ix2 l j)) (pay2_apply a s b r l)
end

end Cert.KernelIdeal.Enc

end
-- ==== Proof.KI.AggValue.lean ====
import proofs.«170465_j40699110097055_1_alg».proof.Proof.Gen.KernelIdeal.Launch
import proofs.«170465_j40699110097055_1_alg».proof.Proof.Gen.KernelIdeal.Skeleton
import proofs.«170465_j40699110097055_1_alg».proof.Proof.Gen.KernelIdeal.Points
import proofs.«170465_j40699110097055_1_alg».proof.Proof.KI.AggPieces
import proofs.«170465_j40699110097055_1_alg».proof.Proof.Spec
import proofs.«170465_j40699110097055_1_alg».proof.Proof.EdgeIdx
import Idealize.ShloMosaic.Lib.Pipeline.Value
import Idealize.ShloMosaic.Lib.ValueIdx
import Idealize.ShloMosaic.Lib.ValueLayout
import Idealize.ShloMosaic.PureOps.Ideal.Laws
import Idealize.ShloMosaic.Lib.Pipeline.FrameBody
import Idealize.ShloMosaic.Lib.Ring
import Idealize.ShloMosaic.Lib.Tactic

set_option maxRecDepth 16384

noncomputable section

namespace Cert.KernelIdeal.Enc

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ
open Idealize.ShloMosaic.ValueIdx Cert.EdgeScore

/-!
  What the aggregation launch leaves in its output array, at the exact instance: entry (n, j) is the rectified embedding
  of node n against column j of the decoding matrix, the embedding being row n of the adjacency against the projected
  features. Row block i is written back once, by its closing point 16 i + 15; that point's accumulator is the float
  zero plus the sixteen column steps' contributions in order, which is the sum over all 16384 columns.
-/

variable (V : (c : Dev nD) → (b : Ref sig .tc) → Buf (Elt Ideal) ((c : Thread nD τ).loc b))

/-- The launch's three input arrays as it finds them, and its output array as it leaves it, at their literal types. -/
abbrev adjArr (c : Dev nD) : S16384x16384.Idx → EReal := V c main_arg1
abbrev featArr (c : Dev nD) : S16384x128.Idx → EReal := V c main_v5
abbrev decArr (c : Dev nD) : S128x2.Idx → EReal := V c main_v4
abbrev aggOut (c : Dev nD) : S16384x2.Idx → EReal := (aggDat (F := Ideal) V c).arrAt 3 cfg1.N

/-- The three input blocks at a point, at their literal types. -/
abbrev aBlk (c : Dev nD) (t : Fin cfg1.N) : Vec Ideal S2048x1024 .f32 := blk1 V c 0 t
abbrev bBlk (c : Dev nD) (t : Fin cfg1.N) : Vec Ideal S1024x128 .bf16 := blk1 V c 1 t
abbrev dBlk (c : Dev nD) (t : Fin cfg1.N) : Vec Ideal S128x2 .f32 := blk1 V c 2 t

/-- Where each window's block sits at point `t`: the adjacency at block (t / 16, t % 16), the features at block
    (t % 16, 0), the decoding matrix at its one block, the output at block (t / 16, 0). -/
theorem idx_facts : ∀ t : Fin cfg1.N,
    win1_0.index t (0 : Fin 2) = t.val / 16 ∧ win1_0.index t (1 : Fin 2) = t.val % 16
    ∧ win1_1.index t (0 : Fin 2) = t.val % 16 ∧ win1_1.index t (1 : Fin 2) = 0
    ∧ win1_2.index t (0 : Fin 2) = 0 ∧ win1_2.index t (1 : Fin 2) = 0
    ∧ win1_3.index t (0 : Fin 2) = t.val / 16 ∧ win1_3.index t (1 : Fin 2) = 0 :=
  (by decide +kernel : ∀ t : Fin grid1.N, _)

/-- Entry (r, q) of the adjacency block at point `t` is the adjacency at row 2048 (t / 16) + r, column 1024 (t % 16) + q. -/
theorem aBlk_apply (c : Dev nD) (t : Fin cfg1.N) (y : S2048x1024.Idx) (k : S16384x16384.Idx)
    (hk0 : (k 0).val = 2048 * (t.val / 16) + (y 0).val) (hk1 : (k 1).val = 1024 * (t.val % 16) + (y 1).val) :
    aBlk V c t y = adjArr V c k := by
  obtain ⟨e00, e01, -⟩ := idx_facts t
  show V c main_arg1 (((cfg1.win 0).blk t).view.emb y) = V c main_arg1 k
  congr 1
  funext a
  apply Fin.ext
  match a with
  | ⟨0, _⟩ => show win1_0.index t 0 * 2048 + 1 * (y 0).val = (k 0).val; rw [e00, hk0]; omega
  | ⟨1, _⟩ => show win1_0.index t 1 * 1024 + 1 * (y 1).val = (k 1).val; rw [e01, hk1]; omega

/-- Entry (q, l) of the feature block at point `t` is the projected features at row 1024 (t % 16) + q, column l. -/
theorem bBlk_apply (c : Dev nD) (t : Fin cfg1.N) (y : S1024x128.Idx) (k : S16384x128.Idx)
    (hk0 : (k 0).val = 1024 * (t.val % 16) + (y 0).val) (hk1 : (k 1).val = (y 1).val) :
    bBlk V c t y = featArr V c k := by
  obtain ⟨-, -, e10, e11, -⟩ := idx_facts t
  show V c main_v5 (((cfg1.win 1).blk t).view.emb y) = V c main_v5 k
  congr 1
  funext a
  apply Fin.ext
  match a with
  | ⟨0, _⟩ => show win1_1.index t 0 * 1024 + 1 * (y 0).val = (k 0).val; rw [e10, hk0]; omega
  | ⟨1, _⟩ => show win1_1.index t 1 * 128 + 1 * (y 1).val = (k 1).val; rw [e11, hk1]; omega

/-- The decoding block at every point is the whole decoding matrix. -/
theorem dBlk_apply (c : Dev nD) (t : Fin cfg1.N) (y : S128x2.Idx) : dBlk V c t y = decArr V c y := by
  obtain ⟨-, -, -, -, e20, e21, -⟩ := idx_facts t
  show V c main_v4 (((cfg1.win 2).blk t).view.emb y) = V c main_v4 y
  congr 1
  funext a
  apply Fin.ext
  match a with
  | ⟨0, _⟩ => show win1_2.index t 0 * 128 + 1 * (y 0).val = (y 0).val; rw [e20]; omega
  | ⟨1, _⟩ => show win1_2.index t 1 * 2 + 1 * (y 1).val = (y 1).val; rw [e21]; omega

/-- Column step `k` of row `n` of the adjacency against column `l` of the features: the 1024 columns from 1024 k on
    (nothing past the sixteenth step). -/
def colStep (c : Dev nD) (n : Fin 16384) (l : Fin 128) (k : ℕ) : EReal :=
  if h : k < 16 then
    ∑ q : Fin 1024, adjArr V c (ix2 n ⟨1024 * k + q.val, by omega⟩) * featArr V c (ix2 ⟨1024 * k + q.val, by omega⟩ l)
  else 0

/-- At point `t` the block product's entry (r, l) is column step t % 16 of the row 2048 (t / 16) + r. -/
theorem step_eq (c : Dev nD) (t : Fin cfg1.N) (r : Fin 2048) (l : Fin 128) (n : Fin 16384)
    (hn : n.val = 2048 * (t.val / 16) + r.val) :
    stepSum (aBlk V c t) (bBlk V c t) r l = colStep V c n l (t.val % 16) := by
  have hk : t.val % 16 < 16 := Nat.mod_lt _ (by decide)
  unfold stepSum colStep
  rw [dif_pos hk]
  refine Finset.sum_congr rfl fun q _ => ?_
  rw [aBlk_apply V c t (ix2 r q) (ix2 n ⟨1024 * (t.val % 16) + q.val, by omega⟩) hn rfl,
    bBlk_apply V c t (ix2 q l) (ix2 ⟨1024 * (t.val % 16) + q.val, by omega⟩ l) rfl rfl]

/-- THE INVARIANT. After point `m` the accumulator's entry (r, l) is the float zero plus the column steps 0 … m % 16,
    in order, of row 2048 (m / 16) + r: an opening point starts from the float zero, every later point of the row block
    adds its own step onto what the point before left. -/
theorem acc_eq (c : Dev nD) (m : ℕ) : ∀ (hm : m < cfg1.N) (r : Fin 2048) (l : Fin 128) (n : Fin 16384),
    n.val = 2048 * (m / 16) + r.val →
    (stateAt V c m hm).2 (ix2 r l) = runAcc (colStep V c n l) (m % 16 + 1) := by
  induction m using Nat.strong_induction_on with
  | _ m ih =>
  intro hm r l n hn
  by_cases h0 : m % 16 = 0
  · have h1 : ¬ m % 16 = 15 := by omega
    have e : runAcc (colStep V c n l) (m % 16 + 1) = fzero + colStep V c n l (m % 16) := by rw [h0]; rfl
    rw [stateAt_open V c ⟨m, hm⟩ h0 h1, e]
    dsimp only
    unfold openAt
    refine (open_acc c (grid1.coords ⟨m, hm⟩) (mA ⟨m, hm⟩) (hA ⟨m, hm⟩) (mB ⟨m, hm⟩) (hB ⟨m, hm⟩) (mW ⟨m, hm⟩) (hW ⟨m, hm⟩)
      (mO ⟨m, hm⟩) (hO ⟨m, hm⟩) mAcc (Memref.isWhole_whole _) (blk1 V c 0 ⟨m, hm⟩) (blk1 V c 1 ⟨m, hm⟩) (blk1 V c 2 ⟨m, hm⟩)
      ((atOpen_iff ⟨m, hm⟩).mpr h0) (fun h => h1 ((atClose_iff ⟨m, hm⟩).mp h)) r l).trans ?_
    exact congrArg (fzero + ·) (step_eq V c ⟨m, hm⟩ r l n hn)
  · have hp : m - 1 < m := by omega
    have hm' : m - 1 < cfg1.N := Nat.lt_of_le_of_lt (Nat.sub_le _ _) hm
    have hn' : n.val = 2048 * ((m - 1) / 16) + r.val := by omega
    have e : runAcc (colStep V c n l) (m % 16 + 1)
        = runAcc (colStep V c n l) ((m - 1) % 16 + 1) + colStep V c n l (m % 16) := by
      have e' : (m - 1) % 16 + 1 = m % 16 := by omega
      rw [e']; rfl
    by_cases h1 : m % 16 = 15
    · rw [stateAt_close V c ⟨m, hm⟩ h0 h1, e]
      dsimp only
      unfold closeAt
      refine (close_acc c (grid1.coords ⟨m, hm⟩) (mA ⟨m, hm⟩) (hA ⟨m, hm⟩) (mB ⟨m, hm⟩) (hB ⟨m, hm⟩) (mW ⟨m, hm⟩) (hW ⟨m, hm⟩)
        (mO ⟨m, hm⟩) (hO ⟨m, hm⟩) mAcc (Memref.isWhole_whole _) (blk1 V c 0 ⟨m, hm⟩) (blk1 V c 1 ⟨m, hm⟩) (blk1 V c 2 ⟨m, hm⟩)
        (fun h => h0 ((atOpen_iff ⟨m, hm⟩).mp h)) ((atClose_iff ⟨m, hm⟩).mpr h1) (stateAt V c (m - 1) hm').2 r l).trans ?_
      rw [ih (m - 1) hp hm' r l n hn', step_eq V c ⟨m, hm⟩ r l n hn]
    · rw [stateAt_mid V c ⟨m, hm⟩ h0 h1, e]
      dsimp only
      unfold midAt
      refine (mid_acc c (grid1.coords ⟨m, hm⟩) (mA ⟨m, hm⟩) (hA ⟨m, hm⟩) (mB ⟨m, hm⟩) (hB ⟨m, hm⟩) (mW ⟨m, hm⟩) (hW ⟨m, hm⟩)
        (mO ⟨m, hm⟩) (hO ⟨m, hm⟩) mAcc (Memref.isWhole_whole _) (blk1 V c 0 ⟨m, hm⟩) (blk1 V c 1 ⟨m, hm⟩) (blk1 V c 2 ⟨m, hm⟩)
        (fun h => h0 ((atOpen_iff ⟨m, hm⟩).mp h)) (fun h => h1 ((atClose_iff ⟨m, hm⟩).mp h)) (stateAt V c (m - 1) hm').2 r l).trans ?_
      rw [ih (m - 1) hp hm' r l n hn', step_eq V c ⟨m, hm⟩ r l n hn]

/-- All sixteen column steps of a row, from the float zero, are the sum over its 16384 columns. -/
theorem runAcc_cols (c : Dev nD) (n : Fin 16384) (l : Fin 128) :
    runAcc (colStep V c n l) 16 = ∑ k : Fin 16384, adjArr V c (ix2 n k) * featArr V c (ix2 k l) := by
  rw [runAcc_eq, sum_blocks (fun k => adjArr V c (ix2 n k) * featArr V c (ix2 k l)), ← Fin.sum_univ_eq_sum_range]
  refine Finset.sum_congr rfl fun b _ => ?_
  unfold colStep
  rw [dif_pos b.isLt]

/-- What the launch leaves, as one function of the output array's index: the rectified embedding of node `i 0` against
    column `i 1` of the decoding matrix. -/
def aggG (c : Dev nD) : S16384x2.Idx → EReal := fun i =>
  ∑ l : Fin 128, rect (∑ k : Fin 16384, adjArr V c (ix2 (i 0) k) * featArr V c (ix2 k l)) * decArr V c (ix2 l (i 1))

/-- A closing point stores, at entry (r, j) of its output block, that function at row 2048 (t / 16) + r: its
    accumulator has by then taken all sixteen column steps of the row. -/
theorem out_eq (c : Dev nD) (t : Fin cfg1.N) (h15 : t.val % 16 = 15) (y : S2048x2.Idx) (i : S16384x2.Idx)
    (hi0 : (i 0).val = 2048 * (t.val / 16) + (y 0).val) (hi1 : (i 1).val = (y 1).val) :
    (stateAt V c t.val t.isLt).1 y = aggG V c i := by
  have h0 : ¬ t.val % 16 = 0 := by omega
  obtain ⟨r, j, rfl⟩ : ∃ (r : Fin 2048) (j : Fin 2), y = ix2 r j := ⟨y 0, y 1, eq_ix2 y⟩
  obtain ⟨n, j', rfl⟩ : ∃ (n : Fin 16384) (j' : Fin 2), i = ix2 n j' := ⟨i 0, i 1, eq_ix2 i⟩
  have hn : n.val = 2048 * (t.val / 16) + r.val := hi0
  obtain rfl : j = j' := (Fin.ext hi1).symm
  have hm' : t.val - 1 < cfg1.N := Nat.lt_of_le_of_lt (Nat.sub_le _ _) t.isLt
  have hn' : n.val = 2048 * ((t.val - 1) / 16) + r.val := by omega
  have e16 : (t.val - 1) % 16 + 1 = 15 := by omega
  rw [stateAt_close V c t h0 h15]
  dsimp only
  unfold closeAt
  refine (close_out c (grid1.coords t) (mA t) (hA t) (mB t) (hB t) (mW t) (hW t) (mO t) (hO t) mAcc (Memref.isWhole_whole _)
    (blk1 V c 0 t) (blk1 V c 1 t) (blk1 V c 2 t) (fun h => h0 ((atOpen_iff t).mp h)) ((atClose_iff t).mpr h15)
    (stateAt V c (t.val - 1) hm').2 r j).trans ?_
  show _ = ∑ l : Fin 128, rect (∑ k : Fin 16384, adjArr V c (ix2 n k) * featArr V c (ix2 k l)) * decArr V c (ix2 l j)
  refine Finset.sum_congr rfl fun l _ => ?_
  rw [acc_eq V c (t.val - 1) hm' r l n hn', step_eq V c t r l n hn, e16, h15, ← runAcc_cols V c n l]
  exact congrArg (rect (runAcc (colStep V c n l) 16) * ·) (dBlk_apply V c t (ix2 l j))

/-- What a closing point writes back is its block of that function. -/
theorem flushed_eq (c : Dev nD) (t : Fin cfg1.N) (hf : (cfg1.win 3).flush t = true) :
    (aggDat V c).flushed 3 t = ((cfg1.win 3).blk t).view.read (Elt Ideal) (aggG V c) := by
  have h15 : t.val % 16 = 15 := (flush1_3 t).mp hf
  obtain ⟨-, -, -, -, -, -, e30, e31⟩ := idx_facts t
  show (cfg1.win 3).cut (grid1.coords t) ((aggDat V c).after 3 t) = _
  rw [aggDat_after3]
  funext y
  show (stateAt V c t.val t.isLt).1 y = aggG V c (((cfg1.win 3).blk t).view.emb y)
  refine out_eq V c t h15 y _ ?_ ?_
  · show win1_3.index t 0 * 2048 + 1 * (y 0).val = 2048 * (t.val / 16) + (y 0).val
    rw [e30]; omega
  · show win1_3.index t 1 * 2 + 1 * (y 1).val = (y 1).val
    rw [e31]; omega

/-- The closing points' blocks cover the output array (row n lies in the block of the closing point 16 (n / 2048) + 15),
    so the array ends holding that function. -/
theorem agg_final (c : Dev nD) : (aggDat V c).arrAt 3 cfg1.N = aggG V c :=
  (aggDat V c).arrAt_eq_of_cover 3 (aggG V c) (flushed_eq V c) fun i => by
    have hi0 : (i 0).val < 16384 := (i 0).isLt
    have hi1 : (i 1).val < 2 := (i 1).isLt
    have hN : cfg1.N = 128 := N_1
    obtain ⟨t, ht⟩ : ∃ t : Fin cfg1.N, t.val = 16 * ((i 0).val / 2048) + 15 := ⟨⟨16 * ((i 0).val / 2048) + 15, by omega⟩, rfl⟩
    obtain ⟨-, -, -, -, -, -, e30, e31⟩ := idx_facts t
    refine ⟨t, (flush1_3 t).mpr (by omega), ?_⟩
    show i ∈ ((View.whole main_v6).slice (win1_3.rect t)).set
    rw [View.set_slice_whole, Rect.mem_set_unit]
    intro a
    match a with
    | ⟨0, _⟩ =>
      show win1_3.index t 0 * 2048 ≤ (i 0).val ∧ (i 0).val < win1_3.index t 0 * 2048 + 2048
      rw [e30]; omega
    | ⟨1, _⟩ =>
      show win1_3.index t 1 * 2 ≤ (i 1).val ∧ (i 1).val < win1_3.index t 1 * 2 + 2
      rw [e31]; omega

/-- The array the launch leaves, entry by entry. -/
theorem agg_array (c : Dev nD) (n : Fin 16384) (j : Fin 2) :
    aggOut V c (ix2 n j)
      = ∑ l : Fin 128, rect (∑ k : Fin 16384, adjArr V c (ix2 n k) * featArr V c (ix2 k l)) * decArr V c (ix2 l j) :=
  congrFun (agg_final V c) (ix2 n j)

end Cert.KernelIdeal.Enc

end
-- ==== Proof.KI.Decode.lean ====
import proofs.«170465_j40699110097055_1_alg».proof.Proof.Gen.KernelIdeal.Launch
import proofs.«170465_j40699110097055_1_alg».proof.Proof.Gen.KernelIdeal.Skeleton
import proofs.«170465_j40699110097055_1_alg».proof.Proof.Gen.KernelIdeal.Points
import proofs.«170465_j40699110097055_1_alg».proof.Proof.KI.Run
import proofs.«170465_j40699110097055_1_alg».proof.Proof.Spec
import proofs.«170465_j40699110097055_1_alg».proof.Proof.EdgeIdx
import Idealize.ShloMosaic.Lib.Pipeline.Value
import Idealize.ShloMosaic.Lib.ValueIdx
import Idealize.ShloMosaic.Lib.ValueLayout
import Idealize.ShloMosaic.PureOps.Ideal.Laws
import Idealize.ShloMosaic.Lib.Pipeline.FrameBody
import Idealize.ShloMosaic.Lib.Ring
import Idealize.ShloMosaic.Lib.Tactic

set_option maxRecDepth 16384

noncomputable section

namespace Cert.KernelIdeal.Enc

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ
open Idealize.ShloMosaic.ValueIdx Cert.EdgeScore
open Idealize.ShloMosaic.StableHlo
/-!
  The decoding matrix the first host stretch computes, at the exact instance: column 0 is the upper half of the first
  decoding matrix contracted with the second, column 1 the lower half. In order: the product of a 128 x 128 matrix with
  the 128 x 1 matrix read at an entry (a sum over the 128 shared indices); the same with the left operand a 128-row
  block of the 256 x 128 matrix, which is the half at the block's row offset; two 128 x 1 columns joined along the
  columns, read at either column; the array after the stretch as the two block products joined; the entry.
-/

/-! ## One column: a 128 x 128 matrix against the 128 x 1 matrix -/

/-- The left operand's row axis is the result's row. -/
theorem col_lhs_0 (i : S128x1.Idx) (q : dot_S128x128_S128x1_S128x1_1_0_0_1_n_n.contr.Idx) :
    (dot_S128x128_S128x1_S128x1_1_0_0_1_n_n.lhsIdx i q 0).val = (i 0).val := by
  unfold DotDims.lhsIdx
  rw [dif_neg (show ¬(0 : Fin S128x128.rank) ∈ dot_S128x128_S128x1_S128x1_1_0_0_1_n_n.lhsBatch by decide), dif_pos (show (0 : Fin S128x128.rank) ∈ dot_S128x128_S128x1_S128x1_1_0_0_1_n_n.lhsNonContracting by decide)]
  rfl
/-- The left operand's column axis is the summation index. -/
theorem col_lhs_1 (i : S128x1.Idx) (q : dot_S128x128_S128x1_S128x1_1_0_0_1_n_n.contr.Idx) :
    (dot_S128x128_S128x1_S128x1_1_0_0_1_n_n.lhsIdx i q 1).val = (q ⟨0, by decide⟩).val :=
  dot_S128x128_S128x1_S128x1_1_0_0_1_n_n.lhsIdx_val_of_single rfl i q
/-- The right operand's row axis is the summation index. -/
theorem col_rhs_0 (i : S128x1.Idx) (q : dot_S128x128_S128x1_S128x1_1_0_0_1_n_n.contr.Idx) :
    (dot_S128x128_S128x1_S128x1_1_0_0_1_n_n.rhsIdx i q 0).val = (q ⟨0, by decide⟩).val :=
  dot_S128x128_S128x1_S128x1_1_0_0_1_n_n.rhsIdx_val_of_single rfl i q
/-- The right operand's column axis is the result's column. -/
theorem col_rhs_1 (i : S128x1.Idx) (q : dot_S128x128_S128x1_S128x1_1_0_0_1_n_n.contr.Idx) :
    (dot_S128x128_S128x1_S128x1_1_0_0_1_n_n.rhsIdx i q 1).val = (i 1).val := by
  unfold DotDims.rhsIdx
  rw [dif_neg (show ¬(1 : Fin S128x1.rank) ∈ dot_S128x128_S128x1_S128x1_1_0_0_1_n_n.rhsBatch by decide), dif_pos (show (1 : Fin S128x1.rank) ∈ dot_S128x128_S128x1_S128x1_1_0_0_1_n_n.rhsNonContracting by decide)]
  rfl

/-- Entry (l, 0) of the product of a 128 x 128 matrix with a 128 x 1 matrix: row l against the one column. -/
theorem col_apply (X : FVec Ideal S128x128 .f32) (W3 : FVec Ideal S128x1 .f32) (l : Fin 128) :
    Host.dotGeneral (F := Ideal) (φ₁ := .f32) (φ₂ := .f32) dot_S128x128_S128x1_S128x1_1_0_0_1_n_n none X W3 (ix2 l 0)
      = ∑ k : Fin 128, X (ix2 l k) * W3 (ix2 k 0) := by
  simp only [Host.dotGeneral]
  rw [Ideal.dotGeneral_apply, ← Equiv.sum_comp (ValueIdx.contrEquiv1 dot_S128x128_S128x1_S128x1_1_0_0_1_n_n 128 rfl rfl).symm]
  refine Finset.sum_congr rfl fun k _ => ?_
  have hk := ValueIdx.contrEquiv1_symm_val dot_S128x128_S128x1_S128x1_1_0_0_1_n_n 128 rfl rfl k
  have el : dot_S128x128_S128x1_S128x1_1_0_0_1_n_n.lhsIdx (ix2 l 0) ((ValueIdx.contrEquiv1 dot_S128x128_S128x1_S128x1_1_0_0_1_n_n 128 rfl rfl).symm k) = ix2 l k := funext fun a => Fin.ext (by
    match a with
    | ⟨0, _⟩ => exact col_lhs_0 _ _
    | ⟨1, _⟩ => exact (col_lhs_1 _ _).trans hk)
  have er : dot_S128x128_S128x1_S128x1_1_0_0_1_n_n.rhsIdx (ix2 l 0) ((ValueIdx.contrEquiv1 dot_S128x128_S128x1_S128x1_1_0_0_1_n_n 128 rfl rfl).symm k) = ix2 k 0 := funext fun a => Fin.ext (by
    match a with
    | ⟨0, _⟩ => exact (col_rhs_0 _ _).trans hk
    | ⟨1, _⟩ => exact col_rhs_1 _ _)
  rw [el, er]

/-! ## A half of the first decoding matrix against the second -/

/-- The 128 x 128 block of the 256 x 128 matrix at row offset `off`, contracted with the 128 x 1 matrix: entry (l, 0) is
    the half at that offset. A block's entry (l, k) is the matrix's entry (off + l, 0 + k). -/
theorem col_half (W2 : FVec Ideal S256x128 .f32) (W3 : FVec Ideal S128x1 .f32) (off : Nat) (hoff : off + 128 ≤ 256)
    (hs : S256x128.Slices ![off, 0] S128x128) (l : Fin 128) :
    Host.dotGeneral (F := Ideal) (φ₁ := .f32) (φ₂ := .f32) dot_S128x128_S128x1_S128x1_1_0_0_1_n_n none
        (extractStridedSlice S128x128 ![off, 0] W2 hs) W3 (ix2 l 0)
      = half W2 W3 off hoff l := by
  rw [col_apply]
  unfold half
  refine Finset.sum_congr rfl fun k _ => ?_
  congr 1
  show W2 _ = W2 _
  congr 1
  funext a
  apply Fin.ext
  match a with
  | ⟨0, _⟩ => rfl
  | ⟨1, _⟩ => exact Nat.zero_add _

/-! ## The two columns side by side -/

/-- Column 0 of two 128 x 1 columns joined along the columns is the first. -/
theorem join_col0 {α : Type} (a b : S128x1.Idx → α) (h : Shape.Concatenates [S128x1, S128x1] S128x2 1) (l : Fin 128) :
    concatenate S128x2 1 [⟨S128x1, a⟩, ⟨S128x1, b⟩] h (ix2 l 0) = a (ix2 l 0) :=
  concatenate_pair_apply_left (t := S128x2) (s₁ := S128x1) (s₂ := S128x1) 1 a b h (ix2 l 0) rfl (ix2 l 0)
    (fun c => by match c with | ⟨0, _⟩ => rfl | ⟨1, _⟩ => rfl)

/-- Column 1 is the second: the column less the first piece's one column. -/
theorem join_col1 {α : Type} (a b : S128x1.Idx → α) (h : Shape.Concatenates [S128x1, S128x1] S128x2 1) (l : Fin 128) :
    concatenate S128x2 1 [⟨S128x1, a⟩, ⟨S128x1, b⟩] h (ix2 l 1) = b (ix2 l 0) :=
  concatenate_pair_apply_right (t := S128x2) (s₁ := S128x1) (s₂ := S128x1) 1 a b h (ix2 l 1) rfl rfl (ix2 l 0)
    (fun c hc => by match c with | ⟨0, _⟩ => rfl | ⟨1, _⟩ => exact absurd rfl hc)
    (by show 0 + 1 = 1; rfl)

/-! ## The decoding matrix the first host stretch computes -/

variable (m : (ℓ : Loc nD τ sig) → Buf (Elt Ideal) ℓ)

/-- The array after the stretch as a term: the two block products joined along the columns. -/
theorem decode_term (c : Dev nD) :
    (atProj (F := Ideal) m c main_v4 : S128x2.Idx → EReal)
      = concatenate S128x2 1
          [⟨S128x1, Host.dotGeneral (F := Ideal) (φ₁ := .f32) (φ₂ := .f32) dot_S128x128_S128x1_S128x1_1_0_0_1_n_n none
              (extractStridedSlice S128x128 ![0, 0] (m ((c : Thread nD τ).loc main_arg3) : FVec Ideal S256x128 .f32) slices_S256x128_S128x128_0_0)
              (m ((c : Thread nD τ).loc main_arg4) : FVec Ideal S128x1 .f32)⟩,
           ⟨S128x1, Host.dotGeneral (F := Ideal) (φ₁ := .f32) (φ₂ := .f32) dot_S128x128_S128x1_S128x1_1_0_0_1_n_n none
              (extractStridedSlice S128x128 ![128, 0] (m ((c : Thread nD τ).loc main_arg3) : FVec Ideal S256x128 .f32) slices_S256x128_S128x128_128_0)
              (m ((c : Thread nD τ).loc main_arg4) : FVec Ideal S128x1 .f32)⟩]
          concatenates_S128x1_S128x1_S128x2_d1 := by
  dsimp only [atProj, hostOps0]
  after_results

/-- Entry (l, j) of the decoding matrix: the half of the first decoding matrix at row offset 128 j, contracted with the second. -/
theorem decode_entry (c : Dev nD) (l : Fin 128) (j : Fin 2) :
    (atProj (F := Ideal) m c main_v4 : S128x2.Idx → EReal) (ix2 l j)
      = half (m ((c : Thread nD τ).loc main_arg3) : S256x128.Idx → EReal) (m ((c : Thread nD τ).loc main_arg4) : S128x1.Idx → EReal)
          (128 * j.val) (by omega) l := by
  rw [decode_term]
  match j with
  | ⟨0, _⟩ =>
    -- column 0: the first block product, the block at row offset 0
    rw [show (ix2 l (⟨0, by omega⟩ : Fin 2) : S128x2.Idx) = ix2 l 0 from rfl, join_col0]
    exact col_half _ _ 0 (by omega) slices_S256x128_S128x128_0_0 l
  | ⟨1, _⟩ =>
    -- column 1: the second block product, the block at row offset 128
    rw [show (ix2 l (⟨1, by omega⟩ : Fin 2) : S128x2.Idx) = ix2 l 1 from rfl, join_col1]
    exact col_half _ _ 128 (by omega) slices_S256x128_S128x128_128_0 l

end Cert.KernelIdeal.Enc

end
-- ==== Proof.KI.Tail.lean ====
import proofs.«170465_j40699110097055_1_alg».proof.Proof.Gen.KernelIdeal.Launch
import proofs.«170465_j40699110097055_1_alg».proof.Proof.Gen.KernelIdeal.Skeleton
import proofs.«170465_j40699110097055_1_alg».proof.Proof.Gen.KernelIdeal.Points
import proofs.«170465_j40699110097055_1_alg».proof.Proof.KI.Run
import proofs.«170465_j40699110097055_1_alg».proof.Proof.Spec
import proofs.«170465_j40699110097055_1_alg».proof.Proof.EdgeIdx
import Idealize.ShloMosaic.Lib.Pipeline.Value
import Idealize.ShloMosaic.Lib.ValueIdx
import Idealize.ShloMosaic.Lib.ValueLayout
import Idealize.ShloMosaic.PureOps.Ideal.Laws
import Idealize.ShloMosaic.Lib.Pipeline.FrameBody
import Idealize.ShloMosaic.Lib.Ring
import Idealize.ShloMosaic.Lib.Tactic

set_option maxRecDepth 16384

noncomputable section

namespace Cert.KernelIdeal.Enc

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ
open Idealize.ShloMosaic.ValueIdx Cert.EdgeScore
open Idealize.ShloMosaic.StableHlo
/-!
  The last host stretch, at the exact instance, read at one edge: the result's entry for edge `e` is the logistic of the
  sum of two entries of the aggregation's output array — column 0 at the node the edge's source word names, column 1
  at the node its destination word names.
-/

/-! ## The stretch as a function of its three arrays -/

section Pure

/-- A column of a two-column table, flattened to a vector: entry `r` is the table at `(r, col)`. -/
theorem column_entry {α : Type} {n : Nat} (X : (⟨2, ![n, 2]⟩ : Shape).Idx → α) (o : Nat)
    (hs : (⟨2, ![n, 2]⟩ : Shape).Slices ![0, o] ⟨2, ![n, 1]⟩)
    (hc : (⟨2, ![n, 1]⟩ : Shape).ShapeCasts ⟨1, ![n]⟩) (r : Fin n) (col : Fin 2) (hcol : col.val = o) :
    shapeCast ⟨1, ![n]⟩ (extractStridedSlice ⟨2, ![n, 1]⟩ ![0, o] X hs) hc (ix1 r) = X (ix2 r col) := by
  -- the vector's position r is position (r, 0) of the one-column block
  rw [shapeCast_apply _ hc (ix1 r) (ix2 r (0 : Fin 1)) (by
    rw [Shape.rowMajor_val_two, Shape.rowMajor_val_one]
    show r.val * 1 + 0 = r.val
    omega)]
  -- and the block's column 0 is the table's column o
  exact slice2_axis1_apply o X hs r 0 col (by rw [hcol]; rfl)

/-- A vector over the edges spread to a one-column table: the entry at `(e, 0)` is the vector's at `e`. -/
theorem spread_entry {α : Type} (v : S1048576.Idx → α) (e : Fin 1048576) :
    broadcastInDim S1048576x1 ![0] bcast_S1048576_S1048576x1_0 v (ix2 e 0) = v (ix1 e) :=
  broadcastInDim_apply _ _ v _ (ix1 e) (fun a => by
    match a with
    | ⟨0, _⟩ => exact (if_neg (show ¬ (1048576 : Nat) = 1 by decide)).symm)

/-- The normalisation of a vector of index words: negative ones shifted up by the node count. -/
def normVec (w : S1048576.Idx → BitVec 32) : S1048576.Idx → BitVec 32 :=
  select (cmpi .slt w (broadcastInDim S1048576 ![] bcast_S_S1048576 (constantI S_ 32 0#32)))
    (addi w (broadcastInDim S1048576 ![] bcast_S_S1048576 (constantI S_ 32 16384#32))) w

theorem normVec_entry (w : S1048576.Idx → BitVec 32) (i : S1048576.Idx) : normVec w i = wrapWord (w i) := rfl

/-- Column `o` of the stacked edge list as a vector of words. -/
def edgeVec (pos neg : S524288x2.Idx → BitVec 32) (o : Nat) (hs : S1048576x2.Slices ![0, o] S1048576x1) :
    S1048576.Idx → BitVec 32 :=
  shapeCast S1048576
    (extractStridedSlice S1048576x1 ![0, o]
      (concatenate S1048576x2 0 [⟨S524288x2, pos⟩, ⟨S524288x2, neg⟩] concatenates_S524288x2_S524288x2_S1048576x2_d0) hs)
    shapeCasts_S1048576x1_S1048576

theorem edgeVec_entry (pos neg : S524288x2.Idx → BitVec 32) (o : Nat) (hs : S1048576x2.Slices ![0, o] S1048576x1)
    (e : Fin 1048576) (col : Fin 2) (hcol : col.val = o) :
    edgeVec pos neg o hs (ix1 e) = edgeWord pos neg e col := by
  unfold edgeVec
  rw [column_entry _ o hs shapeCasts_S1048576x1_S1048576 e col hcol]
  exact concat_edges pos neg concatenates_S524288x2_S524288x2_S1048576x2_d0 e col

/-- Column `o` of the score array as a vector over the nodes. -/
def scoreVec (P : S16384x2.Idx → EReal) (o : Nat) (hs : S16384x2.Slices ![0, o] S16384x1) : S16384.Idx → EReal :=
  shapeCast S16384 (extractStridedSlice S16384x1 ![0, o] P hs) shapeCasts_S16384x1_S16384

theorem scoreVec_entry (P : S16384x2.Idx → EReal) (o : Nat) (hs : S16384x2.Slices ![0, o] S16384x1)
    (n : Fin 16384) (col : Fin 2) (hcol : col.val = o) :
    scoreVec P o hs (ix1 n) = P (ix2 n col) :=
  column_entry P o hs shapeCasts_S16384x1_S16384 n col hcol

/-- The score column `o` gathered by the normalised index column `o`: a vector over the edges. -/
def gathered (P : S16384x2.Idx → EReal) (pos neg : S524288x2.Idx → BitVec 32) (o : Nat)
    (hs : S16384x2.Slices ![0, o] S16384x1) (ht : S1048576x2.Slices ![0, o] S1048576x1) : S1048576.Idx → EReal :=
  Host.gather gather_S16384_S1048576x1_S1048576_n_0_n_n_0_1_1 (scoreVec P o hs)
    (broadcastInDim S1048576x1 ![0] bcast_S1048576_S1048576x1_0 (normVec (edgeVec pos neg o ht)))

/-- Edge `e` reads the score array's column at the node its column's word names. -/
theorem gathered_entry (P : S16384x2.Idx → EReal) (pos neg : S524288x2.Idx → BitVec 32) (o : Nat)
    (hs : S16384x2.Slices ![0, o] S16384x1) (ht : S1048576x2.Slices ![0, o] S1048576x1)
    (e : Fin 1048576) (col : Fin 2) (hcol : col.val = o) :
    gathered P pos neg o hs ht (ix1 e) = P (ix2 (nodeOf (wrapWord (edgeWord pos neg e col))) col) := by
  unfold gathered
  rw [take_node gather_S16384_S1048576x1_S1048576_n_0_n_n_0_1_1 rfl rfl rfl rfl, spread_entry, normVec_entry,
    edgeVec_entry pos neg o ht e col hcol, scoreVec_entry P o hs _ col hcol]

/-- The whole stretch: the logistic, entry by entry, of the sum of the two gathered vectors, as a one-column table. -/
def tailFn (P : S16384x2.Idx → EReal) (pos neg : S524288x2.Idx → BitVec 32) : S1048576x1.Idx → EReal :=
  broadcastInDim S1048576x1 ![0] bcast_S1048576_S1048576x1_0
    (Host.divf (F := Ideal) (φ := .f32)
      (broadcastInDim S1048576 ![] bcast_S_S1048576 (constant (F := Ideal) S_ .f32 0x3F800000#32))
      (addf (F := Ideal) (φ := .f32)
        (broadcastInDim S1048576 ![] bcast_S_S1048576 (constant (F := Ideal) S_ .f32 0x3F800000#32))
        (Host.exp (F := Ideal) (φ := .f32)
          (Host.negf (F := Ideal) (φ := .f32)
            (addf (F := Ideal) (φ := .f32)
              (gathered P pos neg 0 slices_S16384x2_S16384x1_0_0 slices_S1048576x2_S1048576x1_0_0)
              (gathered P pos neg 1 slices_S16384x2_S16384x1_0_1 slices_S1048576x2_S1048576x1_0_1))))))

theorem tailFn_entry (P : S16384x2.Idx → EReal) (pos neg : S524288x2.Idx → BitVec 32) (e : Fin 1048576) :
    tailFn P pos neg (ix2 e 0)
      = squash (P (ix2 (nodeOf (wrapWord (edgeWord pos neg e 0))) 0) + P (ix2 (nodeOf (wrapWord (edgeWord pos neg e 1))) 1)) := by
  unfold tailFn
  rw [spread_entry]
  rw [← gathered_entry P pos neg 0 slices_S16384x2_S16384x1_0_0 slices_S1048576x2_S1048576x1_0_0 e 0 rfl,
    ← gathered_entry P pos neg 1 slices_S16384x2_S16384x1_0_1 slices_S1048576x2_S1048576x1_0_1 e 1 rfl]
  rfl

end Pure

variable (m : (ℓ : Loc nD τ sig) → Buf (Elt Ideal) ℓ)

/-- The arrays the last stretch reads, and the one it ends with, at their literal types. -/
abbrev scoreArr (c : Dev nD) : S16384x2.Idx → EReal := atTail (F := Ideal) m c main_v6
abbrev posEdges (c : Dev nD) : S524288x2.Idx → BitVec 32 := atTail (F := Ideal) m c main_arg5
abbrev negEdges (c : Dev nD) : S524288x2.Idx → BitVec 32 := atTail (F := Ideal) m c main_arg6
abbrev resultArr (c : Dev nD) : S1048576x1.Idx → EReal := atEnd (F := Ideal) m c main_v37

/-- The stretch's result array is that function of the three arrays it reads. -/
theorem result_eq (c : Dev nD) : resultArr m c = tailFn (scoreArr m c) (posEdges m c) (negEdges m c) := by
  dsimp only [resultArr, atEnd, hostOps2]
  after_results_simp
  rfl

/-- The result's entry for edge `e`: the logistic of the two score entries its words name. -/
theorem tail_entry (c : Dev nD) (e : Fin 1048576) :
    resultArr m c (ix2 e 0)
      = squash (scoreArr m c (ix2 (nodeOf (wrapWord (edgeWord (posEdges m c) (negEdges m c) e 0))) 0)
          + scoreArr m c (ix2 (nodeOf (wrapWord (edgeWord (posEdges m c) (negEdges m c) e 1))) 1)) := by
  rw [result_eq, tailFn_entry]

end Cert.KernelIdeal.Enc

end
-- ==== Proof.KI.Entry.lean ====
import proofs.«170465_j40699110097055_1_alg».proof.Proof.Gen.KernelIdeal.Launch
import proofs.«170465_j40699110097055_1_alg».proof.Proof.Gen.KernelIdeal.Skeleton
import proofs.«170465_j40699110097055_1_alg».proof.Proof.Gen.KernelIdeal.Points
import proofs.«170465_j40699110097055_1_alg».proof.Proof.KI.Kept
import proofs.«170465_j40699110097055_1_alg».proof.Proof.KI.ProjValue
import proofs.«170465_j40699110097055_1_alg».proof.Proof.KI.AggValue
import proofs.«170465_j40699110097055_1_alg».proof.Proof.KI.Decode
import proofs.«170465_j40699110097055_1_alg».proof.Proof.KI.Tail
import proofs.«170465_j40699110097055_1_alg».proof.Proof.Spec
import proofs.«170465_j40699110097055_1_alg».proof.Proof.EdgeIdx
import Idealize.ShloMosaic.Lib.Pipeline.Value
import Idealize.ShloMosaic.Lib.ValueIdx
import Idealize.ShloMosaic.Lib.ValueLayout
import Idealize.ShloMosaic.PureOps.Ideal.Laws
import Idealize.ShloMosaic.Lib.Pipeline.FrameBody
import Idealize.ShloMosaic.Lib.Ring
import Idealize.ShloMosaic.Lib.Tactic

set_option maxRecDepth 16384

noncomputable section

namespace Cert.KernelIdeal.Enc

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ
open Idealize.ShloMosaic.ValueIdx Cert.EdgeScore

/-!
  The idealized kernel's result at one edge, from the launch memory alone: the logistic of the split arrangement of the
  score, of the embeddings of the two nodes the edge's words name. The last host stretch reads the aggregation's output
  at two entries; the aggregation's output is the rectified embedding against the decoding matrix; the embedding is
  taken over the projected features the first launch left; the decoding matrix is the one the first stretch computed.
-/

variable (m : (ℓ : Loc nD τ sig) → Buf (Elt Ideal) ℓ)

/-- The launch memory's arrays at their literal types. -/
abbrev memX (c : Dev nD) : S16384x512.Idx → EReal := m ((c : Thread nD τ).loc main_arg0)
abbrev memA (c : Dev nD) : S16384x16384.Idx → EReal := m ((c : Thread nD τ).loc main_arg1)
abbrev memW (c : Dev nD) : S512x128.Idx → EReal := m ((c : Thread nD τ).loc main_arg2)
abbrev memW2 (c : Dev nD) : S256x128.Idx → EReal := m ((c : Thread nD τ).loc main_arg3)
abbrev memW3 (c : Dev nD) : S128x1.Idx → EReal := m ((c : Thread nD τ).loc main_arg4)
abbrev memPos (c : Dev nD) : S524288x2.Idx → BitVec 32 := m ((c : Thread nD τ).loc main_arg5)
abbrev memNeg (c : Dev nD) : S524288x2.Idx → BitVec 32 := m ((c : Thread nD τ).loc main_arg6)

/-- The projected features the aggregation reads are the projection of the launch memory's features and weight. -/
theorem feat_entry (c : Dev nD) (k : Fin 16384) (l : Fin 128) :
    featArr (inAgg m) c (ix2 k l) = proj (memX m c) (memW m c) k l := by
  have h1 : featArr (inAgg m) c (ix2 k l) = ((projDat (F := Ideal) (inProj m) c).arrAt 2 cfg0.N : S16384x128.Idx → EReal) (ix2 k l) :=
    congrFun (atAgg_proj (F := Ideal) m c) (ix2 k l)
  rw [h1, proj_array (inProj m) c k l]
  have hx : (inProj m c main_arg0 : S16384x512.Idx → EReal) = memX m c := atProj_kept (F := Ideal) m c main_arg0 (by decide)
  have hw : (inProj m c main_arg2 : S512x128.Idx → EReal) = memW m c := atProj_kept (F := Ideal) m c main_arg2 (by decide)
  rw [hx, hw]

/-- The aggregation's output array at (n, j): the rectified embedding of node n against half j of the decoder. -/
theorem score_entry (c : Dev nD) (n : Fin 16384) (j : Fin 2) :
    scoreArr m c (ix2 n j)
      = ∑ l : Fin 128, rect (emb (memA m c) (memX m c) (memW m c) n l) * half (memW2 m c) (memW3 m c) (128 * j.val) (by omega) l := by
  have h1 : scoreArr m c (ix2 n j) = aggOut (inAgg m) c (ix2 n j) := congrFun (atTail_out (F := Ideal) m c) (ix2 n j)
  have hz : ∀ l : Fin 128, (∑ k : Fin 16384, adjArr (inAgg m) c (ix2 n k) * featArr (inAgg m) c (ix2 k l))
      = emb (memA m c) (memX m c) (memW m c) n l := by
    intro l
    unfold emb
    refine Finset.sum_congr rfl fun k _ => ?_
    rw [feat_entry m c k l]
    exact congrArg (fun a : S16384x16384.Idx → EReal => a (ix2 n k) * proj (memX m c) (memW m c) k l) (atAgg_arg1 (F := Ideal) m c)
  have hd : ∀ l : Fin 128, decArr (inAgg m) c (ix2 l j) = half (memW2 m c) (memW3 m c) (128 * j.val) (by omega) l := fun l =>
    (congrFun (atAgg_decode (F := Ideal) m c) (ix2 l j)).trans (decode_entry m c l j)
  rw [h1, agg_array (inAgg m) c n j]
  refine Finset.sum_congr rfl fun l _ => ?_
  rw [hz l, hd l]

/-- THE KERNEL'S ENTRY for edge `e`. -/
theorem ker_entry (c : Dev nD) (e : Fin 1048576) :
    resultArr m c (ix2 e 0)
      = squash (scoreSplit (memW2 m c) (memW3 m c)
          (fun l => emb (memA m c) (memX m c) (memW m c) (nodeOf (wrapWord (edgeWord (memPos m c) (memNeg m c) e 0))) l)
          (fun l => emb (memA m c) (memX m c) (memW m c) (nodeOf (wrapWord (edgeWord (memPos m c) (memNeg m c) e 1))) l)) := by
  rw [tail_entry m c e]
  have hp : posEdges m c = memPos m c := atTail_arg5 (F := Ideal) m c
  have hn : negEdges m c = memNeg m c := atTail_arg6 (F := Ideal) m c
  rw [hp, hn, score_entry m c _ 0, score_entry m c _ 1]
  rfl

end Cert.KernelIdeal.Enc

end
-- ==== Proof.RefScore.lean ====
/-
  The reference, read at one edge: its result at edge `e` is the logistic of the joint arrangement of the score, of the
  embeddings of the two nodes that the edge's source and destination words name.
  The road, from the inside out: an index word of the stacked edge list, normalised; the embedding table at a node
  (the adjacency's row against the projected features); a gathered row as the embedding of the word's node; the two
  gathered blocks joined into the pair; its rectification; the two decoding contractions as the joint score; the
  logistic of that score.
-/
import proofs.«170465_j40699110097055_1_alg».proof.Proof.RefRead
import proofs.«170465_j40699110097055_1_alg».proof.Proof.Spec
import proofs.«170465_j40699110097055_1_alg».proof.Proof.EdgeIdx

noncomputable section

namespace Cert.ReferenceIdeal.Score

open Idealize.ShloMosaic Idealize.ShloMosaic.ValueIdx Idealize.ShloMosaic.TcCoe
open Cert.ReferenceIdeal Cert.ReferenceIdeal.ReadP Cert.EdgeScore

/-- The source column of the stacked edge list, read through slice, reshape and broadcast, is the list at (e, 0). -/
theorem idx_word0 (e : Fin 1048576) :
    idx_main_v3 (idx_main_v4 (idx_main_v10 (ix2 e 0 : S1048576x1.Idx))) = (ix2 e 0 : S1048576x2.Idx) :=
  funext fun a => Fin.ext (by match a with | ⟨0, _⟩ => exact Nat.div_one _ | ⟨1, _⟩ => rfl)

/-- The destination column likewise: the list at (e, 1). -/
theorem idx_word1 (e : Fin 1048576) :
    idx_main_v12 (idx_main_v13 (idx_main_v19 (ix2 e 0 : S1048576x1.Idx))) = (ix2 e 1 : S1048576x2.Idx) :=
  funext fun a => Fin.ext (by match a with | ⟨0, _⟩ => exact Nat.div_one _ | ⟨1, _⟩ => rfl)

/-- The source index word of edge e after normalisation of a negative index. -/
theorem word0 (x5 x6 : (⟨S524288x2, .i32⟩ : BufTy).Contents (Elt Ideal)) (e : Fin 1048576) :
    val_main_v10 (F := Ideal) x5 x6 (ix2 e 0) = wrapWord (edgeWord x5 x6 e 0) := by
  rw [val_main_v10_apply, val_main_v9_apply, val_main_v6_apply, val_main_v8_apply, val_main_v5_apply,
    val_main_v7_apply, val_main_c_apply, val_main_c_0_apply, val_main_v4_apply, val_main_v3_apply, idx_word0]
  unfold val_main_v2
  rw [concat_edges x5 x6 Gen.concatenates_S524288x2_S524288x2_S1048576x2_d0 e 0]
  rfl

/-- The destination index word of edge e after normalisation of a negative index. -/
theorem word1 (x5 x6 : (⟨S524288x2, .i32⟩ : BufTy).Contents (Elt Ideal)) (e : Fin 1048576) :
    val_main_v19 (F := Ideal) x5 x6 (ix2 e 0) = wrapWord (edgeWord x5 x6 e 1) := by
  rw [val_main_v19_apply, val_main_v18_apply, val_main_v15_apply, val_main_v17_apply, val_main_v14_apply,
    val_main_v16_apply, val_main_c_1_apply, val_main_c_2_apply, val_main_v13_apply, val_main_v12_apply, idx_word1]
  unfold val_main_v2
  rw [concat_edges x5 x6 Gen.concatenates_S524288x2_S524288x2_S1048576x2_d0 e 1]
  rfl

/-- The index functions of the four contractions, at an index given by its two coordinates. -/
theorem lidx1_eq (n : Fin 16384) (l : Fin 128) (k : Fin 16384) :
    lidx_main_v1 (ix2 n l : S16384x128.Idx) k = (ix2 n k : S16384x16384.Idx) :=
  funext fun a => Fin.ext (by match a with | ⟨0, _⟩ => rfl | ⟨1, _⟩ => rfl)
theorem ridx1_eq (n : Fin 16384) (l : Fin 128) (k : Fin 16384) :
    ridx_main_v1 (ix2 n l : S16384x128.Idx) k = (ix2 k l : S16384x128.Idx) :=
  funext fun a => Fin.ext (by match a with | ⟨0, _⟩ => rfl | ⟨1, _⟩ => rfl)
theorem lidx0_eq (k : Fin 16384) (l : Fin 128) (d : Fin 512) :
    lidx_main_v0 (ix2 k l : S16384x128.Idx) d = (ix2 k d : S16384x512.Idx) :=
  funext fun a => Fin.ext (by match a with | ⟨0, _⟩ => rfl | ⟨1, _⟩ => rfl)
theorem ridx0_eq (k : Fin 16384) (l : Fin 128) (d : Fin 512) :
    ridx_main_v0 (ix2 k l : S16384x128.Idx) d = (ix2 d l : S512x128.Idx) :=
  funext fun a => Fin.ext (by match a with | ⟨0, _⟩ => rfl | ⟨1, _⟩ => rfl)

/-- The projected features at (k, l). -/
theorem proj_entry (x0 : (⟨S16384x512, .f32⟩ : BufTy).Contents (Elt Ideal)) (x2 : (⟨S512x128, .f32⟩ : BufTy).Contents (Elt Ideal))
    (k : Fin 16384) (l : Fin 128) :
    val_main_v0 (F := Ideal) x0 x2 (ix2 k l) = proj x0 x2 k l := by
  rw [val_main_v0_apply]
  unfold proj
  refine Finset.sum_congr rfl fun d _ => ?_
  rw [lidx0_eq, ridx0_eq]

/-- The embedding table at (n, l): row n of the adjacency against column l of the projected features. -/
theorem node_emb (x0 : (⟨S16384x512, .f32⟩ : BufTy).Contents (Elt Ideal)) (x1 : (⟨S16384x16384, .f32⟩ : BufTy).Contents (Elt Ideal))
    (x2 : (⟨S512x128, .f32⟩ : BufTy).Contents (Elt Ideal)) (n : Fin 16384) (l : Fin 128) :
    val_main_v1 (F := Ideal) x0 x1 x2 (ix2 n l) = emb x1 x0 x2 n l := by
  rw [val_main_v1_apply]
  unfold emb
  refine Finset.sum_congr rfl fun k _ => ?_
  rw [lidx1_eq, ridx1_eq, proj_entry]

/-- The gathered source rows: edge e, column l reads the embedding of the node its source word names. -/
theorem src_row (x0 : (⟨S16384x512, .f32⟩ : BufTy).Contents (Elt Ideal)) (x1 : (⟨S16384x16384, .f32⟩ : BufTy).Contents (Elt Ideal))
    (x2 : (⟨S512x128, .f32⟩ : BufTy).Contents (Elt Ideal)) (x5 x6 : (⟨S524288x2, .i32⟩ : BufTy).Contents (Elt Ideal)) (e : Fin 1048576) (l : Fin 128) :
    val_main_v11 (F := Ideal) x0 x1 x2 x5 x6 (ix2 e l) = emb x1 x0 x2 (nodeOf (wrapWord (edgeWord x5 x6 e 0))) l := by
  unfold val_main_v11
  rw [rows_node gather_S16384x128_S1048576x1_S1048576x128_1_0_n_n_0_1_1128 rfl rfl rfl rfl rfl rfl rfl
    (val_main_v1 (F := Ideal) x0 x1 x2) (val_main_v10 (F := Ideal) x5 x6) e l, word0, node_emb]

/-- The gathered destination rows likewise. -/
theorem dst_row (x0 : (⟨S16384x512, .f32⟩ : BufTy).Contents (Elt Ideal)) (x1 : (⟨S16384x16384, .f32⟩ : BufTy).Contents (Elt Ideal))
    (x2 : (⟨S512x128, .f32⟩ : BufTy).Contents (Elt Ideal)) (x5 x6 : (⟨S524288x2, .i32⟩ : BufTy).Contents (Elt Ideal)) (e : Fin 1048576) (l : Fin 128) :
    val_main_v20 (F := Ideal) x0 x1 x2 x5 x6 (ix2 e l) = emb x1 x0 x2 (nodeOf (wrapWord (edgeWord x5 x6 e 1))) l := by
  unfold val_main_v20
  rw [rows_node gather_S16384x128_S1048576x1_S1048576x128_1_0_n_n_0_1_1128 rfl rfl rfl rfl rfl rfl rfl
    (val_main_v1 (F := Ideal) x0 x1 x2) (val_main_v19 (F := Ideal) x5 x6) e l, word1, node_emb]

/-- The two gathered blocks joined along the columns: the concatenated pair of the two ends' embeddings. -/
theorem joined (x0 : (⟨S16384x512, .f32⟩ : BufTy).Contents (Elt Ideal)) (x1 : (⟨S16384x16384, .f32⟩ : BufTy).Contents (Elt Ideal))
    (x2 : (⟨S512x128, .f32⟩ : BufTy).Contents (Elt Ideal)) (x5 x6 : (⟨S524288x2, .i32⟩ : BufTy).Contents (Elt Ideal)) (e : Fin 1048576) (j : Fin 256) :
    val_main_v21 (F := Ideal) x0 x1 x2 x5 x6 (ix2 e j)
      = pair (fun l => emb x1 x0 x2 (nodeOf (wrapWord (edgeWord x5 x6 e 0))) l)
          (fun l => emb x1 x0 x2 (nodeOf (wrapWord (edgeWord x5 x6 e 1))) l) j := by
  unfold val_main_v21
  rw [concat_pair (val_main_v11 (F := Ideal) x0 x1 x2 x5 x6) (val_main_v20 (F := Ideal) x0 x1 x2 x5 x6)
    Gen.concatenates_S1048576x128_S1048576x128_S1048576x256_d1 e j]
  unfold pair
  by_cases hj : j.val < 128
  · rw [dif_pos hj, dif_pos hj, src_row]
  · rw [dif_neg hj, dif_neg hj, dst_row]

/-- The rectified pair. -/
theorem rectified (x0 : (⟨S16384x512, .f32⟩ : BufTy).Contents (Elt Ideal)) (x1 : (⟨S16384x16384, .f32⟩ : BufTy).Contents (Elt Ideal))
    (x2 : (⟨S512x128, .f32⟩ : BufTy).Contents (Elt Ideal)) (x5 x6 : (⟨S524288x2, .i32⟩ : BufTy).Contents (Elt Ideal)) (e : Fin 1048576) (j : Fin 256) :
    val_main_v22 (F := Ideal) x0 x1 x2 x5 x6 (ix2 e j)
      = rect (pair (fun l => emb x1 x0 x2 (nodeOf (wrapWord (edgeWord x5 x6 e 0))) l)
          (fun l => emb x1 x0 x2 (nodeOf (wrapWord (edgeWord x5 x6 e 1))) l) j) := by
  rw [val_main_v22_apply, val_main_call0_v0_apply, val_main_call0_cst_apply, joined]
  rfl

/-- The index functions of the two decoding contractions. -/
theorem lidx24_eq (e : Fin 1048576) (k : Fin 128) :
    lidx_main_v24 (ix2 e 0 : S1048576x1.Idx) k = (ix2 e k : S1048576x128.Idx) :=
  funext fun a => Fin.ext (by match a with | ⟨0, _⟩ => rfl | ⟨1, _⟩ => rfl)
theorem ridx24_eq (e : Fin 1048576) (k : Fin 128) :
    ridx_main_v24 (ix2 e 0 : S1048576x1.Idx) k = (ix2 k 0 : S128x1.Idx) :=
  funext fun a => Fin.ext (by match a with | ⟨0, _⟩ => rfl | ⟨1, _⟩ => rfl)
theorem lidx23_eq (e : Fin 1048576) (k : Fin 128) (j : Fin 256) :
    lidx_main_v23 (ix2 e k : S1048576x128.Idx) j = (ix2 e j : S1048576x256.Idx) :=
  funext fun a => Fin.ext (by match a with | ⟨0, _⟩ => rfl | ⟨1, _⟩ => rfl)
theorem ridx23_eq (e : Fin 1048576) (k : Fin 128) (j : Fin 256) :
    ridx_main_v23 (ix2 e k : S1048576x128.Idx) j = (ix2 j k : S256x128.Idx) :=
  funext fun a => Fin.ext (by match a with | ⟨0, _⟩ => rfl | ⟨1, _⟩ => rfl)

/-- The score before the logistic: the rectified pair through the first decoding matrix, then the second. -/
theorem score_entry (x0 : (⟨S16384x512, .f32⟩ : BufTy).Contents (Elt Ideal)) (x1 : (⟨S16384x16384, .f32⟩ : BufTy).Contents (Elt Ideal))
    (x2 : (⟨S512x128, .f32⟩ : BufTy).Contents (Elt Ideal)) (x3 : (⟨S256x128, .f32⟩ : BufTy).Contents (Elt Ideal))
    (x4 : (⟨S128x1, .f32⟩ : BufTy).Contents (Elt Ideal)) (x5 x6 : (⟨S524288x2, .i32⟩ : BufTy).Contents (Elt Ideal)) (e : Fin 1048576) :
    val_main_v24 (F := Ideal) x0 x1 x2 x3 x4 x5 x6 (ix2 e 0)
      = scoreJoint x3 x4 (fun l => emb x1 x0 x2 (nodeOf (wrapWord (edgeWord x5 x6 e 0))) l)
          (fun l => emb x1 x0 x2 (nodeOf (wrapWord (edgeWord x5 x6 e 1))) l) := by
  rw [val_main_v24_apply]
  unfold scoreJoint
  refine Finset.sum_congr rfl fun k _ => ?_
  rw [lidx24_eq, ridx24_eq, val_main_v23_apply]
  refine congrArg (fun s => s * x4 (ix2 k 0)) (Finset.sum_congr rfl fun j _ => ?_)
  rw [lidx23_eq, ridx23_eq, rectified]

/-- The reference's result entry for edge `e`. -/
theorem ref_entry (x0 : (⟨S16384x512, .f32⟩ : BufTy).Contents (Elt Ideal)) (x1 : (⟨S16384x16384, .f32⟩ : BufTy).Contents (Elt Ideal))
    (x2 : (⟨S512x128, .f32⟩ : BufTy).Contents (Elt Ideal)) (x3 : (⟨S256x128, .f32⟩ : BufTy).Contents (Elt Ideal))
    (x4 : (⟨S128x1, .f32⟩ : BufTy).Contents (Elt Ideal)) (x5 x6 : (⟨S524288x2, .i32⟩ : BufTy).Contents (Elt Ideal)) (e : Fin 1048576) :
    val_main_v30 (F := Ideal) x0 x1 x2 x3 x4 x5 x6 (ix2 e 0)
      = squash (scoreJoint x3 x4
          (fun l => emb x1 x0 x2 (nodeOf (wrapWord (edgeWord x5 x6 e 0))) l)
          (fun l => emb x1 x0 x2 (nodeOf (wrapWord (edgeWord x5 x6 e 1))) l)) := by
  rw [val_main_v30_apply, val_main_v29_apply, val_main_cst_3_apply, val_main_v28_apply, val_main_v27_apply,
    val_main_cst_apply, val_main_v26_apply, val_main_v25_apply, score_entry]
  rfl

end Cert.ReferenceIdeal.Score

end
-- ==== Proof.Finite.lean ====
/-
  From the precondition to finiteness: the printed predicate is the conjunction, array by array, of "every entry's
  absolute value is below the float infinity"; at the exact instance an extended real whose absolute value is below
  +infinity is a real number. So under the precondition each of the five float arguments has only real entries.
-/
import proofs.«170465_j40699110097055_1_alg».proof.Defs
import proofs.«170465_j40699110097055_1_alg».proof.Proof.Gen.Pre_finite_inputs
import proofs.«170465_j40699110097055_1_alg».proof.Proof.Spec
import Idealize.ShloMosaic.Lib.ReduceAll
import Idealize.ShloMosaic.Lib.ValueIdx
import Idealize.ShloMosaic.PureOps.Ideal.Laws

noncomputable section

namespace Cert.EdgeScore

open Idealize.ShloMosaic Idealize.ShloMosaic.ValueIdx

/-- The rank-0 index set has one element. -/
instance : Subsingleton Cert.Pre_finite_inputs.S_.Idx := ⟨fun a b => funext fun d => d.elim0⟩

/-- The bit pattern the predicate compares against denotes the top element. -/
theorem inf_bits : Ideal.ofBits .f32 0x7F800000#32 = (⊤ : EReal) := by simp [Ideal.ofBits, Ideal.ieee]

/-- An extended real whose absolute value `max a (-a)` is strictly below the top element is a real number:
    at the bottom element the negation is the top, at the top element the value itself is. -/
theorem real_of_abs_lt_top (a : EReal) (h : max a (-a) < ⊤) : ∃ x : ℝ, a = (x : EReal) := by
  induction a using EReal.rec with
  | bot => exact absurd h (by simp)
  | top => exact absurd h (by simp)
  | coe r => exact ⟨r, rfl⟩

/-- One entry that passes the test "absolute value below the float infinity" is a real number. -/
theorem real_of_test (a : Ideal .f32)
    (h : FloatOps.cmpf (F := Ideal) .olt (FloatOps.hostAbsf a) (FloatOps.ofBits .f32 0x7F800000#32) = 1#1) :
    ∃ x : ℝ, a = (x : EReal) := by
  refine real_of_abs_lt_top a ?_
  rw [Ideal.cmpf_def, Ideal.hostAbsf_def, Ideal.absf_def] at h
  have hb : FloatOps.ofBits (F := Ideal) .f32 0x7F800000#32 = (⊤ : EReal) := inf_bits
  rw [hb] at h
  have h' : BitVec.ofBool (decide (max a (-a) < (⊤ : EReal))) = 1#1 := h
  by_contra hn
  rw [decide_eq_false hn] at h'
  exact absurd h' (by decide)

/-- An array all of whose entries pass the test has only real entries: the reduction by `and` over both axes that
    came out one met a one at every index, and each such one is the entry's test. -/
theorem real2_of_all {r c : Nat} (x : FVec Ideal ⟨2, ![r, c]⟩ .f32)
    (hb : Cert.Pre_finite_inputs.S_.BroadcastsInDim ⟨2, ![r, c]⟩ (![] : Fin 0 → Fin 2))
    (hr : (⟨2, ![r, c]⟩ : Shape).ReducesTo [0, 1] Cert.Pre_finite_inputs.S_)
    (hu : 0 < Cert.Pre_finite_inputs.S_.numel) (init : IVec Cert.Pre_finite_inputs.S_ 1)
    (h : Host.reduce IntOp.andi
          (cmpf .olt (Host.absf x) (broadcastInDim ⟨2, ![r, c]⟩ ![] hb (constant Cert.Pre_finite_inputs.S_ .f32 0x7F800000#32)))
          init hr hu ix0 = 1#1) :
    Real2 (x : Arr2 r c) := fun i =>
  real_of_test (x i) (Host.reduce_andi_all _ init hr hu ix0 h i)

/-- Under the printed predicate all five float arrays have only real entries. -/
theorem real_of_pre [hP : Cert.Pre_finite_inputs.Facts]
    (x0 : FVec Ideal Cert.Pre_finite_inputs.S16384x512 .f32) (x1 : FVec Ideal Cert.Pre_finite_inputs.S16384x16384 .f32)
    (x2 : FVec Ideal Cert.Pre_finite_inputs.S512x128 .f32) (x3 : FVec Ideal Cert.Pre_finite_inputs.S256x128 .f32)
    (x4 : FVec Ideal Cert.Pre_finite_inputs.S128x1 .f32)
    (x5 x6 : IVec Cert.Pre_finite_inputs.S524288x2 32)
    (h : Cert.Pre_finite_inputs.fn (F := Ideal) x0 x1 x2 x3 x4 x5 x6 = (fun _ => 1#1)) :
    Real2 (x0 : Arr2 16384 512) ∧ Real2 (x1 : Arr2 16384 16384) ∧ Real2 (x2 : Arr2 512 128)
      ∧ Real2 (x3 : Arr2 256 128) ∧ Real2 (x4 : Arr2 128 1) := by
  -- the predicate's one entry is the conjunction ((((t0 ∧ t1) ∧ t2) ∧ t3) ∧ t4) of the five arrays' tests
  have h0 := congrFun h ix0
  unfold Cert.Pre_finite_inputs.fn Cert.Pre_finite_inputs.fn_part1 at h0
  dsimp only at h0
  obtain ⟨h0, e4⟩ := IntOp.andi_eq_one.1 h0
  obtain ⟨h0, e3⟩ := IntOp.andi_eq_one.1 h0
  obtain ⟨h0, e2⟩ := IntOp.andi_eq_one.1 h0
  obtain ⟨e0, e1⟩ := IntOp.andi_eq_one.1 h0
  exact ⟨real2_of_all x0 _ _ _ _ e0, real2_of_all x1 _ _ _ _ e1, real2_of_all x2 _ _ _ _ e2,
    real2_of_all x3 _ _ _ _ e3, real2_of_all x4 _ _ _ _ e4⟩

end Cert.EdgeScore

end
-- ==== Proof.lean ====
/-
  The certificate: a two-launch edge scorer against its jnp reference.
  The kernel computes node embeddings Z = adj · (X · W) in two launches (the projection X · W, then adj times it,
  accumulated over sixteen column steps in a scratch accumulator, with the decoder folded into the last step:
  relu(Z) times the 128 x 2 matrix whose columns are the two halves of the first decoding matrix already contracted
  with the second), and scores an edge (s, d) as the logistic of P[s, 0] + P[d, 1]. The reference gathers the two
  embeddings, concatenates them, rectifies, and applies the two decoding matrices in turn. Over finite inputs the two
  scores are one number: the sum over the 256 concatenated columns splits into its halves and the products of sums are
  sums of products (Spec.lean, the only place finiteness is used).
  The three frames: both kernel programs by one run theorem each, stated once for every float instance (K/ and KI/:
  the same text at the two programs' namespaces) — @main as four stretches, the two launches' pipelines with their
  body obligations, the second launch's accumulator carried in its invariant; the reference's by its run read back.
  The idealization rewrote nothing, so there is nothing to preserve.
-/
import proofs.«170465_j40699110097055_1_alg».proof.Defs
import proofs.«170465_j40699110097055_1_alg».proof.Proof.Gen.Kernel
import proofs.«170465_j40699110097055_1_alg».proof.Proof.Gen.KernelIdeal
import proofs.«170465_j40699110097055_1_alg».proof.Proof.Gen.ReferenceIdeal
import proofs.«170465_j40699110097055_1_alg».proof.Proof.Gen.Pre_finite_inputs
import proofs.«170465_j40699110097055_1_alg».proof.Proof.K.Kept
import proofs.«170465_j40699110097055_1_alg».proof.Proof.KI.Entry
import proofs.«170465_j40699110097055_1_alg».proof.Proof.RefScore
import proofs.«170465_j40699110097055_1_alg».proof.Proof.Finite
import Idealize.ShloMosaic.Adequacy
import Idealize.ShloMosaic.Init

noncomputable section

namespace Cert.Proof

open Idealize.ShloMosaic Idealize.ShloMosaic.TcCoe Idealize.ShloMosaic.ValueIdx Idealize.SL.Sem Cert.EdgeScore

/-- The word-level kernel runs to the end with its arguments unchanged. -/
theorem frame_k : Cert.frame_Kernel (hKernel := Cert.Kernel.Gen.facts) (hPre_finite_inputs := Cert.Pre_finite_inputs.Gen.facts) :=
  fun m ρ _ => Cert.Kernel.Enc.args_kept (F := Bits) m ρ

/-- So does the idealized kernel. -/
theorem frame_ki : Cert.frame_KernelIdeal (hKernelIdeal := Cert.KernelIdeal.Gen.facts) (hPre_finite_inputs := Cert.Pre_finite_inputs.Gen.facts) :=
  fun m ρ _ => Cert.KernelIdeal.Enc.args_kept (F := Ideal) m ρ

/-- The reference's frame is its run with the result dropped. -/
theorem frame_r : Cert.frame_ReferenceIdeal (hReferenceIdeal := Cert.ReferenceIdeal.Gen.facts) (hPre_finite_inputs := Cert.Pre_finite_inputs.Gen.facts) :=
  fun m ρ _ => (θ_run Cert.ReferenceIdeal.defs _ _).mono (fun _ h c => (h c).2) (Cert.ReferenceIdeal.ValueP.run (F := Ideal) m ρ)

/-- Both idealized programs end with the same scores: edge by edge, the kernel's split arrangement and the reference's
    joint arrangement of the score of the same two embeddings, equal over finite inputs. -/
theorem algebraic : Cert.algebraic_KernelIdeal_ReferenceIdeal (hKernelIdeal := Cert.KernelIdeal.Gen.facts)
    (hReferenceIdeal := Cert.ReferenceIdeal.Gen.facts) (hPre_finite_inputs := Cert.Pre_finite_inputs.Gen.facts) := by
  intro m ρ m' ρ' hpre hagree
  refine ⟨fun c => Cert.KernelIdeal.Enc.atEnd (F := Ideal) m c Cert.KernelIdeal.main_v37,
    Cert.KernelIdeal.Enc.result_named (F := Ideal) m ρ, ?_⟩
  refine (θ_run Cert.ReferenceIdeal.defs _ _).mono (fun _ h c => ⟨(h c).1.trans ?_, (h c).2⟩)
    (Cert.ReferenceIdeal.ValueP.run (F := Ideal) m' ρ')
  -- the reference's composed term is its last stage, read at the reference's own arguments
  refine (Cert.ReferenceIdeal.ReadP.val_main_v30_eq (F := Ideal)
    (m' ((c.tc : Thread Cert.ReferenceIdeal.nD Cert.ReferenceIdeal.τ).loc Cert.ReferenceIdeal.main_arg0))
    (m' ((c.tc : Thread Cert.ReferenceIdeal.nD Cert.ReferenceIdeal.τ).loc Cert.ReferenceIdeal.main_arg1))
    (m' ((c.tc : Thread Cert.ReferenceIdeal.nD Cert.ReferenceIdeal.τ).loc Cert.ReferenceIdeal.main_arg2))
    (m' ((c.tc : Thread Cert.ReferenceIdeal.nD Cert.ReferenceIdeal.τ).loc Cert.ReferenceIdeal.main_arg3))
    (m' ((c.tc : Thread Cert.ReferenceIdeal.nD Cert.ReferenceIdeal.τ).loc Cert.ReferenceIdeal.main_arg4))
    (m' ((c.tc : Thread Cert.ReferenceIdeal.nD Cert.ReferenceIdeal.τ).loc Cert.ReferenceIdeal.main_arg5))
    (m' ((c.tc : Thread Cert.ReferenceIdeal.nD Cert.ReferenceIdeal.τ).loc Cert.ReferenceIdeal.main_arg6))).trans ?_
  -- which agree with the kernel's
  rw [(hagree c).1, (hagree c).2.1, (hagree c).2.2.1, (hagree c).2.2.2.1, (hagree c).2.2.2.2.1, (hagree c).2.2.2.2.2.1, (hagree c).2.2.2.2.2.2]
  obtain ⟨hX, hA, hW, hW2, hW3⟩ := real_of_pre (hP := Cert.Pre_finite_inputs.Gen.facts) _ _ _ _ _ _ _ (hpre c)
  funext i
  obtain ⟨e, rfl⟩ : ∃ e : Fin 1048576, i = ix2 e 0 :=
    ⟨i 0, (eq_ix2 i).trans (congrArg (ix2 (i 0)) (Subsingleton.elim (α := Fin 1) _ _))⟩
  refine (Cert.ReferenceIdeal.Score.ref_entry _ _ _ _ _ _ _ e).trans ?_
  refine Eq.trans ?_ (Cert.KernelIdeal.Enc.ker_entry m c e).symm
  exact congrArg squash (score_eq hW2 hW3 _ _ (fun l => emb_real hA hX hW _ l) (fun l => emb_real hA hX hW _ l)).symm

theorem claim : Cert.Claim :=
  ⟨Cert.Kernel.Gen.facts, Cert.KernelIdeal.Gen.facts, Cert.ReferenceIdeal.Gen.facts, Cert.Pre_finite_inputs.Gen.facts,
    frame_k, frame_ki, frame_r, trivial, algebraic⟩

end Cert.Proof

end
